-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S2x800000 32) (main_arg2 : FVec F S800000 .f32) (main_arg3 : IVec S50000 32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S5000x128 : Shape := ⟨2, ![5000, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000x64 : Shape := ⟨2, ![50000, 64]⟩
abbrev S5000x64 : Shape := ⟨2, ![5000, 64]⟩
abbrev S1x64 : Shape := ⟨2, ![1, 64]⟩
abbrev S800000x64 : Shape := ⟨2, ![800000, 64]⟩
abbrev S50000x1 : Shape := ⟨2, ![50000, 1]⟩
abbrev S16x64 : Shape := ⟨2, ![16, 64]⟩
abbrev S5000x1 : Shape := ⟨2, ![5000, 1]⟩
abbrev S16x1 : Shape := ⟨2, ![16, 1]⟩
abbrev S5000x16 : Shape := ⟨2, ![5000, 16]⟩
abbrev S16 : Shape := ⟨1, ![16]⟩
abbrev S1x16 : Shape := ⟨2, ![1, 16]⟩

abbrev nBuf : Space → Nat
  | .hbm => 73
  | .vmem => 37
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000x128, .f32⟩
  | .hbm, ⟨15, _⟩ => ⟨S50000x128, .bf16⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .bf16⟩
  | .hbm, ⟨25, _⟩ => ⟨S800000x128, .f32⟩
  | .hbm, ⟨26, _⟩ => ⟨S800000x1, .f32⟩
  | .hbm, ⟨27, _⟩ => ⟨S800000x128, .f32⟩
  | .hbm, ⟨28, _⟩ => ⟨S800000x128, .f32⟩
  | .hbm, ⟨29, _⟩ => ⟨S_, .f32⟩
  | .hbm, ⟨30, _⟩ => ⟨S50000x128, .f32⟩
  | .hbm, ⟨31, _⟩ => ⟨S800000x1, .i32⟩
  | .hbm, ⟨32, _⟩ => ⟨S50000x128, .f32⟩
  | .hbm, ⟨33, _⟩ => ⟨S50000x128, .f32⟩
  | .hbm, ⟨34, _⟩ => ⟨S50000x128, .bf16⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .bf16⟩
  | .hbm, ⟨44, _⟩ => ⟨S800000x128, .f32⟩
  | .hbm, ⟨45, _⟩ => ⟨S800000x1, .f32⟩
  | .hbm, ⟨46, _⟩ => ⟨S800000x128, .f32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S50000x64, .f32⟩
  | .hbm, ⟨53, _⟩ => ⟨S50000x64, .bf16⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x64, .bf16⟩
  | .hbm, ⟨63, _⟩ => ⟨S800000x64, .f32⟩
  | .hbm, ⟨64, _⟩ => ⟨S800000x1, .f32⟩
  | .hbm, ⟨65, _⟩ => ⟨S800000x64, .f32⟩
  | .hbm, ⟨66, _⟩ => ⟨S800000x64, .f32⟩
  | .hbm, ⟨67, _⟩ => ⟨S_, .f32⟩
  | .hbm, ⟨68, _⟩ => ⟨S50000x64, .f32⟩
  | .hbm, ⟨69, _⟩ => ⟨S800000x1, .i32⟩
  | .hbm, ⟨70, _⟩ => ⟨S50000x64, .f32⟩
  | .hbm, ⟨71, _⟩ => ⟨S50000x1, .i32⟩
  | .hbm, ⟨72, _⟩ => ⟨S16x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .bf16⟩
  | .local _ .vmem, ⟨7, _⟩ => ⟨S5000x128, .bf16⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S5000x128, .bf16⟩
  | .local _ .vmem, ⟨17, _⟩ => ⟨S5000x128, .bf16⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S64, .f32⟩
  | .local _ .vmem, ⟨24, _⟩ => ⟨S5000x64, .f32⟩
  | .local _ .vmem, ⟨25, _⟩ => ⟨S5000x64, .f32⟩
  | .local _ .vmem, ⟨26, _⟩ => ⟨S5000x64, .bf16⟩
  | .local _ .vmem, ⟨27, _⟩ => ⟨S5000x64, .bf16⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x1, .i32⟩
  | .local _ .vmem, ⟨33, _⟩ => ⟨S5000x1, .i32⟩
  | .local _ .vmem, ⟨34, _⟩ => ⟨S16x64, .f32⟩
  | .local _ .vmem, ⟨35, _⟩ => ⟨S16x64, .f32⟩
  | .local _ .vmem, ⟨36, _⟩ => ⟨S16x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34_0 : Ref sig .tc := ⟨.hbm, 52, rfl⟩
abbrev main_v34_1 : Ref sig .tc := ⟨.hbm, 53, rfl⟩
abbrev main_c_4 : Ref sig .tc := ⟨.hbm, 54, rfl⟩
abbrev main_v35 : Ref sig .tc := ⟨.hbm, 55, rfl⟩
abbrev main_v36 : Ref sig .tc := ⟨.hbm, 56, rfl⟩
abbrev main_c_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_scratch0 : Ref sig .tc := ⟨.vmem, 35, rfl⟩
abbrev cc3_scratch1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x64 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v29 : BitVec 1 := Scalar.cmpi .eq arg0 c9_i32
  let v30 : BitVec 32 := Scalar.extui v29
  let c0_i32_15 : BitVec 32 := 0#32
  let v31 : BitVec 1 := Scalar.cmpi .ne v30 c0_i32_15
  v31

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S16x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S50000_S50000x1 : S50000.ShapeCasts S50000x1
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S16x1_S16x1_0_0 : ∀ a, (![0, 0] : Fin 2 → Nat) a + S16x1.size a ≤ S16x1.size a
  h_S16x1 : 0 < S16x1.numel
  shapeCasts_S16x1_S16x1 : S16x1.ShapeCasts S16x1
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x16_d1_w32 : S5000x16.Iotas .tc 32 [1]
  broadcasts_S5000x1_S5000x16 : S5000x1.Broadcasts S5000x16
  natLt_1_32 : 1 < 32
  reduces_S5000x16_S16 : S5000x16.Reduces [0] S16
  shapeCasts_S16_S1x16 : S16.ShapeCasts S1x16
  transposes_S1x16_p1_0_S16x1 : S1x16.Transposes [1, 0] S16x1
  broadcasts_S16x1_S16x64 : S16x1.Broadcasts S16x64
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x16_S5000x64_S16x64_0_0_1_1_n_n_wf : DotDims.WF S5000x16 S5000x64 S16x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .bf16 = 32 ∨ (Rect.block (s := S50000x128) S5000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .bf16 = 32 ∨ (Rect.block (s := S50000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .bf16 = 32 ∨ (Rect.block (s := S50000x64) S5000x64.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .i32 = 32 ∨ (Rect.block (s := S50000x1) S5000x1.size (cc3_transform_2 i) (hinb3_2 i)).WholeWords (EltTy.packing .i32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x64.size a ≤ S16x64.size a
  hwx3_3 : ∀ i : grid3.Coords, EltTy.bits .f32 = 32 ∨ (Rect.block (s := S16x64) S16x64.size (cc3_transform_3 i) (hinb3_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x16_S5000x64_S16x64_0_0_1_1_n_n : DotDims S5000x16 S5000x64 S16x64 where
  lhsContracting := [0]
  rhsContracting := [0]
  lhsNonContracting := [1]
  rhsNonContracting := [1]
  lhsBatch := []
  rhsBatch := []
  wf := dot_S5000x16_S5000x64_S16x64_0_0_1_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v19_1) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v33) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19_0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34_0) S5000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v34_1) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v48) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34_0) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v49) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v50) S16x64.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000x64 : Shape := ⟨2, ![50000, 64]⟩
abbrev S1x64 : Shape := ⟨2, ![1, 64]⟩
abbrev S800000x64 : Shape := ⟨2, ![800000, 64]⟩
abbrev S16x64 : Shape := ⟨2, ![16, 64]⟩
abbrev S50000x1 : Shape := ⟨2, ![50000, 1]⟩
abbrev S16 : Shape := ⟨1, ![16]⟩
abbrev S16x1 : Shape := ⟨2, ![16, 1]⟩

abbrev nBuf : Space → Nat
  | .hbm => 93
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000x128, .f32⟩
  | .hbm, ⟨15, _⟩ => ⟨S1x128, .f32⟩
  | .hbm, ⟨16, _⟩ => ⟨S50000x128, .f32⟩
  | .hbm, ⟨17, _⟩ => ⟨S50000x128, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S800000x1, .f32⟩
  | .hbm, ⟨28, _⟩ => ⟨S800000x128, .f32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S800000x1, .f32⟩
  | .hbm, ⟨49, _⟩ => ⟨S800000x128, .f32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S50000x64, .f32⟩
  | .hbm, ⟨57, _⟩ => ⟨S1x64, .f32⟩
  | .hbm, ⟨58, _⟩ => ⟨S50000x64, .f32⟩
  | .hbm, ⟨59, _⟩ => ⟨S50000x64, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x64, .f32⟩
  | .hbm, ⟨69, _⟩ => ⟨S800000x1, .f32⟩
  | .hbm, ⟨70, _⟩ => ⟨S800000x64, .f32⟩
  | .hbm, ⟨71, _⟩ => ⟨S800000x64, .f32⟩
  | .hbm, ⟨72, _⟩ => ⟨S_, .f32⟩
  | .hbm, ⟨73, _⟩ => ⟨S50000x64, .f32⟩
  | .hbm, ⟨74, _⟩ => ⟨S800000x1, .i32⟩
  | .hbm, ⟨75, _⟩ => ⟨S50000x64, .f32⟩
  | .hbm, ⟨76, _⟩ => ⟨S50000x64, .f32⟩
  | .hbm, ⟨77, _⟩ => ⟨S_, .f32⟩
  | .hbm, ⟨78, _⟩ => ⟨S16x64, .f32⟩
  | .hbm, ⟨79, _⟩ => ⟨S50000x1, .i32⟩
  | .hbm, ⟨80, _⟩ => ⟨S16x64, .f32⟩
  | .hbm, ⟨81, _⟩ => ⟨S_, .f32⟩
  | .hbm, ⟨82, _⟩ => ⟨S50000, .f32⟩
  | .hbm, ⟨83, _⟩ => ⟨S_, .f32⟩
  | .hbm, ⟨84, _⟩ => ⟨S16, .f32⟩
  | .hbm, ⟨85, _⟩ => ⟨S50000x1, .i32⟩
  | .hbm, ⟨86, _⟩ => ⟨S16, .f32⟩
  | .hbm, ⟨87, _⟩ => ⟨S_, .f32⟩
  | .hbm, ⟨88, _⟩ => ⟨S16, .f32⟩
  | .hbm, ⟨89, _⟩ => ⟨S16, .f32⟩
  | .hbm, ⟨90, _⟩ => ⟨S16x1, .f32⟩
  | .hbm, ⟨91, _⟩ => ⟨S16x64, .f32⟩
  | .hbm, ⟨92, _⟩ => ⟨S16x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_1 : Ref sig .tc := ⟨.hbm, 39, rfl⟩
abbrev main_v26 : Ref sig .tc := ⟨.hbm, 40, rfl⟩
abbrev main_v27 : Ref sig .tc := ⟨.hbm, 41, rfl⟩
abbrev main_c_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_4 : Ref sig .tc := ⟨.hbm, 60, rfl⟩
abbrev main_v44 : Ref sig .tc := ⟨.hbm, 61, rfl⟩
abbrev main_v45 : Ref sig .tc := ⟨.hbm, 62, rfl⟩
abbrev main_c_5 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_6 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_7 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_8 : Ref sig .tc := ⟨.hbm, 81, rfl⟩
abbrev main_v61 : Ref sig .tc := ⟨.hbm, 82, rfl⟩
abbrev main_cst_9 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_10 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S_S16x64 : S_.BroadcastsInDim S16x64 (![] : Fin 0 → Fin S16x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S16 : S_.BroadcastsInDim S16 (![] : Fin 0 → Fin S16.rank)
  bcast_S16_S16x1_0 : S16.BroadcastsInDim S16x1 (![0] : Fin 1 → Fin S16x1.rank)
  bcast_S16x1_S16x64_0_1 : S16x1.BroadcastsInDim S16x64 (![0, 1] : Fin 2 → Fin S16x64.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S16x64_S50000x1_S50000x64_1_0_0_1_wf : ScatterDims.WF S16x64 S50000x1 S50000x64 [1] [0] [0] 1
  scatter_S16_S50000x1_S50000_n_0_0_1_wf : ScatterDims.WF S16 S50000x1 S50000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S16x64_S50000x1_S50000x64_1_0_0_1 : ScatterDims S16x64 S50000x1 S50000x64 where
  updateWindowDims := [1]
  insertedWindowDims := [0]
  scatterDimsToOperandDims := [0]
  indexVectorDim := 1
  wf := scatter_S16x64_S50000x1_S50000x64_1_0_0_1_wf
def scatter_S16_S50000x1_S50000_n_0_0_1 : ScatterDims S16 S50000x1 S50000 where
  updateWindowDims := []
  insertedWindowDims := [0]
  scatterDimsToOperandDims := [0]
  indexVectorDim := 1
  wf := scatter_S16_S50000x1_S50000_n_0_0_1_wf

class Facts : Prop extends Facts₀ where

variable [Facts]
-- ==== Proof.K.Blocks.lean ====
import proofs.«412827_j90649579749762_2_alg».proof.Proof.KernelP.Launch
import proofs.«412827_j90649579749762_2_alg».proof.Proof.Gen.Kernel.Skeleton
import proofs.«412827_j90649579749762_2_alg».proof.Proof.Gen.Kernel.Points
import Idealize.ShloMosaic.Lib.Pipeline.FrameBody

/-!
The blocks the four pipelines hand their kernels, read off the arrays as each region finds them, and what the
pooling kernel's two scratch accumulators hold after a number of grid points.

Every statement is made at a parameter `V`: core `c`'s buffer contents when the region is entered.
-/

noncomputable section

namespace Cert.Kernel.Hand

open Idealize.ShloMosaic Idealize.ShloMosaic.TcCoe
open Idealize.SL Idealize.SL.Sem
open Cert.Kernel.Gen Cert.Kernel.GenP

variable {F : FTy → Type} [FloatOps F]
variable (V : (c : Dev nD) → (b : Ref sig .tc) → Buf (Elt F) ((c : Thread nD τ).loc b))

/-- Window `w`'s block at point `t` of the first linear layer's pipeline, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block at point `t` of the second linear layer's pipeline. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window `w`'s block at point `t` of the third linear layer's pipeline. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window `w`'s block at point `t` of the pooling pipeline. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The per-graph sums accumulator after `n` grid points: zero before the first point (the kernel resets it there),
    then each point adds its tile's one-hot product. -/
def sums3 (c : Dev nD) : ℕ → Vec F S16x64 .f32
  | 0 => k3_pay1 (F := F)
  | n + 1 => if h : n < cfg3.N then k3_pay4 (iblk3 V c 0 ⟨n, h⟩) (iblk3 V c 1 ⟨n, h⟩) (iblk3 V c 2 ⟨n, h⟩) (sums3 c n) else sums3 c n

/-- The per-graph row counts accumulator after `n` grid points, in the same way. -/
def counts3 (c : Dev nD) : ℕ → Vec F S16x1 .f32
  | 0 => k3_pay2 (F := F)
  | n + 1 => if h : n < cfg3.N then k3_pay5 (iblk3 V c 2 ⟨n, h⟩) (counts3 c n) else counts3 c n

/-- What the pooling kernel stores into its output block at the last point: the sums over the counts clamped at one. -/
def pooled3 (c : Dev nD) : Vec F S16x64 .f32 := k3_pay6 (sums3 V c cfg3.N) (counts3 V c cfg3.N)

end Cert.Kernel.Hand

end
-- ==== Proof.K.Region0.lean ====
import proofs.«412827_j90649579749762_2_alg».proof.Proof.K.Blocks
import Idealize.ShloMosaic.Lib.Pipeline.FrameBody
import Idealize.ShloMosaic.Lib.Pipeline.Value
import Idealize.ShloMosaic.Lib.Ring
import Idealize.ShloMosaic.Lib.Tactic

/-!
The first linear layer's pipeline (five windows: the row tile, the weight matrix, the bias vector; the f32 result tile
and its bf16 rounding), at a parameter V: the core's buffer contents when the region is entered.

The body loads each whole input buffer, and stores one whole payload into each output buffer. So each input's staging
buffer holds its block at every point, the two outputs' buffers hold the two payloads of the three input blocks after
the body, and the body's triple follows by running its skeleton of memory operations.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Kernel.GenP

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers hold their blocks -/

/-- The row tile's current staging buffer holds its block at every point, fetched there or not, for any proof data
    whose array is the entry contents and whose body leaves the block in place: unfetched, the block index has not
    moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer, in the same way: one block, the same at every point, fetched at the first. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias vector's staging buffer, in the same way. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is of a whole staging buffer, at offset zero -/

theorem zero0_t : (![0, 0] : Fin 2 → Nat) = fun _ => 0 := funext fun a => by fin_cases a <;> rfl
theorem zero0_b : (![0] : Fin 1 → Nat) = fun _ => 0 := funext fun a => by fin_cases a; rfl

/-- The whole row tile (and each output tile, of the same shape). -/
abbrev r0_t : Rect S5000x128 := Rect.unit (s := S5000x128) ![0, 0] S5000x128.size inb_S5000x128_S5000x128_0_0
/-- The whole weight matrix. -/
abbrev r0_w : Rect S128x128 := Rect.unit (s := S128x128) ![0, 0] S128x128.size inb_S128x128_S128x128_0_0
/-- The whole bias vector. -/
abbrev r0_b : Rect S128 := Rect.unit (s := S128) ![0] S128.size inb_S128_S128_0

/-! ## What the body leaves in each output window's buffer -/

/-- The f32 result's staging buffer after the body, from the input blocks: its one store as a piece over the values
    the loads read. -/
def out0_3 (x0 : Vec F S5000x128 .f32) (x1 : Vec F S128x128 .f32) (x2 : Vec F S128 .f32) : Vec F S5000x128 .f32 :=
  View.canon [⟨r0_t, k0_pay1 (View.ld x0 r0_t) (View.ld x1 r0_w) (View.ld x2 r0_b)⟩]

/-- The bf16 result's staging buffer after the body, in the same way. -/
def out0_4 (x0 : Vec F S5000x128 .f32) (x1 : Vec F S128x128 .f32) (x2 : Vec F S128 .f32) : Vec F S5000x128 .bf16 :=
  View.canon [⟨r0_t, k0_pay2 (View.ld x0 r0_t) (View.ld x1 r0_w) (View.ld x2 r0_b)⟩]

/-- A load of a whole buffer reads its contents and one whole store leaves its payload: the f32 output is the first
    payload of the three input blocks. -/
theorem out0_3_eq (x0 : Vec F S5000x128 .f32) (x1 : Vec F S128x128 .f32) (x2 : Vec F S128 .f32) :
    out0_3 x0 x1 x2 = k0_pay1 x0 x1 x2 := by
  unfold out0_3
  rw [View.canon_unit_zero (S := S5000x128) zero0_t, View.ld_unit_zero (S := S5000x128) zero0_t,
    View.ld_unit_zero (S := S128x128) zero0_t, View.ld_unit_zero (S := S128) zero0_b]

/-- The bf16 output is the second payload of the three input blocks. -/
theorem out0_4_eq (x0 : Vec F S5000x128 .f32) (x1 : Vec F S128x128 .f32) (x2 : Vec F S128 .f32) :
    out0_4 x0 x1 x2 = k0_pay2 x0 x1 x2 := by
  unfold out0_4
  rw [View.canon_unit_zero (S := S5000x128) zero0_t, View.ld_unit_zero (S := S5000x128) zero0_t,
    View.ld_unit_zero (S := S128x128) zero0_t, View.ld_unit_zero (S := S128) zero0_b]

/-- The one store into an output tile covers it: every index is in the whole rectangle. -/
theorem cover0_t {e : EltTy} (p0 : r0_t.shape.Idx → Elt F e) (y : S5000x128.Idx) :
    ∃ pc ∈ ([⟨r0_t, p0⟩] : List (View.Piece (Elt F) S5000x128 e)), y ∈ pc.1.set :=
  ⟨_, List.mem_singleton_self _, View.mem_set_unit_zero (S := S5000x128) zero0_t inb_S5000x128_S5000x128_0_0 y⟩

/-! ## The body's triple -/

set_option maxHeartbeats 1000000 in
/-- The kernel body on whole staging memrefs, the inputs' at read contents and the outputs' at anything, runs to the
    continuation holding the inputs' as they were and each output's at its canon of the inputs': the printed function
    is its skeleton of memory operations, which is run operation by operation. -/
theorem sound_kernel0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S128 .f32) (harg3 : arg3.IsWhole)
    (arg4 : Memref sig .tc .vmem S5000x128 .f32) (harg4 : arg4.IsWhole)
    (arg5 : Memref sig .tc .vmem S5000x128 .bf16) (harg5 : arg5.IsWhole)
    (x0 : Vec F S5000x128 .f32) (x1 : Vec F S128x128 .f32) (x2 : Vec F S128 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 x0 x1 x2)
            ∗ owns (c : Thread nD τ) arg5 fullShare (out0_4 x0 x1 x2)) -∗ K ⟨⟩))
      ⊢ wp frame (wpE (defs₀ (F := F)) Variants.none c none) E
          (cc0__linear_kernel i arg1 harg1 arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_t _)
  iexists _; isplitr
  swap; · iexact H4
  ipureintro
  exact View.read_writes_eq_canon _ _ _ (cover0_t _)

/-! ## The pipeline's proof data -/

/-- The proof data of the first linear layer's pipeline on core c: the arrays as the region finds them; after the
    body at point t each input's buffer at its block and each output's at its payload of the three input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
    | ⟨4, _⟩ => k0_pay2 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]
theorem after0_4 (c : Dev nD) (t : Fin cfg0.N) :
    (dat0 V c).after 4 t = k0_pay2 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t: the invariant, the core's debts, and the five windows' current staging
    buffers one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, ← out0_3_eq, ← out0_4_eq]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
import proofs.«412827_j90649579749762_2_alg».proof.Proof.K.Blocks
import Idealize.ShloMosaic.Lib.Pipeline.FrameBody
import Idealize.ShloMosaic.Lib.Pipeline.Value
import Idealize.ShloMosaic.Lib.Ring
import Idealize.ShloMosaic.Lib.Tactic

/-!
The second linear layer's pipeline (six windows: the aggregate tile, the feature tile, the weight matrix, the bias
vector, and the two result tiles in f32 and bf16), its frame half, at a parameter `V`: core `c`'s buffer contents
when the region is entered.

Every load and every store of the body moves a WHOLE staging buffer, through the unit rectangle at offset zero; so
each input buffer holds its window's block at every point and is left as found, and each result buffer is left at
its payload of the four input blocks.
-/

-- a rectangle of these extents: the elaborator's structural look recurses once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel.Gen Cert.Kernel.GenP

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input buffer holds its window's block -/

/-- The aggregate tile's current buffer holds the window's block at every point, for any proof data whose array is
    `V`'s and whose body leaves the block in place: a point that fetches puts the block there; a point that does not
    has the block index of the point before, whose block the body left. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The feature tile's buffer, in the same way. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The weight matrix's buffer: fetched at the first point only, its block index never moves. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The bias vector's buffer, likewise fetched once. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's rectangles: each the whole buffer, at offset zero -/

abbrev r1_0 : Rect S5000x128 := Rect.unit (s := S5000x128) ![0, 0] S5000x128.size inb_S5000x128_S5000x128_0_0
abbrev r1_1 : Rect S128x128 := Rect.unit (s := S128x128) ![0, 0] S128x128.size inb_S128x128_S128x128_0_0
abbrev r1_2 : Rect S128 := Rect.unit (s := S128) ![0] S128.size inb_S128_S128_0

/-- The offsets of the two-axis rectangles are zero, -/
theorem zero1_2 : (![0, 0] : Fin 2 → Nat) = fun _ => 0 := funext fun a => by fin_cases a <;> rfl
/-- and so is the one-axis rectangle's. -/
theorem zero1_1 : (![0] : Fin 1 → Nat) = fun _ => 0 := funext fun a => by fin_cases a; rfl

/-! ## What the body leaves in each result buffer -/

/-- The f32 result buffer after the body, from the contents of the four input buffers: its one store as a piece, the
    payload taken at what the loads read. -/
def out1_4 (x0 x1 : Vec F S5000x128 .f32) (x2 : Vec F S128x128 .f32) (x3 : Vec F S128 .f32) : Vec F S5000x128 .f32 :=
  View.canon [⟨r1_0, k1_pay1 (View.ld x0 r1_0) (View.ld x1 r1_0) (View.ld x2 r1_1) (View.ld x3 r1_2)⟩]

/-- The bf16 result buffer after the body, in the same way. -/
def out1_5 (x0 x1 : Vec F S5000x128 .f32) (x2 : Vec F S128x128 .f32) (x3 : Vec F S128 .f32) : Vec F S5000x128 .bf16 :=
  View.canon [⟨r1_0, k1_pay2 (View.ld x0 r1_0) (View.ld x1 r1_0) (View.ld x2 r1_1) (View.ld x3 r1_2)⟩]

/-- The one store is of the whole buffer, so it covers it. -/
theorem cover1_4 (p : Vec F S5000x128 .f32) (y : S5000x128.Idx) :
    ∃ pc ∈ ([⟨r1_0, p⟩] : List (View.Piece (Elt F) S5000x128 .f32)), y ∈ pc.1.set :=
  ⟨_, List.mem_singleton_self _, View.mem_set_unit_zero zero1_2 inb_S5000x128_S5000x128_0_0 y⟩

theorem cover1_5 (p : Vec F S5000x128 .bf16) (y : S5000x128.Idx) :
    ∃ pc ∈ ([⟨r1_0, p⟩] : List (View.Piece (Elt F) S5000x128 .bf16)), y ∈ pc.1.set :=
  ⟨_, List.mem_singleton_self _, View.mem_set_unit_zero zero1_2 inb_S5000x128_S5000x128_0_0 y⟩

/-- A whole-buffer load reads the contents and one whole-buffer store leaves its payload: the f32 result buffer is left
    at the payload of the four input buffers' contents, -/
theorem out1_4_eq (x0 x1 : Vec F S5000x128 .f32) (x2 : Vec F S128x128 .f32) (x3 : Vec F S128 .f32) :
    out1_4 x0 x1 x2 x3 = k1_pay1 x0 x1 x2 x3 := by
  unfold out1_4
  rw [View.canon_unit_zero zero1_2]
  simp only [View.ld_unit_zero (S := S5000x128) zero1_2, View.ld_unit_zero (S := S128x128) zero1_2,
    View.ld_unit_zero (S := S128) zero1_1]

/-- and the bf16 one at its payload. -/
theorem out1_5_eq (x0 x1 : Vec F S5000x128 .f32) (x2 : Vec F S128x128 .f32) (x3 : Vec F S128 .f32) :
    out1_5 x0 x1 x2 x3 = k1_pay2 x0 x1 x2 x3 := by
  unfold out1_5
  rw [View.canon_unit_zero zero1_2]
  simp only [View.ld_unit_zero (S := S5000x128) zero1_2, View.ld_unit_zero (S := S128x128) zero1_2,
    View.ld_unit_zero (S := S128) zero1_1]

/-! ## The body's triple -/

set_option maxHeartbeats 1000000 in
/-- The body on whole staging memrefs, the four inputs' at read contents `x0 … x3` and the two results' at anything, runs
    to the continuation holding the inputs' as they were and each result's at its `out1_W` of the inputs: the printed
    function is its skeleton of loads and stores, run operation by operation; each result buffer then reads as the
    canonical contents of its one covering store. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128 .f32) (harg4 : arg4.IsWhole)
    (arg5 : Memref sig .tc .vmem S5000x128 .f32) (harg5 : arg5.IsWhole) (arg6 : Memref sig .tc .vmem S5000x128 .bf16) (harg6 : arg6.IsWhole)
    (x0 x1 : Vec F S5000x128 .f32) (x2 : Vec F S128x128 .f32) (x3 : Vec F S128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)
            ∗ owns (c : Thread nD τ) arg6 fullShare (out1_5 x0 x1 x2 x3)) -∗ K ⟨⟩))
      ⊢ wp frame (wpE (defs₀ (F := F)) Variants.none c none) E
          (cc1__linear_fused_kernel i arg1 harg1 arg2 harg2 arg3 harg3 arg4 harg4 arg5 harg5 arg6 harg6) K := by
  simp only [cc1__linear_fused_kernel_eq_skeleton]; unfold cc1__linear_fused_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The pipeline's proof data -/

/-- The proof data of the pipeline on core `c`: the arrays as the region finds them; after the body at point `t` each
    input's buffer at its block and each result's at its payload of the four input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (iblk1 V c 0 t) (iblk1 V c 1 t) (iblk1 V c 2 t) (iblk1 V c 3 t)
    | ⟨5, _⟩ => k1_pay2 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay1 (iblk1 V c 0 t) (iblk1 V c 1 t) (iblk1 V c 2 t) (iblk1 V c 3 t) := by dsimp only [dat1]
theorem after1_5 (c : Dev nD) (t : Fin cfg1.N) :
    (dat1 V c).after 5 t = k1_pay2 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies, and what it leaves in
    the result buffers is their payloads; the invariant and the core's tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, ← out1_4_eq, ← out1_5_eq]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
import proofs.«412827_j90649579749762_2_alg».proof.Proof.K.Blocks
import Idealize.ShloMosaic.Lib.Pipeline.FrameBody
import Idealize.ShloMosaic.Lib.Pipeline.Value
import Idealize.ShloMosaic.Lib.Ring
import Idealize.ShloMosaic.Lib.Tactic

/-!
The third linear layer's pipeline (six windows: the aggregate tile, the feature tile, the weight matrix, the bias
vector, and the two result tiles in f32 and bf16), its frame half, at a parameter `V`: core `c`'s buffer contents
when the region is entered.

Every load and every store of the body moves a WHOLE staging buffer, through the unit rectangle at offset zero; so
each input buffer holds its window's block at every point and is left as found, and each result buffer is left at
its payload of the four input blocks.
-/

-- a rectangle of these extents: the elaborator's structural look recurses once per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel.Gen Cert.Kernel.GenP

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input buffer holds its window's block -/

/-- The aggregate tile's current buffer holds the window's block at every point, for any proof data whose array is
    `V`'s and whose body leaves the block in place: a point that fetches puts the block there; a point that does not
    has the block index of the point before, whose block the body left. The window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The feature tile's buffer, in the same way. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The weight matrix's buffer: fetched at the first point only, its block index never moves. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The bias vector's buffer, likewise fetched once. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's rectangles: each the whole buffer, at offset zero -/

abbrev r2_0 : Rect S5000x128 := Rect.unit (s := S5000x128) ![0, 0] S5000x128.size inb_S5000x128_S5000x128_0_0
abbrev r2_1 : Rect S128x64 := Rect.unit (s := S128x64) ![0, 0] S128x64.size inb_S128x64_S128x64_0_0
abbrev r2_2 : Rect S64 := Rect.unit (s := S64) ![0] S64.size inb_S64_S64_0
abbrev r2_3 : Rect S5000x64 := Rect.unit (s := S5000x64) ![0, 0] S5000x64.size inb_S5000x64_S5000x64_0_0

/-- The offsets of the two-axis rectangles are zero, -/
theorem zero2_2 : (![0, 0] : Fin 2 → Nat) = fun _ => 0 := funext fun a => by fin_cases a <;> rfl
/-- and so is the one-axis rectangle's. -/
theorem zero2_1 : (![0] : Fin 1 → Nat) = fun _ => 0 := funext fun a => by fin_cases a; rfl

/-! ## What the body leaves in each result buffer -/

/-- The f32 result buffer after the body, from the contents of the four input buffers: its one store as a piece, the
    payload taken at what the loads read. -/
def out2_4 (x0 x1 : Vec F S5000x128 .f32) (x2 : Vec F S128x64 .f32) (x3 : Vec F S64 .f32) : Vec F S5000x64 .f32 :=
  View.canon [⟨r2_3, k2_pay1 (View.ld x0 r2_0) (View.ld x1 r2_0) (View.ld x2 r2_1) (View.ld x3 r2_2)⟩]

/-- The bf16 result buffer after the body, in the same way. -/
def out2_5 (x0 x1 : Vec F S5000x128 .f32) (x2 : Vec F S128x64 .f32) (x3 : Vec F S64 .f32) : Vec F S5000x64 .bf16 :=
  View.canon [⟨r2_3, k2_pay2 (View.ld x0 r2_0) (View.ld x1 r2_0) (View.ld x2 r2_1) (View.ld x3 r2_2)⟩]

/-- The one store is of the whole buffer, so it covers it. -/
theorem cover2_4 (p : Vec F S5000x64 .f32) (y : S5000x64.Idx) :
    ∃ pc ∈ ([⟨r2_3, p⟩] : List (View.Piece (Elt F) S5000x64 .f32)), y ∈ pc.1.set :=
  ⟨_, List.mem_singleton_self _, View.mem_set_unit_zero zero2_2 inb_S5000x64_S5000x64_0_0 y⟩

theorem cover2_5 (p : Vec F S5000x64 .bf16) (y : S5000x64.Idx) :
    ∃ pc ∈ ([⟨r2_3, p⟩] : List (View.Piece (Elt F) S5000x64 .bf16)), y ∈ pc.1.set :=
  ⟨_, List.mem_singleton_self _, View.mem_set_unit_zero zero2_2 inb_S5000x64_S5000x64_0_0 y⟩

/-- A whole-buffer load reads the contents and one whole-buffer store leaves its payload: the f32 result buffer is left
    at the payload of the four input buffers' contents, -/
theorem out2_4_eq (x0 x1 : Vec F S5000x128 .f32) (x2 : Vec F S128x64 .f32) (x3 : Vec F S64 .f32) :
    out2_4 x0 x1 x2 x3 = k2_pay1 x0 x1 x2 x3 := by
  unfold out2_4
  rw [View.canon_unit_zero zero2_2]
  simp only [View.ld_unit_zero (S := S5000x128) zero2_2, View.ld_unit_zero (S := S128x64) zero2_2,
    View.ld_unit_zero (S := S64) zero2_1]

/-- and the bf16 one at its payload. -/
theorem out2_5_eq (x0 x1 : Vec F S5000x128 .f32) (x2 : Vec F S128x64 .f32) (x3 : Vec F S64 .f32) :
    out2_5 x0 x1 x2 x3 = k2_pay2 x0 x1 x2 x3 := by
  unfold out2_5
  rw [View.canon_unit_zero zero2_2]
  simp only [View.ld_unit_zero (S := S5000x128) zero2_2, View.ld_unit_zero (S := S128x64) zero2_2,
    View.ld_unit_zero (S := S64) zero2_1]

/-! ## The body's triple -/

set_option maxHeartbeats 1000000 in
/-- The body on whole staging memrefs, the four inputs' at read contents `x0 … x3` and the two results' at anything, runs
    to the continuation holding the inputs' as they were and each result's at its `out2_W` of the inputs: the printed
    function is its skeleton of loads and stores, run operation by operation; each result buffer then reads as the
    canonical contents of its one covering store. -/
theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S64 .f32) (harg4 : arg4.IsWhole)
    (arg5 : Memref sig .tc .vmem S5000x64 .f32) (harg5 : arg5.IsWhole) (arg6 : Memref sig .tc .vmem S5000x64 .bf16) (harg6 : arg6.IsWhole)
    (x0 x1 : Vec F S5000x128 .f32) (x2 : Vec F S128x64 .f32) (x3 : Vec F S64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2_4 x0 x1 x2 x3)
            ∗ owns (c : Thread nD τ) arg6 fullShare (out2_5 x0 x1 x2 x3)) -∗ K ⟨⟩))
      ⊢ wp frame (wpE (defs₀ (F := F)) Variants.none c none) E
          (cc2__linear_fused_kernel i arg1 harg1 arg2 harg2 arg3 harg3 arg4 harg4 arg5 harg5 arg6 harg6) K := by
  simp only [cc2__linear_fused_kernel_eq_skeleton]; unfold cc2__linear_fused_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _)

/-! ## The pipeline's proof data -/

/-- The proof data of the pipeline on core `c`: the arrays as the region finds them; after the body at point `t` each
    input's buffer at its block and each result's at its payload of the four input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay1 (iblk2 V c 0 t) (iblk2 V c 1 t) (iblk2 V c 2 t) (iblk2 V c 3 t)
    | ⟨5, _⟩ => k2_pay2 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay1 (iblk2 V c 0 t) (iblk2 V c 1 t) (iblk2 V c 2 t) (iblk2 V c 3 t) := by dsimp only [dat2]
theorem after2_5 (c : Dev nD) (t : Fin cfg2.N) :
    (dat2 V c).after 5 t = k2_pay2 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies, and what it leaves in
    the result buffers is their payloads; the invariant and the core's tallies pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5, ← out2_4_eq, ← out2_5_eq]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _
    (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region3.lean ====
import proofs.«412827_j90649579749762_2_alg».proof.Proof.K.Blocks
import Idealize.ShloMosaic.Lib.Pipeline.FrameBody
import Idealize.ShloMosaic.Lib.Pipeline.Value
import Idealize.ShloMosaic.Lib.Ring
import Idealize.ShloMosaic.Lib.Tactic

/-!
The frame half of the pooling pipeline: three input windows (two feature tiles and the tile's graph ids), one
output block for the whole grid, and two scratch accumulators (per-graph sums, per-graph row counts) that the
kernel carries from one grid point to the next.

The kernel resets both accumulators at the first point, adds the tile's one-hot product to the sums and the
tile's one-hot column sums to the counts at every point, and at the last point stores the sums over the counts
clamped at one into the output block. The output block is idle at every other point: the pipeline hands it back
as it found it, and writes it back only after the last point.

Every statement is made at a parameter `V`: core `c`'s buffer contents when the region is entered.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Kernel.GenP

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Loads and stores through a whole buffer's full rectangle -/

/-- The zero offsets of a rank-two rectangle, however they are spelt. -/
theorem r3_zero2 : (![0, 0] : Fin 2 → ℕ) = fun _ => 0 := funext fun a => by fin_cases a <;> rfl

section Whole

variable {κ : Kind} {sp : Space} {S : Shape} {e : EltTy}

/-- A load of a whole buffer through its full rectangle reads the buffer's contents. -/
theorem r3_readAt_unit_zero {m : Memref sig κ sp S e} (h : m.IsWhole) {off : Fin S.rank → Nat} (ho : off = fun _ => 0)
    (inb : ∀ a, off a + S.size a ≤ S.size a) (X : S.Idx → Elt F e) :
    m.view.readAt (Elt F) (Rect.unit off S.size inb).toLoadRect (h.unread X) = X := by
  show View.ld (m.view.read (Elt F) (h.unread X)) (Rect.unit off S.size inb) = X
  rw [h.read_unread, View.ld_unit_zero ho]

/-- A load through the full rectangle after a store through it reads the store's payload, whatever was stored before. -/
theorem r3_readCov_cons_unit_zero (v : View sig κ sp S e) {off : Fin S.rank → Nat} (ho : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst ho
  rw [View.readCov_eq_canon_ld _ _ _ (fun y => ⟨_, List.Mem.head _, View.mem_set_unit_zero rfl inb y⟩),
    View.canon_cons_unit_zero rfl, View.ld_unit_zero rfl]

/-- What a buffer reads after a last store through its full rectangle: the store's payload. -/
theorem r3_read_writes_cons_unit_zero (v : View sig κ sp S e) (f : v.ty.Contents (Elt F)) {off : Fin S.rank → Nat}
    (ho : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst ho
  rw [View.read_writes_eq_canon _ _ _ (fun y => ⟨_, List.Mem.head _, View.mem_set_unit_zero rfl inb y⟩),
    View.canon_cons_unit_zero rfl]

end Whole

/-! ## The body's two branch conditions -/

/-- The condition of the body's first branch (reset the accumulators), from the grid coordinate. -/
abbrev r3_cond3_0 (i : grid3.Coords) : Prop := (Scalar.cmpi .ne (Scalar.extui (Scalar.cmpi .eq (BitVec.ofNat 32 (i 0).val) 0#32)) 0#32) = 1#1
/-- The condition of the body's second branch (store the pooled means). -/
abbrev r3_cond3_1 (i : grid3.Coords) : Prop := k3_cond2 i = 1#1

/-- The reset is taken at the first point only — decided over the grid. -/
theorem r3_hcond3_0 : ∀ t : Fin cfg3.N, r3_cond3_0 (grid3.coords t) ↔ t.val % 10 = 0 :=
  (by decide +kernel : ∀ t : Fin grid3.N, r3_cond3_0 (grid3.coords t) ↔ t.val % 10 = 0)
/-- The final store is taken at the last point only. -/
theorem r3_hcond3_1 : ∀ t : Fin cfg3.N, r3_cond3_1 (grid3.coords t) ↔ t.val % 10 = 9 :=
  (by decide +kernel : ∀ t : Fin grid3.N, r3_cond3_1 (grid3.coords t) ↔ t.val % 10 = 9)
/-- Where the final store is not taken the output block is idle, and is not written back; -/
theorem r3_idleAt3_3 : ∀ t : Fin cfg3.N, ¬r3_cond3_1 (grid3.coords t) → cfg3.idle 3 (grid3.coords t) = true := by decide +kernel
theorem r3_noFlush3_3 : ∀ t : Fin cfg3.N, ¬r3_cond3_1 (grid3.coords t) → (cfg3.win 3).flush t = false := by decide +kernel
/-- where it is taken the block is live. -/
theorem r3_liveAt3_3 : ∀ t : Fin cfg3.N, r3_cond3_1 (grid3.coords t) → cfg3.idle 3 (grid3.coords t) = false := by decide +kernel

/-! ## The body's three triples

On whole memrefs — the three inputs at their contents, the output block, the two accumulators —, the body runs to the
continuation holding the inputs as they were and:
  * at the first point (the reset taken, the final store not): the accumulators, whatever they held, at the tile's
    contribution added to zero; the output block as it was;
  * at a middle point (neither taken): the accumulators at the tile's contribution added to what they held; the output
    block as it was;
  * at the last point (the final store taken): the accumulators likewise, and the output block at the new sums over the
    new counts clamped at one.
A load of an accumulator after a store to it in the same run reads the stored payload. -/

set_option maxHeartbeats 2000000 in

theorem sound_kernel3_first (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S5000x1 .i32) (harg3 : arg3.IsWhole) (arg4 : Memref sig .tc .vmem S16x64 .f32) (harg4 : arg4.IsWhole) (arg5 : Memref sig .tc .vmem S16x64 .f32) (harg5 : arg5.IsWhole) (arg6 : Memref sig .tc .vmem S16x1 .f32) (harg6 : arg6.IsWhole)
    (hc0 : r3_cond3_0 i) (hc1 : ¬r3_cond3_1 i)
    (x0 : Vec F S5000x64 .f32) (x1 : Vec F S5000x64 .f32) (x2 : Vec F S5000x1 .i32) (xi : Vec F S16x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (xi)
            ∗ owns (c : Thread nD τ) arg5 fullShare (k3_pay4 x0 x1 x2 (k3_pay1 (F := F)))
            ∗ owns (c : Thread nD τ) arg6 fullShare (k3_pay5 x2 (k3_pay2 (F := F)))) -∗ K ⟨⟩))
      ⊢ wp frame (wpE (defs₀ (F := F)) Variants.none c none) E (cc3__pool_kernel i arg1 harg1 arg2 harg2 arg3 harg3 arg4 harg4 arg5 harg5 arg6 harg6) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg1.eq_unread hf0; obtain rfl := harg2.eq_unread hf1; obtain rfl := harg3.eq_unread hf2; obtain rfl := harg4.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_run_names
    simp only [r3_read_writes_cons_unit_zero (S := S16x64) _ _ r3_zero2, r3_read_writes_cons_unit_zero (S := S16x1) _ _ r3_zero2,
      r3_readCov_cons_unit_zero (S := S16x64) _ r3_zero2, r3_readCov_cons_unit_zero (S := S16x1) _ r3_zero2,
      r3_readAt_unit_zero (S := S5000x64) harg1 r3_zero2, r3_readAt_unit_zero (S := S5000x64) harg2 r3_zero2, r3_readAt_unit_zero (S := S5000x1) harg3 r3_zero2]
  iexists _; isplitr
  swap; · iexact H5
  ipureintro
  sl_unfold_run_names
  simp only [r3_read_writes_cons_unit_zero (S := S16x64) _ _ r3_zero2, r3_read_writes_cons_unit_zero (S := S16x1) _ _ r3_zero2,
      r3_readCov_cons_unit_zero (S := S16x64) _ r3_zero2, r3_readCov_cons_unit_zero (S := S16x1) _ r3_zero2,
      r3_readAt_unit_zero (S := S5000x64) harg1 r3_zero2, r3_readAt_unit_zero (S := S5000x64) harg2 r3_zero2, r3_readAt_unit_zero (S := S5000x1) harg3 r3_zero2]

set_option maxHeartbeats 2000000 in

theorem sound_kernel3_mid (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S5000x1 .i32) (harg3 : arg3.IsWhole) (arg4 : Memref sig .tc .vmem S16x64 .f32) (harg4 : arg4.IsWhole) (arg5 : Memref sig .tc .vmem S16x64 .f32) (harg5 : arg5.IsWhole) (arg6 : Memref sig .tc .vmem S16x1 .f32) (harg6 : arg6.IsWhole)
    (hc0 : ¬r3_cond3_0 i) (hc1 : ¬r3_cond3_1 i)
    (x0 : Vec F S5000x64 .f32) (x1 : Vec F S5000x64 .f32) (x2 : Vec F S5000x1 .i32) (xi : Vec F S16x64 .f32) (s0 : Vec F S16x64 .f32) (s1 : Vec F S16x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi
        ∗ owns (c : Thread nD τ) arg5 fullShare s0 ∗ owns (c : Thread nD τ) arg6 fullShare s1
        ∗ (iprop(owns (c : Thread nD τ) arg1 fullShare x0 ∗ owns (c : Thread nD τ) arg2 fullShare x1 ∗ owns (c : Thread nD τ) arg3 fullShare x2
            ∗ owns (c : Thread nD τ) arg4 fullShare (xi)
            ∗ owns (c : Thread nD τ) arg5 fullShare (k3_pay4 x0 x1 x2 s0)
            ∗ owns (c : Thread nD τ) arg6 fullShare (k3_pay5 x2 s1)) -∗ K ⟨⟩))
      ⊢ wp frame (wpE (defs₀ (F := F)) Variants.none c none) E (cc3__pool_kernel i arg1 harg1 arg2 harg2 arg3 harg3 arg4 harg4 arg5 harg5 arg6 harg6) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_run_names
    simp only [r3_read_writes_cons_unit_zero (S := S16x64) _ _ r3_zero2, r3_read_writes_cons_unit_zero (S := S16x1) _ _ r3_zero2,
      r3_readCov_cons_unit_zero (S := S16x64) _ r3_zero2, r3_readCov_cons_unit_zero (S := S16x1) _ r3_zero2,
      r3_readAt_unit_zero (S := S5000x64) harg1 r3_zero2, r3_readAt_unit_zero (S := S5000x64) harg2 r3_zero2, r3_readAt_unit_zero (S := S5000x1) harg3 r3_zero2,
      r3_readAt_unit_zero (S := S16x64) harg5 r3_zero2, r3_readAt_unit_zero (S := S16x1) harg6 r3_zero2]
  iexists _; isplitr
  swap; · iexact H5
  ipureintro
  sl_unfold_run_names
  simp only [r3_read_writes_cons_unit_zero (S := S16x64) _ _ r3_zero2, r3_read_writes_cons_unit_zero (S := S16x1) _ _ r3_zero2,
      r3_readCov_cons_unit_zero (S := S16x64) _ r3_zero2, r3_readCov_cons_unit_zero (S := S16x1) _ r3_zero2,
      r3_readAt_unit_zero (S := S5000x64) harg1 r3_zero2, r3_readAt_unit_zero (S := S5000x64) harg2 r3_zero2, r3_readAt_unit_zero (S := S5000x1) harg3 r3_zero2,
      r3_readAt_unit_zero (S := S16x64) harg5 r3_zero2, r3_readAt_unit_zero (S := S16x1) harg6 r3_zero2]

set_option maxHeartbeats 2000000 in

theorem sound_kernel3_last (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S5000x1 .i32) (harg3 : arg3.IsWhole) (arg4 : Memref sig .tc .vmem S16x64 .f32) (harg4 : arg4.IsWhole) (arg5 : Memref sig .tc .vmem S16x64 .f32) (harg5 : arg5.IsWhole) (arg6 : Memref sig .tc .vmem S16x1 .f32) (harg6 : arg6.IsWhole)
    (hc0 : ¬r3_cond3_0 i) (hc1 : r3_cond3_1 i)
    (x0 : Vec F S5000x64 .f32) (x1 : Vec F S5000x64 .f32) (x2 : Vec F S5000x1 .i32) (s0 : Vec F S16x64 .f32) (s1 : Vec F S16x1 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ owns (c : Thread nD τ) arg5 fullShare s0 ∗ owns (c : Thread nD τ) arg6 fullShare s1
        ∗ (iprop(owns (c : Thread nD τ) arg1 fullShare x0 ∗ owns (c : Thread nD τ) arg2 fullShare x1 ∗ owns (c : Thread nD τ) arg3 fullShare x2
            ∗ owns (c : Thread nD τ) arg4 fullShare (k3_pay6 (k3_pay4 x0 x1 x2 s0) (k3_pay5 x2 s1))
            ∗ owns (c : Thread nD τ) arg5 fullShare (k3_pay4 x0 x1 x2 s0)
            ∗ owns (c : Thread nD τ) arg6 fullShare (k3_pay5 x2 s1)) -∗ K ⟨⟩))
      ⊢ wp frame (wpE (defs₀ (F := F)) Variants.none c none) E (cc3__pool_kernel i arg1 harg1 arg2 harg2 arg3 harg3 arg4 harg4 arg5 harg5 arg6 harg6) K := by
  simp only [cc3__pool_kernel_eq_skeleton]; unfold cc3__pool_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  obtain rfl := harg1.eq_unread hf0; obtain rfl := harg2.eq_unread hf1; obtain rfl := harg3.eq_unread hf2
  obtain rfl := harg5.eq_unread hf4; obtain rfl := harg6.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_run_names
    simp only [r3_read_writes_cons_unit_zero (S := S16x64) _ _ r3_zero2, r3_read_writes_cons_unit_zero (S := S16x1) _ _ r3_zero2,
      r3_readCov_cons_unit_zero (S := S16x64) _ r3_zero2, r3_readCov_cons_unit_zero (S := S16x1) _ r3_zero2,
      r3_readAt_unit_zero (S := S5000x64) harg1 r3_zero2, r3_readAt_unit_zero (S := S5000x64) harg2 r3_zero2, r3_readAt_unit_zero (S := S5000x1) harg3 r3_zero2,
      r3_readAt_unit_zero (S := S16x64) harg5 r3_zero2, r3_readAt_unit_zero (S := S16x1) harg6 r3_zero2]
  isplitl [H4]
  · iexists _; isplitr
    swap; · iexact H4
    ipureintro
    sl_unfold_run_names
    simp only [r3_read_writes_cons_unit_zero (S := S16x64) _ _ r3_zero2, r3_read_writes_cons_unit_zero (S := S16x1) _ _ r3_zero2,
      r3_readCov_cons_unit_zero (S := S16x64) _ r3_zero2, r3_readCov_cons_unit_zero (S := S16x1) _ r3_zero2,
      r3_readAt_unit_zero (S := S5000x64) harg1 r3_zero2, r3_readAt_unit_zero (S := S5000x64) harg2 r3_zero2, r3_readAt_unit_zero (S := S5000x1) harg3 r3_zero2,
      r3_readAt_unit_zero (S := S16x64) harg5 r3_zero2, r3_readAt_unit_zero (S := S16x1) harg6 r3_zero2]
  iexists _; isplitr
  swap; · iexact H5
  ipureintro
  sl_unfold_run_names
  simp only [r3_read_writes_cons_unit_zero (S := S16x64) _ _ r3_zero2, r3_read_writes_cons_unit_zero (S := S16x1) _ _ r3_zero2,
      r3_readCov_cons_unit_zero (S := S16x64) _ r3_zero2, r3_readCov_cons_unit_zero (S := S16x1) _ r3_zero2,
      r3_readAt_unit_zero (S := S5000x64) harg1 r3_zero2, r3_readAt_unit_zero (S := S5000x64) harg2 r3_zero2, r3_readAt_unit_zero (S := S5000x1) harg3 r3_zero2,
      r3_readAt_unit_zero (S := S16x64) harg5 r3_zero2, r3_readAt_unit_zero (S := S16x1) harg6 r3_zero2]

/-! ## The scratch accumulators and the invariant -/

/-- The two scratch operands: whole scoped buffers of the kernel's own, passed beside the windows. -/
abbrev sc3_0 : Memref sig .tc .vmem S16x64 .f32 := Memref.whole cc3_scratch0
abbrev sc3_1 : Memref sig .tc .vmem S16x1 .f32 := Memref.whole cc3_scratch1

/-- The invariant before position `n`: the generator register at some state; the sums accumulator at the sums of the
    first `n` tiles and the counts accumulator at their counts once a point has run (at anything before the first
    point, which resets both); every other scoped buffer untouched. -/
def Phi3 (c : Dev nD) (n : ℕ) : sProp 𝕄 :=
  iprop((∃ r, prngReg c r)
    ∗ (∃ f0 : Vec F S16x64 .f32, ⌜n ≠ 0 → f0 = sums3 V c n⌝ ∗ owns (c : Thread nD τ) sc3_0 fullShare f0)
    ∗ (∃ f1 : Vec F S16x1 .f32, ⌜n ≠ 0 → f1 = counts3 V c n⌝ ∗ owns (c : Thread nD τ) sc3_1 fullShare f1)
    ∗ Pipeline.scopedRestBut spec3 c [cc3_scratch0, cc3_scratch1])

/-! ## The pipeline's proof data -/

/-- The proof data of the pooling pipeline on core `c`: the arrays as the region finds them; after the body each
    input's buffer at its block and the output block at the pooled means (consulted at the last point only: the block
    is idle before it); the invariant `Phi3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => pooled3 V c
  Φ n := Phi3 V c n.val
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = pooled3 V c := by dsimp only [dat3]

/-- Nothing is owed, and every share is full. -/
theorem owed3 (c : Dev nD) (n : Fin (cfg3.N + 1)) : (dat3 V c).owed n = 0 := rfl
theorem q3 (c : Dev nD) (w : Fin cfg3.W) : (dat3 V c).q w = fullShare := rfl

/-! ## The accumulators, point by point -/

/-- After point `t` the sums are the tile's contribution added to the sums before it; -/
theorem r3_sums3_succ (c : Dev nD) (t : Fin cfg3.N) :
    sums3 V c (t.val + 1) = k3_pay4 (iblk3 V c 0 t) (iblk3 V c 1 t) (iblk3 V c 2 t) (sums3 V c t.val) := by
  rw [sums3, dif_pos t.isLt]
/-- and the counts likewise. -/
theorem r3_counts3_succ (c : Dev nD) (t : Fin cfg3.N) :
    counts3 V c (t.val + 1) = k3_pay5 (iblk3 V c 2 t) (counts3 V c t.val) := by
  rw [counts3, dif_pos t.isLt]

/-- At the first point they are added to zero. -/
theorem r3_sums3_first (c : Dev nD) (t : Fin cfg3.N) (hz : t.val = 0) :
    sums3 V c (t.val + 1) = k3_pay4 (iblk3 V c 0 t) (iblk3 V c 1 t) (iblk3 V c 2 t) (k3_pay1 (F := F)) :=
  (r3_sums3_succ V c t).trans (by rw [hz]; rfl)
theorem r3_counts3_first (c : Dev nD) (t : Fin cfg3.N) (hz : t.val = 0) :
    counts3 V c (t.val + 1) = k3_pay5 (iblk3 V c 2 t) (k3_pay2 (F := F)) :=
  (r3_counts3_succ V c t).trans (by rw [hz]; rfl)

/-- The pooled means, from the last point's tile and the accumulators before it. -/
theorem r3_pooled3_last (c : Dev nD) (t : Fin cfg3.N) (h : t.val + 1 = cfg3.N) :
    pooled3 V c = k3_pay6 (k3_pay4 (iblk3 V c 0 t) (iblk3 V c 1 t) (iblk3 V c 2 t) (sums3 V c t.val))
      (k3_pay5 (iblk3 V c 2 t) (counts3 V c t.val)) := by
  unfold pooled3
  have e1 : sums3 V c cfg3.N = sums3 V c (t.val + 1) := congrArg (sums3 V c) h.symm
  have e2 : counts3 V c cfg3.N = counts3 V c (t.val + 1) := congrArg (counts3 V c) h.symm
  rw [e1, e2, r3_sums3_succ, r3_counts3_succ]

/-! ## The inputs' staging buffers -/

/-- Each input's current staging buffer holds its block at every point, fetched there or not: an input window, never
    idle, uncut, whose body leaves the block in place. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns: the inputs at their blocks, the output block as it was found where it is idle and not written
    back, at the pooled means where it is live. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ (dat3 V c).leavesExact 3 t)

set_option maxHeartbeats 2000000 in
/-- The body at any point: the inputs' memrefs hold their blocks; the closed forms of the two conditions say which of
    the three triples applies; the invariant hands the body the accumulators at the sums and counts of the tiles before
    the point (at anything at the first point) and takes them back at those of the tiles up to it; the core owes nothing
    throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl,
    show (dat3 V c).Φ t.succ = Phi3 V c (t.val + 1) from rfl,
    show (dat3 V c).Φ t.castSucc = Phi3 V c t.val from rfl,
    after3_0, after3_1, after3_2]
  unfold Phi3
  have hN : t.val < 10 := lt_of_lt_of_eq t.isLt N_3
  have hN' : cfg3.N = 10 := N_3
  by_cases h9 : t.val % 10 = 9
  · have hz : t.val ≠ 0 := by omega
    have hlast : t.val + 1 = cfg3.N := by omega
    rw [show (dat3 V c).leavesExact 3 t = owns (c : Thread nD τ) (st3_3 t) fullShare ((dat3 V c).after 3 t) from by
        unfold Dat.leavesExact; rw [r3_liveAt3_3 t ((r3_hcond3_1 t).mpr h9)],
      after3_3, r3_pooled3_last V c t hlast]
    iintro ⟨⟨Hg, ⟨%f0, %hf0, HS0⟩, ⟨%f1, %hf1, HS1⟩, Hr⟩, Ho, ⟨%d0, H0⟩, ⟨%d1, H1⟩, ⟨%d2, H2⟩, ⟨%d3, H3⟩⟩
    obtain rfl := hf0 hz; obtain rfl := hf1 hz
    iapply (sound_kernel3_last c Set.univ (grid3.coords t) _ _ _ _ _ _ _ _ _ _ _ _
      (fun h => absurd ((r3_hcond3_0 t).mp h) (by omega)) ((r3_hcond3_1 t).mpr h9)
      (iblk3 V c 0 t) (iblk3 V c 1 t) (iblk3 V c 2 t) (sums3 V c t.val) (counts3 V c t.val) _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [Hg HS0 HS1 Hr]
    · isplitl [Hg]; · iexact Hg
      isplitl [HS0]
      · iexists _; isplitr; · ipureintro; exact fun _ => (r3_sums3_succ V c t).symm
        iexact HS0
      isplitl [HS1]
      · iexists _; isplitr; · ipureintro; exact fun _ => (r3_counts3_succ V c t).symm
        iexact HS1
      iexact Hr
    isplitl [Ho]; · iexact Ho
    isplitl [H0]; · iexact H0
    isplitl [H1]; · iexact H1
    isplitl [H2]; · iexact H2
    iexact H3
  · have hn1 : ¬r3_cond3_1 (grid3.coords t) := fun h => h9 ((r3_hcond3_1 t).mp h)
    rw [Dat.leavesExact_idle (dat3 V c) 3 t (r3_idleAt3_3 t hn1) (r3_noFlush3_3 t hn1)]
    by_cases h0 : t.val % 10 = 0
    · have hz : t.val = 0 := by omega
      iintro ⟨⟨Hg, ⟨%f0, -, HS0⟩, ⟨%f1, -, HS1⟩, Hr⟩, Ho, ⟨%d0, H0⟩, ⟨%d1, H1⟩, ⟨%d2, H2⟩, ⟨%d3, H3⟩⟩
      iapply (sound_kernel3_first c Set.univ (grid3.coords t) _ _ _ _ _ _ _ _ _ _ _ _
        ((r3_hcond3_0 t).mpr h0) hn1 (iblk3 V c 0 t) (iblk3 V c 1 t) (iblk3 V c 2 t) _ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, HS0, HS1⟩
      isplitl [Hg HS0 HS1 Hr]
      · isplitl [Hg]; · iexact Hg
        isplitl [HS0]
        · iexists _; isplitr; · ipureintro; exact fun _ => (r3_sums3_first V c t hz).symm
          iexact HS0
        isplitl [HS1]
        · iexists _; isplitr; · ipureintro; exact fun _ => (r3_counts3_first V c t hz).symm
          iexact HS1
        iexact Hr
      isplitl [Ho]; · iexact Ho
      isplitl [H0]; · iexact H0
      isplitl [H1]; · iexact H1
      isplitl [H2]; · iexact H2
      iexists _; iexact H3
    · have hz : t.val ≠ 0 := by omega
      iintro ⟨⟨Hg, ⟨%f0, %hf0, HS0⟩, ⟨%f1, %hf1, HS1⟩, Hr⟩, Ho, ⟨%d0, H0⟩, ⟨%d1, H1⟩, ⟨%d2, H2⟩, ⟨%d3, H3⟩⟩
      obtain rfl := hf0 hz; obtain rfl := hf1 hz
      iapply (sound_kernel3_mid c Set.univ (grid3.coords t) _ _ _ _ _ _ _ _ _ _ _ _
        (fun h => h0 ((r3_hcond3_0 t).mp h)) hn1 (iblk3 V c 0 t) (iblk3 V c 1 t) (iblk3 V c 2 t) _
        (sums3 V c t.val) (counts3 V c t.val) _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [Hg HS0 HS1 Hr]
      · isplitl [Hg]; · iexact Hg
        isplitl [HS0]
        · iexists _; isplitr; · ipureintro; exact fun _ => (r3_sums3_succ V c t).symm
          iexact HS0
        isplitl [HS1]
        · iexists _; isplitr; · ipureintro; exact fun _ => (r3_counts3_succ V c t).symm
          iexact HS1
        iexact Hr
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's ends -/

/-- What the launch hands the region — the generator register and the scoped rest, the two accumulators among it at
    anything — is the invariant before the first point. -/
theorem Phi3_in (c : Dev nD) : (iprop((∃ r, prngReg c r) ∗ Pipeline.scopedRest spec3 c) : sProp 𝕄) ⊢ (dat3 V c).Φ 0 := by
  rw [show (dat3 V c).Φ 0 = Phi3 V c 0 from rfl, scopedRest3_split]
  unfold Phi3
  simp only [sc3_0, sc3_1, owns_whole]
  iintro ⟨Hg, ⟨⟨%f0, H0⟩, ⟨%f1, H1⟩⟩, Hr⟩
  isplitl [Hg]; · iexact Hg
  isplitl [H0]
  · iexists f0; isplitr; · ipureintro; exact fun h => absurd rfl h
    iexact H0
  isplitl [H1]
  · iexists f1; isplitr; · ipureintro; exact fun h => absurd rfl h
    iexact H1
  iexact Hr

/-- After the last point the invariant gives them back: the accumulators' named contents are forgotten. -/
theorem Phi3_out (c : Dev nD) : (dat3 V c).Φ (Fin.last cfg3.N) ⊢ (iprop((∃ r, prngReg c r) ∗ Pipeline.scopedRest spec3 c) : sProp 𝕄) := by
  rw [show (dat3 V c).Φ (Fin.last cfg3.N) = Phi3 V c (Fin.last cfg3.N).val from rfl, scopedRest3_split]
  unfold Phi3
  simp only [sc3_0, sc3_1, owns_whole]
  iintro ⟨Hg, ⟨%f0, -, H0⟩, ⟨%f1, -, H1⟩, Hr⟩
  isplitl [Hg]; · iexact Hg
  isplitl [H0 H1]
  · isplitl [H0]
    · iexists f0; iexact H0
    · iexists f1; iexact H1
  iexact Hr

end Cert.Kernel.Hand

end
-- ==== Proof.K.Run.lean ====
import proofs.«412827_j90649579749762_2_alg».proof.Proof.K.Region0
import proofs.«412827_j90649579749762_2_alg».proof.Proof.K.Region1
import proofs.«412827_j90649579749762_2_alg».proof.Proof.K.Region2
import proofs.«412827_j90649579749762_2_alg».proof.Proof.K.Region3
import proofs.«412827_j90649579749762_2_alg».proof.Proof.KernelP.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
The run of the whole program: four pipelines among four stretches of host operations.

The buffer contents are followed from the launch memory through every boundary: a host stretch leaves the fold of its
operations, a pipeline leaves its windows' arrays at what its write-backs produce and every other buffer as it was.
Each pipeline is entered from "every unscoped buffer at the boundary's contents, the generator register at some state,
nothing owed" and left in the same form, so the eight segments chain, and the final state is read against the last
boundary's contents: the result array is what the pooling pipeline's write-back left, and no argument array was
written by any host operation or any pipeline.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen
open Cert.Kernel.GenP (launch0 launch1 launch2 launch3 cellOf_inj hostOps0 hostOps1 hostOps2 hostOps3 hostOps0_sub hostOps1_sub hostOps2_sub hostOps3_sub main_chain adm hostOps0_fresh hostOps1_fresh hostOps2_fresh hostOps3_fresh hostOps0_W hostOps1_W hostOps2_W hostOps3_W hostOps0_writes hostOps1_writes hostOps2_writes hostOps3_writes)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After host stretch 0: pipeline 0's entry. -/
abbrev W1 : Dev nD → Valuation τ sig (Elt F) := fun c => StableHlo.after hostOps0 (W0 m ρ c)
/-- The same, read at the core's references. -/
abbrev B1 : (c : Dev nD) → (b : Ref sig .tc) → Buf (Elt F) ((c : Thread nD τ).loc b) := fun c b => W1 m ρ c b
/-- At pipeline 0's exit: its windows' arrays at what the write-backs leave, every other buffer as entered. -/
def W2 (c : Dev nD) : Valuation τ sig (Elt F) :=
  Pipeline.withArrays spec0 c (W1 m ρ c) fun w => (dat0 (B1 m ρ) c).arrAt w cfg0.N
theorem W2_arr (c : Dev nD) (w : Fin cfg0.W) :
    W2 m ρ c (Proc.devRef .tc (Pipeline.arrRef spec0 w)) = (dat0 (B1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev B2 : (c : Dev nD) → (b : Ref sig .tc) → Buf (Elt F) ((c : Thread nD τ).loc b) := fun c b => W2 m ρ c b
theorem hF0 (c : Dev nD) (w : Fin cfg0.W) : (dat0 (B1 m ρ) c).arrAt w cfg0.N = B2 m ρ c (Pipeline.arrRef spec0 w) :=
  (W2_arr m ρ c w).symm
theorem hrest0 (c : Dev nD) : ∀ b, b ∉ Finset.univ.image (Pipeline.arrRef spec0) → B2 m ρ c b = B1 m ρ c b :=
  fun b hb => W2_of_ne m ρ c b fun w e => hb (Finset.mem_image.mpr ⟨w, Finset.mem_univ _, e⟩)
/-- Pipeline 0 changes no buffer but its output windows' arrays: an input window's array is read, not written. -/
theorem W2_keep (c : Dev nD) (b : Ref sig .tc)
    (hb : ∀ w : Fin cfg0.W, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hw : (cfg0.win w).isOut with
      | false => rfl
      | true => exact absurd rfl (hb w hw)
    exact (W2_arr m ρ c w).trans (((dat0 (B1 m ρ) c).arrAt_in w hin _).trans (A_eq0 (B1 m ρ) c w))
  · exact W2_of_ne m ρ c b fun w e => h ⟨w, e⟩
/-- Host stretch 0 changes no buffer it does not write. -/
theorem W1_keep (c : Dev nD) (b : Ref sig .tc) (hb : b ∉ hostOps0_W) :
    W1 m ρ c (Proc.devRef .tc b) = W0 m ρ c (Proc.devRef .tc b) :=
  StableHlo.after_of_writes_sub hostOps0 _ hostOps0_writes hb

/-- After host stretch 1: pipeline 1's entry. -/
abbrev W3 : Dev nD → Valuation τ sig (Elt F) := fun c => StableHlo.after hostOps1 (W2 m ρ c)
/-- The same, read at the core's references. -/
abbrev B3 : (c : Dev nD) → (b : Ref sig .tc) → Buf (Elt F) ((c : Thread nD τ).loc b) := fun c b => W3 m ρ c b
/-- At pipeline 1's exit: its windows' arrays at what the write-backs leave, every other buffer as entered. -/
def W4 (c : Dev nD) : Valuation τ sig (Elt F) :=
  Pipeline.withArrays spec1 c (W3 m ρ c) fun w => (dat1 (B3 m ρ) c).arrAt w cfg1.N
theorem W4_arr (c : Dev nD) (w : Fin cfg1.W) :
    W4 m ρ c (Proc.devRef .tc (Pipeline.arrRef spec1 w)) = (dat1 (B3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev B4 : (c : Dev nD) → (b : Ref sig .tc) → Buf (Elt F) ((c : Thread nD τ).loc b) := fun c b => W4 m ρ c b
theorem hF1 (c : Dev nD) (w : Fin cfg1.W) : (dat1 (B3 m ρ) c).arrAt w cfg1.N = B4 m ρ c (Pipeline.arrRef spec1 w) :=
  (W4_arr m ρ c w).symm
theorem hrest1 (c : Dev nD) : ∀ b, b ∉ Finset.univ.image (Pipeline.arrRef spec1) → B4 m ρ c b = B3 m ρ c b :=
  fun b hb => W4_of_ne m ρ c b fun w e => hb (Finset.mem_image.mpr ⟨w, Finset.mem_univ _, e⟩)
/-- Pipeline 1 changes no buffer but its output windows' arrays: an input window's array is read, not written. -/
theorem W4_keep (c : Dev nD) (b : Ref sig .tc)
    (hb : ∀ w : Fin cfg1.W, (cfg1.win w).isOut = true → Pipeline.arrRef spec1 w ≠ b) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      cases hw : (cfg1.win w).isOut with
      | false => rfl
      | true => exact absurd rfl (hb w hw)
    exact (W4_arr m ρ c w).trans (((dat1 (B3 m ρ) c).arrAt_in w hin _).trans (A_eq1 (B3 m ρ) c w))
  · exact W4_of_ne m ρ c b fun w e => h ⟨w, e⟩
/-- Host stretch 1 changes no buffer it does not write. -/
theorem W3_keep (c : Dev nD) (b : Ref sig .tc) (hb : b ∉ hostOps1_W) :
    W3 m ρ c (Proc.devRef .tc b) = W2 m ρ c (Proc.devRef .tc b) :=
  StableHlo.after_of_writes_sub hostOps1 _ hostOps1_writes hb

/-- After host stretch 2: pipeline 2's entry. -/
abbrev W5 : Dev nD → Valuation τ sig (Elt F) := fun c => StableHlo.after hostOps2 (W4 m ρ c)
/-- The same, read at the core's references. -/
abbrev B5 : (c : Dev nD) → (b : Ref sig .tc) → Buf (Elt F) ((c : Thread nD τ).loc b) := fun c b => W5 m ρ c b
/-- At pipeline 2's exit: its windows' arrays at what the write-backs leave, every other buffer as entered. -/
def W6 (c : Dev nD) : Valuation τ sig (Elt F) :=
  Pipeline.withArrays spec2 c (W5 m ρ c) fun w => (dat2 (B5 m ρ) c).arrAt w cfg2.N
theorem W6_arr (c : Dev nD) (w : Fin cfg2.W) :
    W6 m ρ c (Proc.devRef .tc (Pipeline.arrRef spec2 w)) = (dat2 (B5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev B6 : (c : Dev nD) → (b : Ref sig .tc) → Buf (Elt F) ((c : Thread nD τ).loc b) := fun c b => W6 m ρ c b
theorem hF2 (c : Dev nD) (w : Fin cfg2.W) : (dat2 (B5 m ρ) c).arrAt w cfg2.N = B6 m ρ c (Pipeline.arrRef spec2 w) :=
  (W6_arr m ρ c w).symm
theorem hrest2 (c : Dev nD) : ∀ b, b ∉ Finset.univ.image (Pipeline.arrRef spec2) → B6 m ρ c b = B5 m ρ c b :=
  fun b hb => W6_of_ne m ρ c b fun w e => hb (Finset.mem_image.mpr ⟨w, Finset.mem_univ _, e⟩)
/-- Pipeline 2 changes no buffer but its output windows' arrays: an input window's array is read, not written. -/
theorem W6_keep (c : Dev nD) (b : Ref sig .tc)
    (hb : ∀ w : Fin cfg2.W, (cfg2.win w).isOut = true → Pipeline.arrRef spec2 w ≠ b) :
    W6 m ρ c (Proc.devRef .tc b) = W5 m ρ c (Proc.devRef .tc b) := by
  by_cases h : ∃ w, Pipeline.arrRef spec2 w = b
  · obtain ⟨w, rfl⟩ := h
    have hin : (cfg2.win w).isOut = false := by
      cases hw : (cfg2.win w).isOut with
      | false => rfl
      | true => exact absurd rfl (hb w hw)
    exact (W6_arr m ρ c w).trans (((dat2 (B5 m ρ) c).arrAt_in w hin _).trans (A_eq2 (B5 m ρ) c w))
  · exact W6_of_ne m ρ c b fun w e => h ⟨w, e⟩
/-- Host stretch 2 changes no buffer it does not write. -/
theorem W5_keep (c : Dev nD) (b : Ref sig .tc) (hb : b ∉ hostOps2_W) :
    W5 m ρ c (Proc.devRef .tc b) = W4 m ρ c (Proc.devRef .tc b) :=
  StableHlo.after_of_writes_sub hostOps2 _ hostOps2_writes hb

/-- After host stretch 3: pipeline 3's entry. -/
abbrev W7 : Dev nD → Valuation τ sig (Elt F) := fun c => StableHlo.after hostOps3 (W6 m ρ c)
/-- The same, read at the core's references. -/
abbrev B7 : (c : Dev nD) → (b : Ref sig .tc) → Buf (Elt F) ((c : Thread nD τ).loc b) := fun c b => W7 m ρ c b
/-- At pipeline 3's exit: its windows' arrays at what the write-backs leave, every other buffer as entered. -/
def W8 (c : Dev nD) : Valuation τ sig (Elt F) :=
  Pipeline.withArrays spec3 c (W7 m ρ c) fun w => (dat3 (B7 m ρ) c).arrAt w cfg3.N
theorem W8_arr (c : Dev nD) (w : Fin cfg3.W) :
    W8 m ρ c (Proc.devRef .tc (Pipeline.arrRef spec3 w)) = (dat3 (B7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev B8 : (c : Dev nD) → (b : Ref sig .tc) → Buf (Elt F) ((c : Thread nD τ).loc b) := fun c b => W8 m ρ c b
theorem hF3 (c : Dev nD) (w : Fin cfg3.W) : (dat3 (B7 m ρ) c).arrAt w cfg3.N = B8 m ρ c (Pipeline.arrRef spec3 w) :=
  (W8_arr m ρ c w).symm
theorem hrest3 (c : Dev nD) : ∀ b, b ∉ Finset.univ.image (Pipeline.arrRef spec3) → B8 m ρ c b = B7 m ρ c b :=
  fun b hb => W8_of_ne m ρ c b fun w e => hb (Finset.mem_image.mpr ⟨w, Finset.mem_univ _, e⟩)
/-- Pipeline 3 changes no buffer but its output windows' arrays: an input window's array is read, not written. -/
theorem W8_keep (c : Dev nD) (b : Ref sig .tc)
    (hb : ∀ w : Fin cfg3.W, (cfg3.win w).isOut = true → Pipeline.arrRef spec3 w ≠ b) :
    W8 m ρ c (Proc.devRef .tc b) = W7 m ρ c (Proc.devRef .tc b) := by
  by_cases h : ∃ w, Pipeline.arrRef spec3 w = b
  · obtain ⟨w, rfl⟩ := h
    have hin : (cfg3.win w).isOut = false := by
      cases hw : (cfg3.win w).isOut with
      | false => rfl
      | true => exact absurd rfl (hb w hw)
    exact (W8_arr m ρ c w).trans (((dat3 (B7 m ρ) c).arrAt_in w hin _).trans (A_eq3 (B7 m ρ) c w))
  · exact W8_of_ne m ρ c b fun w e => h ⟨w, e⟩
/-- Host stretch 3 changes no buffer it does not write. -/
theorem W7_keep (c : Dev nD) (b : Ref sig .tc) (hb : b ∉ hostOps3_W) :
    W7 m ρ c (Proc.devRef .tc b) = W6 m ρ c (Proc.devRef .tc b) :=
  StableHlo.after_of_writes_sub hostOps3 _ hostOps3_writes hb

/-! ## The arguments end as launched -/

/-- A buffer no host operation writes and no pipeline's output window names ends holding its launch contents. -/
theorem W8_launch (c : Dev nD) (b : Ref sig .tc)
    (h0 : b ∉ hostOps0_W) (h1 : b ∉ hostOps1_W) (h2 : b ∉ hostOps2_W) (h3 : b ∉ hostOps3_W)
    (k0 : ∀ w : Fin cfg0.W, (cfg0.win w).isOut = true → Pipeline.arrRef spec0 w ≠ b)
    (k1 : ∀ w : Fin cfg1.W, (cfg1.win w).isOut = true → Pipeline.arrRef spec1 w ≠ b)
    (k2 : ∀ w : Fin cfg2.W, (cfg2.win w).isOut = true → Pipeline.arrRef spec2 w ≠ b)
    (k3 : ∀ w : Fin cfg3.W, (cfg3.win w).isOut = true → Pipeline.arrRef spec3 w ≠ b) :
    W8 m ρ c (Proc.devRef .tc b) = m ((c : Thread nD τ).loc b) :=
  (W8_keep m ρ c b k3).trans <| (W7_keep m ρ c b h3).trans <| (W6_keep m ρ c b k2).trans <| (W5_keep m ρ c b h2).trans <|
    (W4_keep m ρ c b k1).trans <| (W3_keep m ρ c b h1).trans <| (W2_keep m ρ c b k0).trans <| (W1_keep m ρ c b h0).trans rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (B1 m ρ) c
  | ⟨1, _⟩ => fun c => dat1 (B3 m ρ) c
  | ⟨2, _⟩ => fun c => dat2 (B5 m ρ) c
  | ⟨3, _⟩ => fun c => dat3 (B7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W8 m ρ c) ∗ ∃ r, prngReg c r)

/-! ## The pipelines as segments -/

set_option backward.isDefEq.respectTransparency.types false in
/-- Pipeline 0 over the thread state: entered from every unscoped buffer at `W1`, left at `W2`. Its arrays are split out
    of the unscoped buffers and put back at the exit contents; the generator register goes into the kernel's invariant
    and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (B1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (B1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (B1 m ρ c) (B2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 over the thread state: entered from every unscoped buffer at `W3`, left at `W4`. Its arrays are split out
    of the unscoped buffers and put back at the exit contents; the generator register goes into the kernel's invariant
    and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (B3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (B3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (B3 m ρ c) (B4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 over the thread state: entered from every unscoped buffer at `W5`, left at `W6`. Its arrays are split out
    of the unscoped buffers and put back at the exit contents; the generator register goes into the kernel's invariant
    and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (B5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (B5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (B5 m ρ c) (B6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 3 over the thread state: entered from every unscoped buffer at `W7`, left at `W8`. Its arrays are split out
    of the unscoped buffers and put back at the exit contents; the generator register goes into the kernel's invariant
    and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (B7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (B7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (B7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (B7 m ρ) c).Φ 0 from rfl]
    iintro ⟨Hp, -, Hr⟩
    iapply (Phi3_in (B7 m ρ) c)
    isplitl [Hp]; · iexact Hp
    iexact Hr
  hout c := by
    rw [Pipeline.ownSems0_none, show (pdats m ρ 3 c).Φ (Fin.last _) = (dat3 (B7 m ρ) c).Φ (Fin.last cfg3.N) from rfl]
    iintro HΦ
    ihave H := (Phi3_out (B7 m ρ) c) $$ HΦ
    icases H with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (B7 m ρ c) (B8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The eight segments in order: a host segment per stretch from its boundary's contents, a region per pipeline. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- The program is the run of the segments. -/
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting; the result array ends at what the pooling pipeline's write-back leaves, and every argument array ends as
    launched. -/
theorem run_main : θ_run defs (onTc (τ := τ) (main (F := F))) ⟨m, fun _ => 0, ρ⟩ (fun r => ∀ c : Dev nD,
      r.2.mem ((c.tc : Thread nD τ).loc main_v50) = W8 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v50 (by decide)),
       (h c _ (mem_uc main_arg0 (by decide))).trans (W8_launch m ρ c main_arg0 (by decide) (by decide) (by decide) (by decide) (by decide) (by decide) (by decide) (by decide)),
       (h c _ (mem_uc main_arg1 (by decide))).trans (W8_launch m ρ c main_arg1 (by decide) (by decide) (by decide) (by decide) (by decide) (by decide) (by decide) (by decide)),
       (h c _ (mem_uc main_arg2 (by decide))).trans (W8_launch m ρ c main_arg2 (by decide) (by decide) (by decide) (by decide) (by decide) (by decide) (by decide) (by decide)),
       (h c _ (mem_uc main_arg3 (by decide))).trans (W8_launch m ρ c main_arg3 (by decide) (by decide) (by decide) (by decide) (by decide) (by decide) (by decide) (by decide)),
       (h c _ (mem_uc main_arg4 (by decide))).trans (W8_launch m ρ c main_arg4 (by decide) (by decide) (by decide) (by decide) (by decide) (by decide) (by decide) (by decide)),
       (h c _ (mem_uc main_arg5 (by decide))).trans (W8_launch m ρ c main_arg5 (by decide) (by decide) (by decide) (by decide) (by decide) (by decide) (by decide) (by decide)),
       (h c _ (mem_uc main_arg6 (by decide))).trans (W8_launch m ρ c main_arg6 (by decide) (by decide) (by decide) (by decide) (by decide) (by decide) (by decide) (by decide)),
       (h c _ (mem_uc main_arg7 (by decide))).trans (W8_launch m ρ c main_arg7 (by decide) (by decide) (by decide) (by decide) (by decide) (by decide) (by decide) (by decide)),
       (h c _ (mem_uc main_arg8 (by decide))).trans (W8_launch m ρ c main_arg8 (by decide) (by decide) (by decide) (by decide) (by decide) (by decide) (by decide) (by decide)),
       (h c _ (mem_uc main_arg9 (by decide))).trans (W8_launch m ρ c main_arg9 (by decide) (by decide) (by decide) (by decide) (by decide) (by decide) (by decide) (by decide))⟩)

/-- The result array at the end is the pooling pipeline's output array after its last point. -/
theorem W8_result (c : Dev nD) : W8 m ρ c (Proc.devRef .tc main_v50) = (dat3 (B7 m ρ) c).arrAt 3 cfg3.N := W8_arr m ρ c 3

end Cert.Kernel.Hand

end
-- ==== Proof.KI.Blocks.lean ====
import proofs.«412827_j90649579749762_2_alg».proof.Proof.KernelIdealP.Launch
import proofs.«412827_j90649579749762_2_alg».proof.Proof.Gen.KernelIdeal.Skeleton
import proofs.«412827_j90649579749762_2_alg».proof.Proof.Gen.KernelIdeal.Points
import Idealize.ShloMosaic.Lib.Pipeline.FrameBody

/-!
The blocks the four pipelines hand their kernels, read off the arrays as each region finds them, and what the
pooling kernel's two scratch accumulators hold after a number of grid points.

Every statement is made at a parameter `V`: core `c`'s buffer contents when the region is entered.
-/

noncomputable section

namespace Cert.KernelIdeal.Hand

open Idealize.ShloMosaic Idealize.ShloMosaic.TcCoe
open Idealize.SL Idealize.SL.Sem
open Cert.KernelIdeal.Gen Cert.KernelIdeal.GenP

variable {F : FTy → Type} [FloatOps F]
variable (V : (c : Dev nD) → (b : Ref sig .tc) → Buf (Elt F) ((c : Thread nD τ).loc b))

/-- Window `w`'s block at point `t` of the first linear layer's pipeline, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block at point `t` of the second linear layer's pipeline. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window `w`'s block at point `t` of the third linear layer's pipeline. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window `w`'s block at point `t` of the pooling pipeline. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The per-graph sums accumulator after `n` grid points: zero before the first point (the kernel resets it there),
    then each point adds its tile's one-hot product. -/
def sums3 (c : Dev nD) : ℕ → Vec F S16x64 .f32
  | 0 => k3_pay1 (F := F)
  | n + 1 => if h : n < cfg3.N then k3_pay4 (iblk3 V c 0 ⟨n, h⟩) (iblk3 V c 1 ⟨n, h⟩) (iblk3 V c 2 ⟨n, h⟩) (sums3 c n) else sums3 c n

/-- The per-graph row counts accumulator after `n` grid points, in the same way. -/
def counts3 (c : Dev nD) : ℕ → Vec F S16x1 .f32
  | 0 => k3_pay2 (F := F)
  | n + 1 => if h : n < cfg3.N then k3_pay5 (iblk3 V c 2 ⟨n, h⟩) (counts3 c n) else counts3 c n

/-- What the pooling kernel stores into its output block at the last point: the sums over the counts clamped at one. -/
def pooled3 (c : Dev nD) : Vec F S16x64 .f32 := k3_pay6 (sums3 V c cfg3.N) (counts3 V c cfg3.N)

end Cert.KernelIdeal.Hand

end
-- ==== Proof.KI.Region0.lean ====
import proofs.«412827_j90649579749762_2_alg».proof.Proof.KI.Blocks
import Idealize.ShloMosaic.Lib.Pipeline.FrameBody
import Idealize.ShloMosaic.Lib.Pipeline.Value
import Idealize.ShloMosaic.Lib.Ring
import Idealize.ShloMosaic.Lib.Tactic

/-!
The first linear layer's pipeline (five windows: the row tile, the weight matrix, the bias vector; the f32 result tile
and its bf16 rounding), at a parameter V: the core's buffer contents when the region is entered.

The body loads each whole input buffer, and stores one whole payload into each output buffer. So each input's staging
buffer holds its block at every point, the two outputs' buffers hold the two payloads of the three input blocks after
the body, and the body's triple follows by running its skeleton of memory operations.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.GenP

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers hold their blocks -/

/-- The row tile's current staging buffer holds its block at every point, fetched there or not, for any proof data
    whose array is the entry contents and whose body leaves the block in place: unfetched, the block index has not
    moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer, in the same way: one block, the same at every point, fetched at the first. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias vector's staging buffer, in the same way. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is of a whole staging buffer, at offset zero -/

theorem zero0_t : (![0, 0] : Fin 2 → Nat) = fun _ => 0 := funext fun a => by fin_cases a <;> rfl
theorem zero0_b : (![0] : Fin 1 → Nat) = fun _ => 0 := funext fun a => by fin_cases a; rfl

/-- The whole row tile (and each output tile, of the same shape). -/
abbrev r0_t : Rect S5000x128 := Rect.unit (s := S5000x128) ![0, 0] S5000x128.size inb_S5000x128_S5000x128_0_0
/-- The whole weight matrix. -/
abbrev r0_w : Rect S128x128 := Rect.unit (s := S128x128) ![0, 0] S128x128.size inb_S128x128_S128x128_0_0
/-- The whole bias vector. -/
abbrev r0_b : Rect S128 := Rect.unit (s := S128) ![0] S128.size inb_S128_S128_0

/-! ## What the body leaves in each output window's buffer -/

/-- The f32 result's staging buffer after the body, from the input blocks: its one store as a piece over the values
    the loads read. -/
def out0_3 (x0 : Vec F S5000x128 .f32) (x1 : Vec F S128x128 .f32) (x2 : Vec F S128 .f32) : Vec F S5000x128 .f32 :=
  View.canon [⟨r0_t, k0_pay1 (View.ld x0 r0_t) (View.ld x1 r0_w) (View.ld x2 r0_b)⟩]

/-- The bf16 result's staging buffer after the body, in the same way. -/
def out0_4 (x0 : Vec F S5000x128 .f32) (x1 : Vec F S128x128 .f32) (x2 : Vec F S128 .f32) : Vec F S5000x128 .bf16 :=
  View.canon [⟨r0_t, k0_pay2 (View.ld x0 r0_t) (View.ld x1 r0_w) (View.ld x2 r0_b)⟩]

/-- A load of a whole buffer reads its contents and one whole store leaves its payload: the f32 output is the first
    payload of the three input blocks. -/
theorem out0_3_eq (x0 : Vec F S5000x128 .f32) (x1 : Vec F S128x128 .f32) (x2 : Vec F S128 .f32) :
    out0_3 x0 x1 x2 = k0_pay1 x0 x1 x2 := by
  unfold out0_3
  rw [View.canon_unit_zero (S := S5000x128) zero0_t, View.ld_unit_zero (S := S5000x128) zero0_t,
    View.ld_unit_zero (S := S128x128) zero0_t, View.ld_unit_zero (S := S128) zero0_b]

/-- The bf16 output is the second payload of the three input blocks. -/
theorem out0_4_eq (x0 : Vec F S5000x128 .f32) (x1 : Vec F S128x128 .f32) (x2 : Vec F S128 .f32) :
    out0_4 x0 x1 x2 = k0_pay2 x0 x1 x2 := by
  unfold out0_4
  rw [View.canon_unit_zero (S := S5000x128) zero0_t, View.ld_unit_zero (S := S5000x128) zero0_t,
    View.ld_unit_zero (S := S128x128) zero0_t, View.ld_unit_zero (S := S128) zero0_b]

/-- The one store into an output tile covers it: every index is in the whole rectangle. -/
theorem cover0_t {e : EltTy} (p0 : r0_t.shape.Idx → Elt F e) (y : S5000x128.Idx) :
    ∃ pc ∈ ([⟨r0_t, p0⟩] : List (View.Piece (Elt F) S5000x128 e)), y ∈ pc.1.set :=
  ⟨_, List.mem_singleton_self _, View.mem_set_unit_zero (S := S5000x128) zero0_t inb_S5000x128_S5000x128_0_0 y⟩

/-! ## The body's triple -/

set_option maxHeartbeats 1000000 in
/-- The kernel body on whole staging memrefs, the inputs' at read contents and the outputs' at anything, runs to the
    continuation holding the inputs' as they were and each output's at its canon of the inputs': the printed function
    is its skeleton of memory operations, which is run operation by operation. -/
theorem sound_kernel0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S128 .f32) (harg3 : arg3.IsWhole)
    (arg4 : Memref sig .tc .vmem S5000x128 .f32) (harg4 : arg4.IsWhole)
    (arg5 : Memref sig .tc .vmem S5000x128 .bf16) (harg5 : arg5.IsWhole)
    (x0 : Vec F S5000x128 .f32) (x1 : Vec F S128x128 .f32) (x2 : Vec F S128 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 x0 x1 x2)
            ∗ owns (c : Thread nD τ) arg5 fullShare (out0_4 x0 x1 x2)) -∗ K ⟨⟩))
      ⊢ wp frame (wpE (defs₀ (F := F)) Variants.none c none) E
          (cc0__linear_kernel i arg1 harg1 arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_t _)
  iexists _; isplitr
  swap; · iexact H4
  ipureintro
  exact View.read_writes_eq_canon _ _ _ (cover0_t _)

/-! ## The pipeline's proof data -/

/-- The proof data of the first linear layer's pipeline on core c: the arrays as the region finds them; after the
    body at point t each input's buffer at its block and each output's at its payload of the three input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
    | ⟨4, _⟩ => k0_pay2 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]
theorem after0_4 (c : Dev nD) (t : Fin cfg0.N) :
    (dat0 V c).after 4 t = k0_pay2 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t: the invariant, the core's debts, and the five windows' current staging
    buffers one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, ← out0_3_eq, ← out0_4_eq]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
import proofs.«412827_j90649579749762_2_alg».proof.Proof.KI.Blocks
import Idealize.ShloMosaic.Lib.Pipeline.FrameBody
import Idealize.ShloMosaic.Lib.Pipeline.Value
import Idealize.ShloMosaic.Lib.Ring
import Idealize.ShloMosaic.Lib.Tactic

/-!
The second linear layer's pipeline (six windows: the aggregate tile, the feature tile, the weight matrix, the bias
vector, and the two result tiles in f32 and bf16), its frame half, at a parameter `V`: core `c`'s buffer contents
when the region is entered.

Every load and every store of the body moves a WHOLE staging buffer, through the unit rectangle at offset zero; so
each input buffer holds its window's block at every point and is left as found, and each result buffer is left at
its payload of the four input blocks.
-/

-- a rectangle of these extents: the elaborator's structural look recurses once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen Cert.KernelIdeal.GenP

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input buffer holds its window's block -/

/-- The aggregate tile's current buffer holds the window's block at every point, for any proof data whose array is
    `V`'s and whose body leaves the block in place: a point that fetches puts the block there; a point that does not
    has the block index of the point before, whose block the body left. The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The feature tile's buffer, in the same way. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The weight matrix's buffer: fetched at the first point only, its block index never moves. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The bias vector's buffer, likewise fetched once. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's rectangles: each the whole buffer, at offset zero -/

abbrev r1_0 : Rect S5000x128 := Rect.unit (s := S5000x128) ![0, 0] S5000x128.size inb_S5000x128_S5000x128_0_0
abbrev r1_1 : Rect S128x128 := Rect.unit (s := S128x128) ![0, 0] S128x128.size inb_S128x128_S128x128_0_0
abbrev r1_2 : Rect S128 := Rect.unit (s := S128) ![0] S128.size inb_S128_S128_0

/-- The offsets of the two-axis rectangles are zero, -/
theorem zero1_2 : (![0, 0] : Fin 2 → Nat) = fun _ => 0 := funext fun a => by fin_cases a <;> rfl
/-- and so is the one-axis rectangle's. -/
theorem zero1_1 : (![0] : Fin 1 → Nat) = fun _ => 0 := funext fun a => by fin_cases a; rfl

/-! ## What the body leaves in each result buffer -/

/-- The f32 result buffer after the body, from the contents of the four input buffers: its one store as a piece, the
    payload taken at what the loads read. -/
def out1_4 (x0 x1 : Vec F S5000x128 .f32) (x2 : Vec F S128x128 .f32) (x3 : Vec F S128 .f32) : Vec F S5000x128 .f32 :=
  View.canon [⟨r1_0, k1_pay1 (View.ld x0 r1_0) (View.ld x1 r1_0) (View.ld x2 r1_1) (View.ld x3 r1_2)⟩]

/-- The bf16 result buffer after the body, in the same way. -/
def out1_5 (x0 x1 : Vec F S5000x128 .f32) (x2 : Vec F S128x128 .f32) (x3 : Vec F S128 .f32) : Vec F S5000x128 .bf16 :=
  View.canon [⟨r1_0, k1_pay2 (View.ld x0 r1_0) (View.ld x1 r1_0) (View.ld x2 r1_1) (View.ld x3 r1_2)⟩]

/-- The one store is of the whole buffer, so it covers it. -/
theorem cover1_4 (p : Vec F S5000x128 .f32) (y : S5000x128.Idx) :
    ∃ pc ∈ ([⟨r1_0, p⟩] : List (View.Piece (Elt F) S5000x128 .f32)), y ∈ pc.1.set :=
  ⟨_, List.mem_singleton_self _, View.mem_set_unit_zero zero1_2 inb_S5000x128_S5000x128_0_0 y⟩

theorem cover1_5 (p : Vec F S5000x128 .bf16) (y : S5000x128.Idx) :
    ∃ pc ∈ ([⟨r1_0, p⟩] : List (View.Piece (Elt F) S5000x128 .bf16)), y ∈ pc.1.set :=
  ⟨_, List.mem_singleton_self _, View.mem_set_unit_zero zero1_2 inb_S5000x128_S5000x128_0_0 y⟩

/-- A whole-buffer load reads the contents and one whole-buffer store leaves its payload: the f32 result buffer is left
    at the payload of the four input buffers' contents, -/
theorem out1_4_eq (x0 x1 : Vec F S5000x128 .f32) (x2 : Vec F S128x128 .f32) (x3 : Vec F S128 .f32) :
    out1_4 x0 x1 x2 x3 = k1_pay1 x0 x1 x2 x3 := by
  unfold out1_4
  rw [View.canon_unit_zero zero1_2]
  simp only [View.ld_unit_zero (S := S5000x128) zero1_2, View.ld_unit_zero (S := S128x128) zero1_2,
    View.ld_unit_zero (S := S128) zero1_1]

/-- and the bf16 one at its payload. -/
theorem out1_5_eq (x0 x1 : Vec F S5000x128 .f32) (x2 : Vec F S128x128 .f32) (x3 : Vec F S128 .f32) :
    out1_5 x0 x1 x2 x3 = k1_pay2 x0 x1 x2 x3 := by
  unfold out1_5
  rw [View.canon_unit_zero zero1_2]
  simp only [View.ld_unit_zero (S := S5000x128) zero1_2, View.ld_unit_zero (S := S128x128) zero1_2,
    View.ld_unit_zero (S := S128) zero1_1]

/-! ## The body's triple -/

set_option maxHeartbeats 1000000 in
/-- The body on whole staging memrefs, the four inputs' at read contents `x0 … x3` and the two results' at anything, runs
    to the continuation holding the inputs' as they were and each result's at its `out1_W` of the inputs: the printed
    function is its skeleton of loads and stores, run operation by operation; each result buffer then reads as the
    canonical contents of its one covering store. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128 .f32) (harg4 : arg4.IsWhole)
    (arg5 : Memref sig .tc .vmem S5000x128 .f32) (harg5 : arg5.IsWhole) (arg6 : Memref sig .tc .vmem S5000x128 .bf16) (harg6 : arg6.IsWhole)
    (x0 x1 : Vec F S5000x128 .f32) (x2 : Vec F S128x128 .f32) (x3 : Vec F S128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)
            ∗ owns (c : Thread nD τ) arg6 fullShare (out1_5 x0 x1 x2 x3)) -∗ K ⟨⟩))
      ⊢ wp frame (wpE (defs₀ (F := F)) Variants.none c none) E
          (cc1__linear_fused_kernel i arg1 harg1 arg2 harg2 arg3 harg3 arg4 harg4 arg5 harg5 arg6 harg6) K := by
  simp only [cc1__linear_fused_kernel_eq_skeleton]; unfold cc1__linear_fused_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The pipeline's proof data -/

/-- The proof data of the pipeline on core `c`: the arrays as the region finds them; after the body at point `t` each
    input's buffer at its block and each result's at its payload of the four input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (iblk1 V c 0 t) (iblk1 V c 1 t) (iblk1 V c 2 t) (iblk1 V c 3 t)
    | ⟨5, _⟩ => k1_pay2 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay1 (iblk1 V c 0 t) (iblk1 V c 1 t) (iblk1 V c 2 t) (iblk1 V c 3 t) := by dsimp only [dat1]
theorem after1_5 (c : Dev nD) (t : Fin cfg1.N) :
    (dat1 V c).after 5 t = k1_pay2 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies, and what it leaves in
    the result buffers is their payloads; the invariant and the core's tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, ← out1_4_eq, ← out1_5_eq]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
import proofs.«412827_j90649579749762_2_alg».proof.Proof.KI.Blocks
import Idealize.ShloMosaic.Lib.Pipeline.FrameBody
import Idealize.ShloMosaic.Lib.Pipeline.Value
import Idealize.ShloMosaic.Lib.Ring
import Idealize.ShloMosaic.Lib.Tactic

/-!
The third linear layer's pipeline (six windows: the aggregate tile, the feature tile, the weight matrix, the bias
vector, and the two result tiles in f32 and bf16), its frame half, at a parameter `V`: core `c`'s buffer contents
when the region is entered.

Every load and every store of the body moves a WHOLE staging buffer, through the unit rectangle at offset zero; so
each input buffer holds its window's block at every point and is left as found, and each result buffer is left at
its payload of the four input blocks.
-/

-- a rectangle of these extents: the elaborator's structural look recurses once per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen Cert.KernelIdeal.GenP

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input buffer holds its window's block -/

/-- The aggregate tile's current buffer holds the window's block at every point, for any proof data whose array is
    `V`'s and whose body leaves the block in place: a point that fetches puts the block there; a point that does not
    has the block index of the point before, whose block the body left. The window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The feature tile's buffer, in the same way. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The weight matrix's buffer: fetched at the first point only, its block index never moves. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The bias vector's buffer, likewise fetched once. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's rectangles: each the whole buffer, at offset zero -/

abbrev r2_0 : Rect S5000x128 := Rect.unit (s := S5000x128) ![0, 0] S5000x128.size inb_S5000x128_S5000x128_0_0
abbrev r2_1 : Rect S128x64 := Rect.unit (s := S128x64) ![0, 0] S128x64.size inb_S128x64_S128x64_0_0
abbrev r2_2 : Rect S64 := Rect.unit (s := S64) ![0] S64.size inb_S64_S64_0
abbrev r2_3 : Rect S5000x64 := Rect.unit (s := S5000x64) ![0, 0] S5000x64.size inb_S5000x64_S5000x64_0_0

/-- The offsets of the two-axis rectangles are zero, -/
theorem zero2_2 : (![0, 0] : Fin 2 → Nat) = fun _ => 0 := funext fun a => by fin_cases a <;> rfl
/-- and so is the one-axis rectangle's. -/
theorem zero2_1 : (![0] : Fin 1 → Nat) = fun _ => 0 := funext fun a => by fin_cases a; rfl

/-! ## What the body leaves in each result buffer -/

/-- The f32 result buffer after the body, from the contents of the four input buffers: its one store as a piece, the
    payload taken at what the loads read. -/
def out2_4 (x0 x1 : Vec F S5000x128 .f32) (x2 : Vec F S128x64 .f32) (x3 : Vec F S64 .f32) : Vec F S5000x64 .f32 :=
  View.canon [⟨r2_3, k2_pay1 (View.ld x0 r2_0) (View.ld x1 r2_0) (View.ld x2 r2_1) (View.ld x3 r2_2)⟩]

/-- The bf16 result buffer after the body, in the same way. -/
def out2_5 (x0 x1 : Vec F S5000x128 .f32) (x2 : Vec F S128x64 .f32) (x3 : Vec F S64 .f32) : Vec F S5000x64 .bf16 :=
  View.canon [⟨r2_3, k2_pay2 (View.ld x0 r2_0) (View.ld x1 r2_0) (View.ld x2 r2_1) (View.ld x3 r2_2)⟩]

/-- The one store is of the whole buffer, so it covers it. -/
theorem cover2_4 (p : Vec F S5000x64 .f32) (y : S5000x64.Idx) :
    ∃ pc ∈ ([⟨r2_3, p⟩] : List (View.Piece (Elt F) S5000x64 .f32)), y ∈ pc.1.set :=
  ⟨_, List.mem_singleton_self _, View.mem_set_unit_zero zero2_2 inb_S5000x64_S5000x64_0_0 y⟩

theorem cover2_5 (p : Vec F S5000x64 .bf16) (y : S5000x64.Idx) :
    ∃ pc ∈ ([⟨r2_3, p⟩] : List (View.Piece (Elt F) S5000x64 .bf16)), y ∈ pc.1.set :=
  ⟨_, List.mem_singleton_self _, View.mem_set_unit_zero zero2_2 inb_S5000x64_S5000x64_0_0 y⟩

/-- A whole-buffer load reads the contents and one whole-buffer store leaves its payload: the f32 result buffer is left
    at the payload of the four input buffers' contents, -/
theorem out2_4_eq (x0 x1 : Vec F S5000x128 .f32) (x2 : Vec F S128x64 .f32) (x3 : Vec F S64 .f32) :
    out2_4 x0 x1 x2 x3 = k2_pay1 x0 x1 x2 x3 := by
  unfold out2_4
  rw [View.canon_unit_zero zero2_2]
  simp only [View.ld_unit_zero (S := S5000x128) zero2_2, View.ld_unit_zero (S := S128x64) zero2_2,
    View.ld_unit_zero (S := S64) zero2_1]

/-- and the bf16 one at its payload. -/
theorem out2_5_eq (x0 x1 : Vec F S5000x128 .f32) (x2 : Vec F S128x64 .f32) (x3 : Vec F S64 .f32) :
    out2_5 x0 x1 x2 x3 = k2_pay2 x0 x1 x2 x3 := by
  unfold out2_5
  rw [View.canon_unit_zero zero2_2]
  simp only [View.ld_unit_zero (S := S5000x128) zero2_2, View.ld_unit_zero (S := S128x64) zero2_2,
    View.ld_unit_zero (S := S64) zero2_1]

/-! ## The body's triple -/

set_option maxHeartbeats 1000000 in
/-- The body on whole staging memrefs, the four inputs' at read contents `x0 … x3` and the two results' at anything, runs
    to the continuation holding the inputs' as they were and each result's at its `out2_W` of the inputs: the printed
    function is its skeleton of loads and stores, run operation by operation; each result buffer then reads as the
    canonical contents of its one covering store. -/
theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S64 .f32) (harg4 : arg4.IsWhole)
    (arg5 : Memref sig .tc .vmem S5000x64 .f32) (harg5 : arg5.IsWhole) (arg6 : Memref sig .tc .vmem S5000x64 .bf16) (harg6 : arg6.IsWhole)
    (x0 x1 : Vec F S5000x128 .f32) (x2 : Vec F S128x64 .f32) (x3 : Vec F S64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2_4 x0 x1 x2 x3)
            ∗ owns (c : Thread nD τ) arg6 fullShare (out2_5 x0 x1 x2 x3)) -∗ K ⟨⟩))
      ⊢ wp frame (wpE (defs₀ (F := F)) Variants.none c none) E
          (cc2__linear_fused_kernel i arg1 harg1 arg2 harg2 arg3 harg3 arg4 harg4 arg5 harg5 arg6 harg6) K := by
  simp only [cc2__linear_fused_kernel_eq_skeleton]; unfold cc2__linear_fused_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _)

/-! ## The pipeline's proof data -/

/-- The proof data of the pipeline on core `c`: the arrays as the region finds them; after the body at point `t` each
    input's buffer at its block and each result's at its payload of the four input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay1 (iblk2 V c 0 t) (iblk2 V c 1 t) (iblk2 V c 2 t) (iblk2 V c 3 t)
    | ⟨5, _⟩ => k2_pay2 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay1 (iblk2 V c 0 t) (iblk2 V c 1 t) (iblk2 V c 2 t) (iblk2 V c 3 t) := by dsimp only [dat2]
theorem after2_5 (c : Dev nD) (t : Fin cfg2.N) :
    (dat2 V c).after 5 t = k2_pay2 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies, and what it leaves in
    the result buffers is their payloads; the invariant and the core's tallies pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5, ← out2_4_eq, ← out2_5_eq]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _
    (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
import proofs.«412827_j90649579749762_2_alg».proof.Proof.KI.Blocks
import Idealize.ShloMosaic.Lib.Pipeline.FrameBody
import Idealize.ShloMosaic.Lib.Pipeline.Value
import Idealize.ShloMosaic.Lib.Ring
import Idealize.ShloMosaic.Lib.Tactic

/-!
The frame half of the pooling pipeline: three input windows (two feature tiles and the tile's graph ids), one
output block for the whole grid, and two scratch accumulators (per-graph sums, per-graph row counts) that the
kernel carries from one grid point to the next.

The kernel resets both accumulators at the first point, adds the tile's one-hot product to the sums and the
tile's one-hot column sums to the counts at every point, and at the last point stores the sums over the counts
clamped at one into the output block. The output block is idle at every other point: the pipeline hands it back
as it found it, and writes it back only after the last point.

Every statement is made at a parameter `V`: core `c`'s buffer contents when the region is entered.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.GenP

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Loads and stores through a whole buffer's full rectangle -/

/-- The zero offsets of a rank-two rectangle, however they are spelt. -/
theorem r3_zero2 : (![0, 0] : Fin 2 → ℕ) = fun _ => 0 := funext fun a => by fin_cases a <;> rfl

section Whole

variable {κ : Kind} {sp : Space} {S : Shape} {e : EltTy}

/-- A load of a whole buffer through its full rectangle reads the buffer's contents. -/
theorem r3_readAt_unit_zero {m : Memref sig κ sp S e} (h : m.IsWhole) {off : Fin S.rank → Nat} (ho : off = fun _ => 0)
    (inb : ∀ a, off a + S.size a ≤ S.size a) (X : S.Idx → Elt F e) :
    m.view.readAt (Elt F) (Rect.unit off S.size inb).toLoadRect (h.unread X) = X := by
  show View.ld (m.view.read (Elt F) (h.unread X)) (Rect.unit off S.size inb) = X
  rw [h.read_unread, View.ld_unit_zero ho]

/-- A load through the full rectangle after a store through it reads the store's payload, whatever was stored before. -/
theorem r3_readCov_cons_unit_zero (v : View sig κ sp S e) {off : Fin S.rank → Nat} (ho : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst ho
  rw [View.readCov_eq_canon_ld _ _ _ (fun y => ⟨_, List.Mem.head _, View.mem_set_unit_zero rfl inb y⟩),
    View.canon_cons_unit_zero rfl, View.ld_unit_zero rfl]

/-- What a buffer reads after a last store through its full rectangle: the store's payload. -/
theorem r3_read_writes_cons_unit_zero (v : View sig κ sp S e) (f : v.ty.Contents (Elt F)) {off : Fin S.rank → Nat}
    (ho : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst ho
  rw [View.read_writes_eq_canon _ _ _ (fun y => ⟨_, List.Mem.head _, View.mem_set_unit_zero rfl inb y⟩),
    View.canon_cons_unit_zero rfl]

end Whole

/-! ## The body's two branch conditions -/

/-- The condition of the body's first branch (reset the accumulators), from the grid coordinate. -/
abbrev r3_cond3_0 (i : grid3.Coords) : Prop := (Scalar.cmpi .ne (Scalar.extui (Scalar.cmpi .eq (BitVec.ofNat 32 (i 0).val) 0#32)) 0#32) = 1#1
/-- The condition of the body's second branch (store the pooled means). -/
abbrev r3_cond3_1 (i : grid3.Coords) : Prop := k3_cond2 i = 1#1

/-- The reset is taken at the first point only — decided over the grid. -/
theorem r3_hcond3_0 : ∀ t : Fin cfg3.N, r3_cond3_0 (grid3.coords t) ↔ t.val % 10 = 0 :=
  (by decide +kernel : ∀ t : Fin grid3.N, r3_cond3_0 (grid3.coords t) ↔ t.val % 10 = 0)
/-- The final store is taken at the last point only. -/
theorem r3_hcond3_1 : ∀ t : Fin cfg3.N, r3_cond3_1 (grid3.coords t) ↔ t.val % 10 = 9 :=
  (by decide +kernel : ∀ t : Fin grid3.N, r3_cond3_1 (grid3.coords t) ↔ t.val % 10 = 9)
/-- Where the final store is not taken the output block is idle, and is not written back; -/
theorem r3_idleAt3_3 : ∀ t : Fin cfg3.N, ¬r3_cond3_1 (grid3.coords t) → cfg3.idle 3 (grid3.coords t) = true := by decide +kernel
theorem r3_noFlush3_3 : ∀ t : Fin cfg3.N, ¬r3_cond3_1 (grid3.coords t) → (cfg3.win 3).flush t = false := by decide +kernel
/-- where it is taken the block is live. -/
theorem r3_liveAt3_3 : ∀ t : Fin cfg3.N, r3_cond3_1 (grid3.coords t) → cfg3.idle 3 (grid3.coords t) = false := by decide +kernel

/-! ## The body's three triples

On whole memrefs — the three inputs at their contents, the output block, the two accumulators —, the body runs to the
continuation holding the inputs as they were and:
  * at the first point (the reset taken, the final store not): the accumulators, whatever they held, at the tile's
    contribution added to zero; the output block as it was;
  * at a middle point (neither taken): the accumulators at the tile's contribution added to what they held; the output
    block as it was;
  * at the last point (the final store taken): the accumulators likewise, and the output block at the new sums over the
    new counts clamped at one.
A load of an accumulator after a store to it in the same run reads the stored payload. -/

set_option maxHeartbeats 2000000 in

theorem sound_kernel3_first (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S5000x1 .i32) (harg3 : arg3.IsWhole) (arg4 : Memref sig .tc .vmem S16x64 .f32) (harg4 : arg4.IsWhole) (arg5 : Memref sig .tc .vmem S16x64 .f32) (harg5 : arg5.IsWhole) (arg6 : Memref sig .tc .vmem S16x1 .f32) (harg6 : arg6.IsWhole)
    (hc0 : r3_cond3_0 i) (hc1 : ¬r3_cond3_1 i)
    (x0 : Vec F S5000x64 .f32) (x1 : Vec F S5000x64 .f32) (x2 : Vec F S5000x1 .i32) (xi : Vec F S16x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (xi)
            ∗ owns (c : Thread nD τ) arg5 fullShare (k3_pay4 x0 x1 x2 (k3_pay1 (F := F)))
            ∗ owns (c : Thread nD τ) arg6 fullShare (k3_pay5 x2 (k3_pay2 (F := F)))) -∗ K ⟨⟩))
      ⊢ wp frame (wpE (defs₀ (F := F)) Variants.none c none) E (cc3__pool_kernel i arg1 harg1 arg2 harg2 arg3 harg3 arg4 harg4 arg5 harg5 arg6 harg6) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg1.eq_unread hf0; obtain rfl := harg2.eq_unread hf1; obtain rfl := harg3.eq_unread hf2; obtain rfl := harg4.eq_unread hf3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_run_names
    simp only [r3_read_writes_cons_unit_zero (S := S16x64) _ _ r3_zero2, r3_read_writes_cons_unit_zero (S := S16x1) _ _ r3_zero2,
      r3_readCov_cons_unit_zero (S := S16x64) _ r3_zero2, r3_readCov_cons_unit_zero (S := S16x1) _ r3_zero2,
      r3_readAt_unit_zero (S := S5000x64) harg1 r3_zero2, r3_readAt_unit_zero (S := S5000x64) harg2 r3_zero2, r3_readAt_unit_zero (S := S5000x1) harg3 r3_zero2]
  iexists _; isplitr
  swap; · iexact H5
  ipureintro
  sl_unfold_run_names
  simp only [r3_read_writes_cons_unit_zero (S := S16x64) _ _ r3_zero2, r3_read_writes_cons_unit_zero (S := S16x1) _ _ r3_zero2,
      r3_readCov_cons_unit_zero (S := S16x64) _ r3_zero2, r3_readCov_cons_unit_zero (S := S16x1) _ r3_zero2,
      r3_readAt_unit_zero (S := S5000x64) harg1 r3_zero2, r3_readAt_unit_zero (S := S5000x64) harg2 r3_zero2, r3_readAt_unit_zero (S := S5000x1) harg3 r3_zero2]

set_option maxHeartbeats 2000000 in

theorem sound_kernel3_mid (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S5000x1 .i32) (harg3 : arg3.IsWhole) (arg4 : Memref sig .tc .vmem S16x64 .f32) (harg4 : arg4.IsWhole) (arg5 : Memref sig .tc .vmem S16x64 .f32) (harg5 : arg5.IsWhole) (arg6 : Memref sig .tc .vmem S16x1 .f32) (harg6 : arg6.IsWhole)
    (hc0 : ¬r3_cond3_0 i) (hc1 : ¬r3_cond3_1 i)
    (x0 : Vec F S5000x64 .f32) (x1 : Vec F S5000x64 .f32) (x2 : Vec F S5000x1 .i32) (xi : Vec F S16x64 .f32) (s0 : Vec F S16x64 .f32) (s1 : Vec F S16x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi
        ∗ owns (c : Thread nD τ) arg5 fullShare s0 ∗ owns (c : Thread nD τ) arg6 fullShare s1
        ∗ (iprop(owns (c : Thread nD τ) arg1 fullShare x0 ∗ owns (c : Thread nD τ) arg2 fullShare x1 ∗ owns (c : Thread nD τ) arg3 fullShare x2
            ∗ owns (c : Thread nD τ) arg4 fullShare (xi)
            ∗ owns (c : Thread nD τ) arg5 fullShare (k3_pay4 x0 x1 x2 s0)
            ∗ owns (c : Thread nD τ) arg6 fullShare (k3_pay5 x2 s1)) -∗ K ⟨⟩))
      ⊢ wp frame (wpE (defs₀ (F := F)) Variants.none c none) E (cc3__pool_kernel i arg1 harg1 arg2 harg2 arg3 harg3 arg4 harg4 arg5 harg5 arg6 harg6) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_run_names
    simp only [r3_read_writes_cons_unit_zero (S := S16x64) _ _ r3_zero2, r3_read_writes_cons_unit_zero (S := S16x1) _ _ r3_zero2,
      r3_readCov_cons_unit_zero (S := S16x64) _ r3_zero2, r3_readCov_cons_unit_zero (S := S16x1) _ r3_zero2,
      r3_readAt_unit_zero (S := S5000x64) harg1 r3_zero2, r3_readAt_unit_zero (S := S5000x64) harg2 r3_zero2, r3_readAt_unit_zero (S := S5000x1) harg3 r3_zero2,
      r3_readAt_unit_zero (S := S16x64) harg5 r3_zero2, r3_readAt_unit_zero (S := S16x1) harg6 r3_zero2]
  iexists _; isplitr
  swap; · iexact H5
  ipureintro
  sl_unfold_run_names
  simp only [r3_read_writes_cons_unit_zero (S := S16x64) _ _ r3_zero2, r3_read_writes_cons_unit_zero (S := S16x1) _ _ r3_zero2,
      r3_readCov_cons_unit_zero (S := S16x64) _ r3_zero2, r3_readCov_cons_unit_zero (S := S16x1) _ r3_zero2,
      r3_readAt_unit_zero (S := S5000x64) harg1 r3_zero2, r3_readAt_unit_zero (S := S5000x64) harg2 r3_zero2, r3_readAt_unit_zero (S := S5000x1) harg3 r3_zero2,
      r3_readAt_unit_zero (S := S16x64) harg5 r3_zero2, r3_readAt_unit_zero (S := S16x1) harg6 r3_zero2]

set_option maxHeartbeats 2000000 in

theorem sound_kernel3_last (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S5000x1 .i32) (harg3 : arg3.IsWhole) (arg4 : Memref sig .tc .vmem S16x64 .f32) (harg4 : arg4.IsWhole) (arg5 : Memref sig .tc .vmem S16x64 .f32) (harg5 : arg5.IsWhole) (arg6 : Memref sig .tc .vmem S16x1 .f32) (harg6 : arg6.IsWhole)
    (hc0 : ¬r3_cond3_0 i) (hc1 : r3_cond3_1 i)
    (x0 : Vec F S5000x64 .f32) (x1 : Vec F S5000x64 .f32) (x2 : Vec F S5000x1 .i32) (s0 : Vec F S16x64 .f32) (s1 : Vec F S16x1 .f32)
    (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ owns (c : Thread nD τ) arg5 fullShare s0 ∗ owns (c : Thread nD τ) arg6 fullShare s1
        ∗ (iprop(owns (c : Thread nD τ) arg1 fullShare x0 ∗ owns (c : Thread nD τ) arg2 fullShare x1 ∗ owns (c : Thread nD τ) arg3 fullShare x2
            ∗ owns (c : Thread nD τ) arg4 fullShare (k3_pay6 (k3_pay4 x0 x1 x2 s0) (k3_pay5 x2 s1))
            ∗ owns (c : Thread nD τ) arg5 fullShare (k3_pay4 x0 x1 x2 s0)
            ∗ owns (c : Thread nD τ) arg6 fullShare (k3_pay5 x2 s1)) -∗ K ⟨⟩))
      ⊢ wp frame (wpE (defs₀ (F := F)) Variants.none c none) E (cc3__pool_kernel i arg1 harg1 arg2 harg2 arg3 harg3 arg4 harg4 arg5 harg5 arg6 harg6) K := by
  simp only [cc3__pool_kernel_eq_skeleton]; unfold cc3__pool_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  obtain rfl := harg1.eq_unread hf0; obtain rfl := harg2.eq_unread hf1; obtain rfl := harg3.eq_unread hf2
  obtain rfl := harg5.eq_unread hf4; obtain rfl := harg6.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    sl_unfold_run_names
    simp only [r3_read_writes_cons_unit_zero (S := S16x64) _ _ r3_zero2, r3_read_writes_cons_unit_zero (S := S16x1) _ _ r3_zero2,
      r3_readCov_cons_unit_zero (S := S16x64) _ r3_zero2, r3_readCov_cons_unit_zero (S := S16x1) _ r3_zero2,
      r3_readAt_unit_zero (S := S5000x64) harg1 r3_zero2, r3_readAt_unit_zero (S := S5000x64) harg2 r3_zero2, r3_readAt_unit_zero (S := S5000x1) harg3 r3_zero2,
      r3_readAt_unit_zero (S := S16x64) harg5 r3_zero2, r3_readAt_unit_zero (S := S16x1) harg6 r3_zero2]
  isplitl [H4]
  · iexists _; isplitr
    swap; · iexact H4
    ipureintro
    sl_unfold_run_names
    simp only [r3_read_writes_cons_unit_zero (S := S16x64) _ _ r3_zero2, r3_read_writes_cons_unit_zero (S := S16x1) _ _ r3_zero2,
      r3_readCov_cons_unit_zero (S := S16x64) _ r3_zero2, r3_readCov_cons_unit_zero (S := S16x1) _ r3_zero2,
      r3_readAt_unit_zero (S := S5000x64) harg1 r3_zero2, r3_readAt_unit_zero (S := S5000x64) harg2 r3_zero2, r3_readAt_unit_zero (S := S5000x1) harg3 r3_zero2,
      r3_readAt_unit_zero (S := S16x64) harg5 r3_zero2, r3_readAt_unit_zero (S := S16x1) harg6 r3_zero2]
  iexists _; isplitr
  swap; · iexact H5
  ipureintro
  sl_unfold_run_names
  simp only [r3_read_writes_cons_unit_zero (S := S16x64) _ _ r3_zero2, r3_read_writes_cons_unit_zero (S := S16x1) _ _ r3_zero2,
      r3_readCov_cons_unit_zero (S := S16x64) _ r3_zero2, r3_readCov_cons_unit_zero (S := S16x1) _ r3_zero2,
      r3_readAt_unit_zero (S := S5000x64) harg1 r3_zero2, r3_readAt_unit_zero (S := S5000x64) harg2 r3_zero2, r3_readAt_unit_zero (S := S5000x1) harg3 r3_zero2,
      r3_readAt_unit_zero (S := S16x64) harg5 r3_zero2, r3_readAt_unit_zero (S := S16x1) harg6 r3_zero2]

/-! ## The scratch accumulators and the invariant -/

/-- The two scratch operands: whole scoped buffers of the kernel's own, passed beside the windows. -/
abbrev sc3_0 : Memref sig .tc .vmem S16x64 .f32 := Memref.whole cc3_scratch0
abbrev sc3_1 : Memref sig .tc .vmem S16x1 .f32 := Memref.whole cc3_scratch1

/-- The invariant before position `n`: the generator register at some state; the sums accumulator at the sums of the
    first `n` tiles and the counts accumulator at their counts once a point has run (at anything before the first
    point, which resets both); every other scoped buffer untouched. -/
def Phi3 (c : Dev nD) (n : ℕ) : sProp 𝕄 :=
  iprop((∃ r, prngReg c r)
    ∗ (∃ f0 : Vec F S16x64 .f32, ⌜n ≠ 0 → f0 = sums3 V c n⌝ ∗ owns (c : Thread nD τ) sc3_0 fullShare f0)
    ∗ (∃ f1 : Vec F S16x1 .f32, ⌜n ≠ 0 → f1 = counts3 V c n⌝ ∗ owns (c : Thread nD τ) sc3_1 fullShare f1)
    ∗ Pipeline.scopedRestBut spec3 c [cc3_scratch0, cc3_scratch1])

/-! ## The pipeline's proof data -/

/-- The proof data of the pooling pipeline on core `c`: the arrays as the region finds them; after the body each
    input's buffer at its block and the output block at the pooled means (consulted at the last point only: the block
    is idle before it); the invariant `Phi3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => pooled3 V c
  Φ n := Phi3 V c n.val
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = pooled3 V c := by dsimp only [dat3]

/-- Nothing is owed, and every share is full. -/
theorem owed3 (c : Dev nD) (n : Fin (cfg3.N + 1)) : (dat3 V c).owed n = 0 := rfl
theorem q3 (c : Dev nD) (w : Fin cfg3.W) : (dat3 V c).q w = fullShare := rfl

/-! ## The accumulators, point by point -/

/-- After point `t` the sums are the tile's contribution added to the sums before it; -/
theorem r3_sums3_succ (c : Dev nD) (t : Fin cfg3.N) :
    sums3 V c (t.val + 1) = k3_pay4 (iblk3 V c 0 t) (iblk3 V c 1 t) (iblk3 V c 2 t) (sums3 V c t.val) := by
  rw [sums3, dif_pos t.isLt]
/-- and the counts likewise. -/
theorem r3_counts3_succ (c : Dev nD) (t : Fin cfg3.N) :
    counts3 V c (t.val + 1) = k3_pay5 (iblk3 V c 2 t) (counts3 V c t.val) := by
  rw [counts3, dif_pos t.isLt]

/-- At the first point they are added to zero. -/
theorem r3_sums3_first (c : Dev nD) (t : Fin cfg3.N) (hz : t.val = 0) :
    sums3 V c (t.val + 1) = k3_pay4 (iblk3 V c 0 t) (iblk3 V c 1 t) (iblk3 V c 2 t) (k3_pay1 (F := F)) :=
  (r3_sums3_succ V c t).trans (by rw [hz]; rfl)
theorem r3_counts3_first (c : Dev nD) (t : Fin cfg3.N) (hz : t.val = 0) :
    counts3 V c (t.val + 1) = k3_pay5 (iblk3 V c 2 t) (k3_pay2 (F := F)) :=
  (r3_counts3_succ V c t).trans (by rw [hz]; rfl)

/-- The pooled means, from the last point's tile and the accumulators before it. -/
theorem r3_pooled3_last (c : Dev nD) (t : Fin cfg3.N) (h : t.val + 1 = cfg3.N) :
    pooled3 V c = k3_pay6 (k3_pay4 (iblk3 V c 0 t) (iblk3 V c 1 t) (iblk3 V c 2 t) (sums3 V c t.val))
      (k3_pay5 (iblk3 V c 2 t) (counts3 V c t.val)) := by
  unfold pooled3
  have e1 : sums3 V c cfg3.N = sums3 V c (t.val + 1) := congrArg (sums3 V c) h.symm
  have e2 : counts3 V c cfg3.N = counts3 V c (t.val + 1) := congrArg (counts3 V c) h.symm
  rw [e1, e2, r3_sums3_succ, r3_counts3_succ]

/-! ## The inputs' staging buffers -/

/-- Each input's current staging buffer holds its block at every point, fetched there or not: an input window, never
    idle, uncut, whose body leaves the block in place. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns: the inputs at their blocks, the output block as it was found where it is idle and not written
    back, at the pooled means where it is live. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ (dat3 V c).leavesExact 3 t)

set_option maxHeartbeats 2000000 in
/-- The body at any point: the inputs' memrefs hold their blocks; the closed forms of the two conditions say which of
    the three triples applies; the invariant hands the body the accumulators at the sums and counts of the tiles before
    the point (at anything at the first point) and takes them back at those of the tiles up to it; the core owes nothing
    throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl,
    show (dat3 V c).Φ t.succ = Phi3 V c (t.val + 1) from rfl,
    show (dat3 V c).Φ t.castSucc = Phi3 V c t.val from rfl,
    after3_0, after3_1, after3_2]
  unfold Phi3
  have hN : t.val < 10 := lt_of_lt_of_eq t.isLt N_3
  have hN' : cfg3.N = 10 := N_3
  by_cases h9 : t.val % 10 = 9
  · have hz : t.val ≠ 0 := by omega
    have hlast : t.val + 1 = cfg3.N := by omega
    rw [show (dat3 V c).leavesExact 3 t = owns (c : Thread nD τ) (st3_3 t) fullShare ((dat3 V c).after 3 t) from by
        unfold Dat.leavesExact; rw [r3_liveAt3_3 t ((r3_hcond3_1 t).mpr h9)],
      after3_3, r3_pooled3_last V c t hlast]
    iintro ⟨⟨Hg, ⟨%f0, %hf0, HS0⟩, ⟨%f1, %hf1, HS1⟩, Hr⟩, Ho, ⟨%d0, H0⟩, ⟨%d1, H1⟩, ⟨%d2, H2⟩, ⟨%d3, H3⟩⟩
    obtain rfl := hf0 hz; obtain rfl := hf1 hz
    iapply (sound_kernel3_last c Set.univ (grid3.coords t) _ _ _ _ _ _ _ _ _ _ _ _
      (fun h => absurd ((r3_hcond3_0 t).mp h) (by omega)) ((r3_hcond3_1 t).mpr h9)
      (iblk3 V c 0 t) (iblk3 V c 1 t) (iblk3 V c 2 t) (sums3 V c t.val) (counts3 V c t.val) _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [Hg HS0 HS1 Hr]
    · isplitl [Hg]; · iexact Hg
      isplitl [HS0]
      · iexists _; isplitr; · ipureintro; exact fun _ => (r3_sums3_succ V c t).symm
        iexact HS0
      isplitl [HS1]
      · iexists _; isplitr; · ipureintro; exact fun _ => (r3_counts3_succ V c t).symm
        iexact HS1
      iexact Hr
    isplitl [Ho]; · iexact Ho
    isplitl [H0]; · iexact H0
    isplitl [H1]; · iexact H1
    isplitl [H2]; · iexact H2
    iexact H3
  · have hn1 : ¬r3_cond3_1 (grid3.coords t) := fun h => h9 ((r3_hcond3_1 t).mp h)
    rw [Dat.leavesExact_idle (dat3 V c) 3 t (r3_idleAt3_3 t hn1) (r3_noFlush3_3 t hn1)]
    by_cases h0 : t.val % 10 = 0
    · have hz : t.val = 0 := by omega
      iintro ⟨⟨Hg, ⟨%f0, -, HS0⟩, ⟨%f1, -, HS1⟩, Hr⟩, Ho, ⟨%d0, H0⟩, ⟨%d1, H1⟩, ⟨%d2, H2⟩, ⟨%d3, H3⟩⟩
      iapply (sound_kernel3_first c Set.univ (grid3.coords t) _ _ _ _ _ _ _ _ _ _ _ _
        ((r3_hcond3_0 t).mpr h0) hn1 (iblk3 V c 0 t) (iblk3 V c 1 t) (iblk3 V c 2 t) _ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, HS0, HS1⟩
      isplitl [Hg HS0 HS1 Hr]
      · isplitl [Hg]; · iexact Hg
        isplitl [HS0]
        · iexists _; isplitr; · ipureintro; exact fun _ => (r3_sums3_first V c t hz).symm
          iexact HS0
        isplitl [HS1]
        · iexists _; isplitr; · ipureintro; exact fun _ => (r3_counts3_first V c t hz).symm
          iexact HS1
        iexact Hr
      isplitl [Ho]; · iexact Ho
      isplitl [H0]; · iexact H0
      isplitl [H1]; · iexact H1
      isplitl [H2]; · iexact H2
      iexists _; iexact H3
    · have hz : t.val ≠ 0 := by omega
      iintro ⟨⟨Hg, ⟨%f0, %hf0, HS0⟩, ⟨%f1, %hf1, HS1⟩, Hr⟩, Ho, ⟨%d0, H0⟩, ⟨%d1, H1⟩, ⟨%d2, H2⟩, ⟨%d3, H3⟩⟩
      obtain rfl := hf0 hz; obtain rfl := hf1 hz
      iapply (sound_kernel3_mid c Set.univ (grid3.coords t) _ _ _ _ _ _ _ _ _ _ _ _
        (fun h => h0 ((r3_hcond3_0 t).mp h)) hn1 (iblk3 V c 0 t) (iblk3 V c 1 t) (iblk3 V c 2 t) _
        (sums3 V c t.val) (counts3 V c t.val) _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [Hg HS0 HS1 Hr]
      · isplitl [Hg]; · iexact Hg
        isplitl [HS0]
        · iexists _; isplitr; · ipureintro; exact fun _ => (r3_sums3_succ V c t).symm
          iexact HS0
        isplitl [HS1]
        · iexists _; isplitr; · ipureintro; exact fun _ => (r3_counts3_succ V c t).symm
          iexact HS1
        iexact Hr
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's ends -/

/-- What the launch hands the region — the generator register and the scoped rest, the two accumulators among it at
    anything — is the invariant before the first point. -/
theorem Phi3_in (c : Dev nD) : (iprop((∃ r, prngReg c r) ∗ Pipeline.scopedRest spec3 c) : sProp 𝕄) ⊢ (dat3 V c).Φ 0 := by
  rw [show (dat3 V c).Φ 0 = Phi3 V c 0 from rfl, scopedRest3_split]
  unfold Phi3
  simp only [sc3_0, sc3_1, owns_whole]
  iintro ⟨Hg, ⟨⟨%f0, H0⟩, ⟨%f1, H1⟩⟩, Hr⟩
  isplitl [Hg]; · iexact Hg
  isplitl [H0]
  · iexists f0; isplitr; · ipureintro; exact fun h => absurd rfl h
    iexact H0
  isplitl [H1]
  · iexists f1; isplitr; · ipureintro; exact fun h => absurd rfl h
    iexact H1
  iexact Hr

/-- After the last point the invariant gives them back: the accumulators' named contents are forgotten. -/
theorem Phi3_out (c : Dev nD) : (dat3 V c).Φ (Fin.last cfg3.N) ⊢ (iprop((∃ r, prngReg c r) ∗ Pipeline.scopedRest spec3 c) : sProp 𝕄) := by
  rw [show (dat3 V c).Φ (Fin.last cfg3.N) = Phi3 V c (Fin.last cfg3.N).val from rfl, scopedRest3_split]
  unfold Phi3
  simp only [sc3_0, sc3_1, owns_whole]
  iintro ⟨Hg, ⟨%f0, -, H0⟩, ⟨%f1, -, H1⟩, Hr⟩
  isplitl [Hg]; · iexact Hg
  isplitl [H0 H1]
  · isplitl [H0]
    · iexists f0; iexact H0
    · iexists f1; iexact H1
  iexact Hr

end Cert.KernelIdeal.Hand

end
-- ==== Proof.KI.Run.lean ====
import proofs.«412827_j90649579749762_2_alg».proof.Proof.KI.Region0
import proofs.«412827_j90649579749762_2_alg».proof.Proof.KI.Region1
import proofs.«412827_j90649579749762_2_alg».proof.Proof.KI.Region2
import proofs.«412827_j90649579749762_2_alg».proof.Proof.KI.Region3
import proofs.«412827_j90649579749762_2_alg».proof.Proof.KernelIdealP.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
The run of the whole program: four pipelines among four stretches of host operations.

The buffer contents are followed from the launch memory through every boundary: a host stretch leaves the fold of its
operations, a pipeline leaves its windows' arrays at what its write-backs produce and every other buffer as it was.
Each pipeline is entered from "every unscoped buffer at the boundary's contents, the generator register at some state,
nothing owed" and left in the same form, so the eight segments chain, and the final state is read against the last
boundary's contents: the result array is what the pooling pipeline's write-back left, and no argument array was
written by any host operation or any pipeline.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.KernelIdeal.GenP (launch0 launch1 launch2 launch3 cellOf_inj hostOps0 hostOps1 hostOps2 hostOps3 hostOps0_sub hostOps1_sub hostOps2_sub hostOps3_sub main_chain adm hostOps0_fresh hostOps1_fresh hostOps2_fresh hostOps3_fresh hostOps0_W hostOps1_W hostOps2_W hostOps3_W hostOps0_writes hostOps1_writes hostOps2_writes hostOps3_writes)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After host stretch 0: pipeline 0's entry. -/
abbrev W1 : Dev nD → Valuation τ sig (Elt F) := fun c => StableHlo.after hostOps0 (W0 m ρ c)
/-- The same, read at the core's references. -/
abbrev B1 : (c : Dev nD) → (b : Ref sig .tc) → Buf (Elt F) ((c : Thread nD τ).loc b) := fun c b => W1 m ρ c b
/-- At pipeline 0's exit: its windows' arrays at what the write-backs leave, every other buffer as entered. -/
def W2 (c : Dev nD) : Valuation τ sig (Elt F) :=
  Pipeline.withArrays spec0 c (W1 m ρ c) fun w => (dat0 (B1 m ρ) c).arrAt w cfg0.N
theorem W2_arr (c : Dev nD) (w : Fin cfg0.W) :
    W2 m ρ c (Proc.devRef .tc (Pipeline.arrRef spec0 w)) = (dat0 (B1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev B2 : (c : Dev nD) → (b : Ref sig .tc) → Buf (Elt F) ((c : Thread nD τ).loc b) := fun c b => W2 m ρ c b
theorem hF0 (c : Dev nD) (w : Fin cfg0.W) : (dat0 (B1 m ρ) c).arrAt w cfg0.N = B2 m ρ c (Pipeline.arrRef spec0 w) :=
  (W2_arr m ρ c w).symm
theorem hrest0 (c : Dev nD) : ∀ b, b ∉ Finset.univ.image (Pipeline.arrRef spec0) → B2 m ρ c b = B1 m ρ c b :=
  fun b hb => W2_of_ne m ρ c b fun w e => hb (Finset.mem_image.mpr ⟨w, Finset.mem_univ _, e⟩)
/-- Pipeline 0 changes no buffer but its output windows' arrays: an input window's array is read, not written. -/
theorem W2_keep (c : Dev nD) (b : Ref sig .tc)
    (hb : ∀ w : Fin cfg0.W, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hw : (cfg0.win w).isOut with
      | false => rfl
      | true => exact absurd rfl (hb w hw)
    exact (W2_arr m ρ c w).trans (((dat0 (B1 m ρ) c).arrAt_in w hin _).trans (A_eq0 (B1 m ρ) c w))
  · exact W2_of_ne m ρ c b fun w e => h ⟨w, e⟩
/-- Host stretch 0 changes no buffer it does not write. -/
theorem W1_keep (c : Dev nD) (b : Ref sig .tc) (hb : b ∉ hostOps0_W) :
    W1 m ρ c (Proc.devRef .tc b) = W0 m ρ c (Proc.devRef .tc b) :=
  StableHlo.after_of_writes_sub hostOps0 _ hostOps0_writes hb

/-- After host stretch 1: pipeline 1's entry. -/
abbrev W3 : Dev nD → Valuation τ sig (Elt F) := fun c => StableHlo.after hostOps1 (W2 m ρ c)
/-- The same, read at the core's references. -/
abbrev B3 : (c : Dev nD) → (b : Ref sig .tc) → Buf (Elt F) ((c : Thread nD τ).loc b) := fun c b => W3 m ρ c b
/-- At pipeline 1's exit: its windows' arrays at what the write-backs leave, every other buffer as entered. -/
def W4 (c : Dev nD) : Valuation τ sig (Elt F) :=
  Pipeline.withArrays spec1 c (W3 m ρ c) fun w => (dat1 (B3 m ρ) c).arrAt w cfg1.N
theorem W4_arr (c : Dev nD) (w : Fin cfg1.W) :
    W4 m ρ c (Proc.devRef .tc (Pipeline.arrRef spec1 w)) = (dat1 (B3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev B4 : (c : Dev nD) → (b : Ref sig .tc) → Buf (Elt F) ((c : Thread nD τ).loc b) := fun c b => W4 m ρ c b
theorem hF1 (c : Dev nD) (w : Fin cfg1.W) : (dat1 (B3 m ρ) c).arrAt w cfg1.N = B4 m ρ c (Pipeline.arrRef spec1 w) :=
  (W4_arr m ρ c w).symm
theorem hrest1 (c : Dev nD) : ∀ b, b ∉ Finset.univ.image (Pipeline.arrRef spec1) → B4 m ρ c b = B3 m ρ c b :=
  fun b hb => W4_of_ne m ρ c b fun w e => hb (Finset.mem_image.mpr ⟨w, Finset.mem_univ _, e⟩)
/-- Pipeline 1 changes no buffer but its output windows' arrays: an input window's array is read, not written. -/
theorem W4_keep (c : Dev nD) (b : Ref sig .tc)
    (hb : ∀ w : Fin cfg1.W, (cfg1.win w).isOut = true → Pipeline.arrRef spec1 w ≠ b) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      cases hw : (cfg1.win w).isOut with
      | false => rfl
      | true => exact absurd rfl (hb w hw)
    exact (W4_arr m ρ c w).trans (((dat1 (B3 m ρ) c).arrAt_in w hin _).trans (A_eq1 (B3 m ρ) c w))
  · exact W4_of_ne m ρ c b fun w e => h ⟨w, e⟩
/-- Host stretch 1 changes no buffer it does not write. -/
theorem W3_keep (c : Dev nD) (b : Ref sig .tc) (hb : b ∉ hostOps1_W) :
    W3 m ρ c (Proc.devRef .tc b) = W2 m ρ c (Proc.devRef .tc b) :=
  StableHlo.after_of_writes_sub hostOps1 _ hostOps1_writes hb

/-- After host stretch 2: pipeline 2's entry. -/
abbrev W5 : Dev nD → Valuation τ sig (Elt F) := fun c => StableHlo.after hostOps2 (W4 m ρ c)
/-- The same, read at the core's references. -/
abbrev B5 : (c : Dev nD) → (b : Ref sig .tc) → Buf (Elt F) ((c : Thread nD τ).loc b) := fun c b => W5 m ρ c b
/-- At pipeline 2's exit: its windows' arrays at what the write-backs leave, every other buffer as entered. -/
def W6 (c : Dev nD) : Valuation τ sig (Elt F) :=
  Pipeline.withArrays spec2 c (W5 m ρ c) fun w => (dat2 (B5 m ρ) c).arrAt w cfg2.N
theorem W6_arr (c : Dev nD) (w : Fin cfg2.W) :
    W6 m ρ c (Proc.devRef .tc (Pipeline.arrRef spec2 w)) = (dat2 (B5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev B6 : (c : Dev nD) → (b : Ref sig .tc) → Buf (Elt F) ((c : Thread nD τ).loc b) := fun c b => W6 m ρ c b
theorem hF2 (c : Dev nD) (w : Fin cfg2.W) : (dat2 (B5 m ρ) c).arrAt w cfg2.N = B6 m ρ c (Pipeline.arrRef spec2 w) :=
  (W6_arr m ρ c w).symm
theorem hrest2 (c : Dev nD) : ∀ b, b ∉ Finset.univ.image (Pipeline.arrRef spec2) → B6 m ρ c b = B5 m ρ c b :=
  fun b hb => W6_of_ne m ρ c b fun w e => hb (Finset.mem_image.mpr ⟨w, Finset.mem_univ _, e⟩)
/-- Pipeline 2 changes no buffer but its output windows' arrays: an input window's array is read, not written. -/
theorem W6_keep (c : Dev nD) (b : Ref sig .tc)
    (hb : ∀ w : Fin cfg2.W, (cfg2.win w).isOut = true → Pipeline.arrRef spec2 w ≠ b) :
    W6 m ρ c (Proc.devRef .tc b) = W5 m ρ c (Proc.devRef .tc b) := by
  by_cases h : ∃ w, Pipeline.arrRef spec2 w = b
  · obtain ⟨w, rfl⟩ := h
    have hin : (cfg2.win w).isOut = false := by
      cases hw : (cfg2.win w).isOut with
      | false => rfl
      | true => exact absurd rfl (hb w hw)
    exact (W6_arr m ρ c w).trans (((dat2 (B5 m ρ) c).arrAt_in w hin _).trans (A_eq2 (B5 m ρ) c w))
  · exact W6_of_ne m ρ c b fun w e => h ⟨w, e⟩
/-- Host stretch 2 changes no buffer it does not write. -/
theorem W5_keep (c : Dev nD) (b : Ref sig .tc) (hb : b ∉ hostOps2_W) :
    W5 m ρ c (Proc.devRef .tc b) = W4 m ρ c (Proc.devRef .tc b) :=
  StableHlo.after_of_writes_sub hostOps2 _ hostOps2_writes hb

/-- After host stretch 3: pipeline 3's entry. -/
abbrev W7 : Dev nD → Valuation τ sig (Elt F) := fun c => StableHlo.after hostOps3 (W6 m ρ c)
/-- The same, read at the core's references. -/
abbrev B7 : (c : Dev nD) → (b : Ref sig .tc) → Buf (Elt F) ((c : Thread nD τ).loc b) := fun c b => W7 m ρ c b
/-- At pipeline 3's exit: its windows' arrays at what the write-backs leave, every other buffer as entered. -/
def W8 (c : Dev nD) : Valuation τ sig (Elt F) :=
  Pipeline.withArrays spec3 c (W7 m ρ c) fun w => (dat3 (B7 m ρ) c).arrAt w cfg3.N
theorem W8_arr (c : Dev nD) (w : Fin cfg3.W) :
    W8 m ρ c (Proc.devRef .tc (Pipeline.arrRef spec3 w)) = (dat3 (B7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev B8 : (c : Dev nD) → (b : Ref sig .tc) → Buf (Elt F) ((c : Thread nD τ).loc b) := fun c b => W8 m ρ c b
theorem hF3 (c : Dev nD) (w : Fin cfg3.W) : (dat3 (B7 m ρ) c).arrAt w cfg3.N = B8 m ρ c (Pipeline.arrRef spec3 w) :=
  (W8_arr m ρ c w).symm
theorem hrest3 (c : Dev nD) : ∀ b, b ∉ Finset.univ.image (Pipeline.arrRef spec3) → B8 m ρ c b = B7 m ρ c b :=
  fun b hb => W8_of_ne m ρ c b fun w e => hb (Finset.mem_image.mpr ⟨w, Finset.mem_univ _, e⟩)
/-- Pipeline 3 changes no buffer but its output windows' arrays: an input window's array is read, not written. -/
theorem W8_keep (c : Dev nD) (b : Ref sig .tc)
    (hb : ∀ w : Fin cfg3.W, (cfg3.win w).isOut = true → Pipeline.arrRef spec3 w ≠ b) :
    W8 m ρ c (Proc.devRef .tc b) = W7 m ρ c (Proc.devRef .tc b) := by
  by_cases h : ∃ w, Pipeline.arrRef spec3 w = b
  · obtain ⟨w, rfl⟩ := h
    have hin : (cfg3.win w).isOut = false := by
      cases hw : (cfg3.win w).isOut with
      | false => rfl
      | true => exact absurd rfl (hb w hw)
    exact (W8_arr m ρ c w).trans (((dat3 (B7 m ρ) c).arrAt_in w hin _).trans (A_eq3 (B7 m ρ) c w))
  · exact W8_of_ne m ρ c b fun w e => h ⟨w, e⟩
/-- Host stretch 3 changes no buffer it does not write. -/
theorem W7_keep (c : Dev nD) (b : Ref sig .tc) (hb : b ∉ hostOps3_W) :
    W7 m ρ c (Proc.devRef .tc b) = W6 m ρ c (Proc.devRef .tc b) :=
  StableHlo.after_of_writes_sub hostOps3 _ hostOps3_writes hb

/-! ## The arguments end as launched -/

/-- A buffer no host operation writes and no pipeline's output window names ends holding its launch contents. -/
theorem W8_launch (c : Dev nD) (b : Ref sig .tc)
    (h0 : b ∉ hostOps0_W) (h1 : b ∉ hostOps1_W) (h2 : b ∉ hostOps2_W) (h3 : b ∉ hostOps3_W)
    (k0 : ∀ w : Fin cfg0.W, (cfg0.win w).isOut = true → Pipeline.arrRef spec0 w ≠ b)
    (k1 : ∀ w : Fin cfg1.W, (cfg1.win w).isOut = true → Pipeline.arrRef spec1 w ≠ b)
    (k2 : ∀ w : Fin cfg2.W, (cfg2.win w).isOut = true → Pipeline.arrRef spec2 w ≠ b)
    (k3 : ∀ w : Fin cfg3.W, (cfg3.win w).isOut = true → Pipeline.arrRef spec3 w ≠ b) :
    W8 m ρ c (Proc.devRef .tc b) = m ((c : Thread nD τ).loc b) :=
  (W8_keep m ρ c b k3).trans <| (W7_keep m ρ c b h3).trans <| (W6_keep m ρ c b k2).trans <| (W5_keep m ρ c b h2).trans <|
    (W4_keep m ρ c b k1).trans <| (W3_keep m ρ c b h1).trans <| (W2_keep m ρ c b k0).trans <| (W1_keep m ρ c b h0).trans rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (B1 m ρ) c
  | ⟨1, _⟩ => fun c => dat1 (B3 m ρ) c
  | ⟨2, _⟩ => fun c => dat2 (B5 m ρ) c
  | ⟨3, _⟩ => fun c => dat3 (B7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W8 m ρ c) ∗ ∃ r, prngReg c r)

/-! ## The pipelines as segments -/

set_option backward.isDefEq.respectTransparency.types false in
/-- Pipeline 0 over the thread state: entered from every unscoped buffer at `W1`, left at `W2`. Its arrays are split out
    of the unscoped buffers and put back at the exit contents; the generator register goes into the kernel's invariant
    and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (B1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (B1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (B1 m ρ c) (B2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 over the thread state: entered from every unscoped buffer at `W3`, left at `W4`. Its arrays are split out
    of the unscoped buffers and put back at the exit contents; the generator register goes into the kernel's invariant
    and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (B3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (B3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (B3 m ρ c) (B4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 over the thread state: entered from every unscoped buffer at `W5`, left at `W6`. Its arrays are split out
    of the unscoped buffers and put back at the exit contents; the generator register goes into the kernel's invariant
    and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (B5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (B5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (B5 m ρ c) (B6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 3 over the thread state: entered from every unscoped buffer at `W7`, left at `W8`. Its arrays are split out
    of the unscoped buffers and put back at the exit contents; the generator register goes into the kernel's invariant
    and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (B7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (B7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (B7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (B7 m ρ) c).Φ 0 from rfl]
    iintro ⟨Hp, -, Hr⟩
    iapply (Phi3_in (B7 m ρ) c)
    isplitl [Hp]; · iexact Hp
    iexact Hr
  hout c := by
    rw [Pipeline.ownSems0_none, show (pdats m ρ 3 c).Φ (Fin.last _) = (dat3 (B7 m ρ) c).Φ (Fin.last cfg3.N) from rfl]
    iintro HΦ
    ihave H := (Phi3_out (B7 m ρ) c) $$ HΦ
    icases H with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (B7 m ρ c) (B8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The eight segments in order: a host segment per stretch from its boundary's contents, a region per pipeline. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- The program is the run of the segments. -/
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting; the result array ends at what the pooling pipeline's write-back leaves, and every argument array ends as
    launched. -/
theorem run_main : θ_run defs (onTc (τ := τ) (main (F := F))) ⟨m, fun _ => 0, ρ⟩ (fun r => ∀ c : Dev nD,
      r.2.mem ((c.tc : Thread nD τ).loc main_v50) = W8 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v50 (by decide)),
       (h c _ (mem_uc main_arg0 (by decide))).trans (W8_launch m ρ c main_arg0 (by decide) (by decide) (by decide) (by decide) (by decide) (by decide) (by decide) (by decide)),
       (h c _ (mem_uc main_arg1 (by decide))).trans (W8_launch m ρ c main_arg1 (by decide) (by decide) (by decide) (by decide) (by decide) (by decide) (by decide) (by decide)),
       (h c _ (mem_uc main_arg2 (by decide))).trans (W8_launch m ρ c main_arg2 (by decide) (by decide) (by decide) (by decide) (by decide) (by decide) (by decide) (by decide)),
       (h c _ (mem_uc main_arg3 (by decide))).trans (W8_launch m ρ c main_arg3 (by decide) (by decide) (by decide) (by decide) (by decide) (by decide) (by decide) (by decide)),
       (h c _ (mem_uc main_arg4 (by decide))).trans (W8_launch m ρ c main_arg4 (by decide) (by decide) (by decide) (by decide) (by decide) (by decide) (by decide) (by decide)),
       (h c _ (mem_uc main_arg5 (by decide))).trans (W8_launch m ρ c main_arg5 (by decide) (by decide) (by decide) (by decide) (by decide) (by decide) (by decide) (by decide)),
       (h c _ (mem_uc main_arg6 (by decide))).trans (W8_launch m ρ c main_arg6 (by decide) (by decide) (by decide) (by decide) (by decide) (by decide) (by decide) (by decide)),
       (h c _ (mem_uc main_arg7 (by decide))).trans (W8_launch m ρ c main_arg7 (by decide) (by decide) (by decide) (by decide) (by decide) (by decide) (by decide) (by decide)),
       (h c _ (mem_uc main_arg8 (by decide))).trans (W8_launch m ρ c main_arg8 (by decide) (by decide) (by decide) (by decide) (by decide) (by decide) (by decide) (by decide)),
       (h c _ (mem_uc main_arg9 (by decide))).trans (W8_launch m ρ c main_arg9 (by decide) (by decide) (by decide) (by decide) (by decide) (by decide) (by decide) (by decide))⟩)

/-- The result array at the end is the pooling pipeline's output array after its last point. -/
theorem W8_result (c : Dev nD) : W8 m ρ c (Proc.devRef .tc main_v50) = (dat3 (B7 m ρ) c).arrAt 3 cfg3.N := W8_arr m ρ c 3

end Cert.KernelIdeal.Hand

end
-- ==== Proof.Spec.lean ====
import proofs.«412827_j90649579749762_2_alg».proof.Proof.Gen.ReferenceIdeal.Run

/-!
The network both programs compute, written once as a composition of three stages over whole arrays, in the
reference program's own operations:

* a linear layer `x ↦ x · W + b` (the bias broadcast along the rows);
* a message-passing step `h ↦ Σ_{e : dst e = i} h[src e] · w_e` (a row gather at the source ids, a scale by the
  edge weight, a scatter-add at the destination ids into zeros);
* the per-graph mean `h ↦ (Σ_{i : batch i = g} h[i]) / max(#{i : batch i = g}, 1)`.

The reference's result is this composition by unfolding; the kernel's is shown equal to it stage by stage.
-/

noncomputable section

namespace Cert.Spec

open Cert.ReferenceIdeal Cert.ReferenceIdeal.Gen Idealize.ShloMosaic Idealize.ShloMosaic.TcCoe Idealize.SL.Sem

variable {F : FTy → Type} [FloatOps F]

/-- The contents of an array of shape `s` and element type `e`. -/
abbrev Arr (F : FTy → Type) [FloatOps F] (s : Shape) (e : EltTy) := (⟨s, e⟩ : BufTy).Contents (Elt F)

/-- Row 0 of the edge list: the source ids. -/
def srcRow (ei : Arr F S2x800000 .i32) : Arr F S800000 .i32 :=
  shapeCast _ (extractStridedSlice S1x800000 ![0, 0] ei slices_S2x800000_S1x800000_0_0) shapeCasts_S1x800000_S800000

/-- Row 1 of the edge list: the destination ids. -/
def dstRow (ei : Arr F S2x800000 .i32) : Arr F S800000 .i32 :=
  shapeCast _ (extractStridedSlice S1x800000 ![1, 0] ei slices_S2x800000_S1x800000_1_0) shapeCasts_S1x800000_S800000

/-- The source ids as a column of gather indices, a negative id counted from the end. -/
def srcCol (ei : Arr F S2x800000 .i32) : Arr F S800000x1 .i32 :=
  broadcastInDim S800000x1 ![0] bcast_S800000_S800000x1_0
    (select (cmpi .slt (srcRow ei) (broadcastInDim S800000 ![] bcast_S_S800000 (constantI S_ 32 0#32)))
      (addi (srcRow ei) (broadcastInDim S800000 ![] bcast_S_S800000 (constantI S_ 32 50000#32))) (srcRow ei))

/-- The destination ids as a column of scatter indices. -/
def dstCol (ei : Arr F S2x800000 .i32) : Arr F S800000x1 .i32 :=
  broadcastInDim S800000x1 ![0] bcast_S800000_S800000x1_0 (dstRow ei)

/-- A linear layer into 128 features. -/
def lin128 (x : Arr F S50000x128 .f32) (W : Arr F S128x128 .f32) (b : Arr F S128 .f32) : Arr F S50000x128 .f32 :=
  addf (Host.dotGeneral dot_S50000x128_S128x128_S50000x128_1_0_0_1_n_n none x W)
    (broadcastInDim S50000x128 ![0, 1] bcast_S1x128_S50000x128_0_1 (broadcastInDim S1x128 ![1] bcast_S128_S1x128_1 b))

/-- A linear layer into 64 features. -/
def lin64 (x : Arr F S50000x128 .f32) (W : Arr F S128x64 .f32) (b : Arr F S64 .f32) : Arr F S50000x64 .f32 :=
  addf (Host.dotGeneral dot_S50000x128_S128x64_S50000x64_1_0_0_1_n_n none x W)
    (broadcastInDim S50000x64 ![0, 1] bcast_S1x64_S50000x64_0_1 (broadcastInDim S1x64 ![1] bcast_S64_S1x64_1 b))

/-- One message-passing step over 128 features, from a column of source indices and a column of destination indices. -/
def msg128 (h : Arr F S50000x128 .f32) (src dst : Arr F S800000x1 .i32) (ea : Arr F S800000 .f32) : Arr F S50000x128 .f32 :=
  Host.scatterAdd scatter_S50000x128_S800000x1_S800000x128_1_0_0_1
    (broadcastInDim S50000x128 ![] bcast_S_S50000x128 (constant S_ .f32 0x00000000#32)) dst
    (mulf (Host.gather gather_S50000x128_S800000x1_S800000x128_1_0_n_n_0_1_1128 h src)
      (broadcastInDim S800000x128 ![0, 1] bcast_S800000x1_S800000x128_0_1 (broadcastInDim S800000x1 ![0] bcast_S800000_S800000x1_0 ea)))

/-- One message-passing step over 64 features. -/
def msg64 (h : Arr F S50000x64 .f32) (src dst : Arr F S800000x1 .i32) (ea : Arr F S800000 .f32) : Arr F S50000x64 .f32 :=
  Host.scatterAdd scatter_S50000x64_S800000x1_S800000x64_1_0_0_1
    (broadcastInDim S50000x64 ![] bcast_S_S50000x64 (constant S_ .f32 0x00000000#32)) dst
    (mulf (Host.gather gather_S50000x64_S800000x1_S800000x64_1_0_n_n_0_1_164 h src)
      (broadcastInDim S800000x64 ![0, 1] bcast_S800000x1_S800000x64_0_1 (broadcastInDim S800000x1 ![0] bcast_S800000_S800000x1_0 ea)))

/-- The per-graph mean of the rows, from a column of graph ids: the segment sums over the segment sizes clamped at one. -/
def pool (h : Arr F S50000x64 .f32) (ids : Arr F S50000x1 .i32) : Arr F S16x64 .f32 :=
  Host.divf
    (Host.scatterAdd scatter_S16x64_S50000x1_S50000x64_1_0_0_1
      (broadcastInDim S16x64 ![] bcast_S_S16x64 (constant S_ .f32 0x00000000#32)) ids h)
    (broadcastInDim S16x64 ![0, 1] bcast_S16x1_S16x64_0_1 (broadcastInDim S16x1 ![0] bcast_S16_S16x1_0
      (maximumf
        (Host.scatterAdd scatter_S16_S50000x1_S50000_n_0_0_1
          (broadcastInDim S16 ![] bcast_S_S16 (constant S_ .f32 0x00000000#32)) ids
          (broadcastInDim S50000 ![] bcast_S_S50000 (constant S_ .f32 0x3F800000#32)))
        (broadcastInDim S16 ![] bcast_S_S16 (constant S_ .f32 0x3F800000#32)))))

/-- The whole network: three layers, each a linear map followed by its messages added back, then the pool. -/
def model (x : Arr F S50000x128 .f32) (ei : Arr F S2x800000 .i32) (ea : Arr F S800000 .f32) (batch : Arr F S50000 .i32)
    (W1 : Arr F S128x128 .f32) (b1 : Arr F S128 .f32) (W2 : Arr F S128x128 .f32) (b2 : Arr F S128 .f32)
    (W3 : Arr F S128x64 .f32) (b3 : Arr F S64 .f32) : Arr F S16x64 .f32 :=
  let h1 := lin128 x W1 b1
  let o1 := addf (msg128 h1 (srcCol ei) (dstCol ei) ea) h1
  let h2 := lin128 o1 W2 b2
  let o2 := addf (msg128 h2 (srcCol ei) (dstCol ei) ea) h2
  let h3 := lin64 o2 W3 b3
  let o3 := addf (msg64 h3 (srcCol ei) (dstCol ei) ea) h3
  pool o3 (broadcastInDim S50000x1 ![0] bcast_S50000_S50000x1_0 batch)

set_option maxRecDepth 16384 in
/-- The reference's result is the network of its arguments: the two terms are the same composition of the same operations. -/
theorem ref_eq (m : (ℓ : Loc nD τ sig) → Buf (Elt F) ℓ) (c : Dev nD) :
    Cert.ReferenceIdeal.Value.res_main_v69 m c =
      model (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) := by
  unfold Cert.ReferenceIdeal.Value.res_main_v69 model pool msg64 msg128 lin64 lin128 dstCol srcCol dstRow srcRow
  rfl

end Cert.Spec

end
-- ==== Proof.Val.Lin.lean ====
import proofs.«412827_j90649579749762_2_alg».proof.Proof.KI.Blocks
import proofs.«412827_j90649579749762_2_alg».proof.Proof.Spec
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

/-!
What the three linear layers' pipelines leave in their output arrays, as whole-array functions, over the extended reals.

Each layer's grid has ten points; point t's block is rows 5000·t … 5000·t + 4999 of the row arrays, all columns, and the
weight and bias windows hold their whole arrays at every point. At entry (i, j) both the tile's payload and the reference's
layer are (Σ_k X[i, k] · W[k, j]) + b[j], with X the input rows (for the second and third layers the entrywise sum of the
aggregated messages and the previous layer): the tile's product starts from a zero accumulator (0 + s = s), the
reference's product has none, a change of float format is the identity, and the bias is broadcast down the rows on
both sides. No finiteness is used: the two sides are the same sum of the same products.

The index-level core is proved once over sizes m, M, k, n (a tile's payload at (p, q); the reference's term at (i, j));
each layer instantiates it, reads its input blocks where the output block's rectangle says, and covers the array by
arithmetic (row r lies in the block of point r / 5000).
-/

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.GenP Cert.KernelIdeal.Hand

variable (V : (c : Dev nD) → (b : Ref sig .tc) → Buf (Elt Ideal) ((c : Thread nD τ).loc b))

section Core

variable {m M k n : ℕ}

/-- A plain [m,k]·[k,n] tile product into the zero accumulator, at entry (a, b): the sum over the contracted
    coordinate of the products of the entries (0 + s = s). -/
theorem tile_dot_apply (d : DotDims ⟨2, ![m, k]⟩ ⟨2, ![k, n]⟩ ⟨2, ![m, n]⟩) (hd : d = DotDims.plain m k n)
    {φ₁ φ₂ : FTy} (prec : Option ContractPrecision) (A : FVec Ideal ⟨2, ![m, k]⟩ φ₁) (B : FVec Ideal ⟨2, ![k, n]⟩ φ₂)
    (a : Fin m) (b : Fin n) :
    matmul d prec A B (constant (F := Ideal) ⟨2, ![m, n]⟩ .f32 0x00000000#32) (ix2 a b)
      = ∑ c : Fin k, A (ix2 a c) * B (ix2 c b) := by
  subst hd
  refine Eq.trans ?_ (StackMember.dotGeneral_plain_apply prec A B a b)
  show FloatOps.matmul _ prec A B _ (ix2 a b) = FloatOps.dotGeneral _ prec _ A B (ix2 a b)
  rw [Ideal.matmul_constant_zero_apply, Ideal.dotGeneral_apply]

/-- The tile's linear layer at entry (p, q): the product of the (format-changed, hence unchanged) input tile and
    weights into zeros, plus the bias row broadcast down the rows. -/
theorem tile_lin_apply (d : DotDims ⟨2, ![m, k]⟩ ⟨2, ![k, n]⟩ ⟨2, ![m, n]⟩) (hd : d = DotDims.plain m k n)
    (hsc : (⟨1, ![n]⟩ : Shape).ShapeCasts ⟨2, ![1, n]⟩) (hbc : (⟨2, ![1, n]⟩ : Shape).Broadcasts ⟨2, ![m, n]⟩)
    (hlt : FTy.bits .bf16 < FTy.bits .f32)
    (X : FVec Ideal ⟨2, ![m, k]⟩ .f32) (W : FVec Ideal ⟨2, ![k, n]⟩ .f32) (b : FVec Ideal ⟨1, ![n]⟩ .f32)
    (p : Fin m) (q : Fin n) :
    addf (matmul d none (truncf .bf16 X hlt) (truncf .bf16 W hlt) (constant (F := Ideal) ⟨2, ![m, n]⟩ .f32 0x00000000#32))
        (broadcastTo ⟨2, ![m, n]⟩ (shapeCast ⟨2, ![1, n]⟩ b hsc) hbc) (ix2 p q)
      = (∑ c : Fin k, X (ix2 p c) * W (ix2 c q)) + b (ix1 q) := by
  rw [addf_apply, tile_dot_apply d hd, broadcastTo_1b_ab_apply, shapeCast_a_1a_apply]
  rfl

/-- The reference's linear layer at entry (i, j): the host product, which has no accumulator, plus the bias
    broadcast to one row and then down the rows. -/
theorem ref_lin_apply (d : DotDims ⟨2, ![M, k]⟩ ⟨2, ![k, n]⟩ ⟨2, ![M, n]⟩) (hd : d = DotDims.plain M k n)
    (hb1 : (⟨1, ![n]⟩ : Shape).BroadcastsInDim ⟨2, ![1, n]⟩ (![1] : Fin 1 → Fin 2))
    (hb2 : (⟨2, ![1, n]⟩ : Shape).BroadcastsInDim ⟨2, ![M, n]⟩ (![0, 1] : Fin 2 → Fin 2))
    (X : FVec Ideal ⟨2, ![M, k]⟩ .f32) (W : FVec Ideal ⟨2, ![k, n]⟩ .f32) (b : FVec Ideal ⟨1, ![n]⟩ .f32)
    (i : Fin M) (j : Fin n) :
    addf (Host.dotGeneral d none X W)
        (broadcastInDim ⟨2, ![M, n]⟩ ![0, 1] hb2 (broadcastInDim ⟨2, ![1, n]⟩ ![1] hb1 b)) (ix2 i j)
      = (∑ c : Fin k, X (ix2 i c) * W (ix2 c j)) + b (ix1 j) := by
  subst hd
  rw [addf_apply, StackMember.dotGeneral_plain_apply]
  congr 1
  refine (broadcastInDim_apply _ hb2 _ (ix2 i j) (ix2 (0 : Fin 1) j) fun a => ?_).trans
    (broadcastInDim_apply _ hb1 b (ix2 (0 : Fin 1) j) (ix1 j) fun a => ?_)
  · match a with
    | ⟨0, _⟩ => show 0 = if (1 : ℕ) = 1 then 0 else i.val; rw [if_pos rfl]
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-- A tile's linear layer is the reference's at the entry the tile's (p, q) sits at in the whole array, (i, q), when
    the tile's row p is the array's row i and the weights and bias are the whole arrays. -/
theorem tile_eq_ref (d : DotDims ⟨2, ![m, k]⟩ ⟨2, ![k, n]⟩ ⟨2, ![m, n]⟩) (hd : d = DotDims.plain m k n)
    (dR : DotDims ⟨2, ![M, k]⟩ ⟨2, ![k, n]⟩ ⟨2, ![M, n]⟩) (hdR : dR = DotDims.plain M k n)
    (hsc : (⟨1, ![n]⟩ : Shape).ShapeCasts ⟨2, ![1, n]⟩) (hbc : (⟨2, ![1, n]⟩ : Shape).Broadcasts ⟨2, ![m, n]⟩)
    (hlt : FTy.bits .bf16 < FTy.bits .f32)
    (hb1 : (⟨1, ![n]⟩ : Shape).BroadcastsInDim ⟨2, ![1, n]⟩ (![1] : Fin 1 → Fin 2))
    (hb2 : (⟨2, ![1, n]⟩ : Shape).BroadcastsInDim ⟨2, ![M, n]⟩ (![0, 1] : Fin 2 → Fin 2))
    (x0 : FVec Ideal ⟨2, ![m, k]⟩ .f32) (x1 : FVec Ideal ⟨2, ![k, n]⟩ .f32) (x2 : FVec Ideal ⟨1, ![n]⟩ .f32)
    (X : FVec Ideal ⟨2, ![M, k]⟩ .f32) (W : FVec Ideal ⟨2, ![k, n]⟩ .f32) (b : FVec Ideal ⟨1, ![n]⟩ .f32)
    (p : Fin m) (q : Fin n) (i : Fin M)
    (h0 : ∀ c, x0 (ix2 p c) = X (ix2 i c)) (h1 : ∀ c, x1 (ix2 c q) = W (ix2 c q)) (h2 : x2 (ix1 q) = b (ix1 q)) :
    addf (matmul d none (truncf .bf16 x0 hlt) (truncf .bf16 x1 hlt) (constant (F := Ideal) ⟨2, ![m, n]⟩ .f32 0x00000000#32))
        (broadcastTo ⟨2, ![m, n]⟩ (shapeCast ⟨2, ![1, n]⟩ x2 hsc) hbc) (ix2 p q)
      = addf (Host.dotGeneral dR none X W)
        (broadcastInDim ⟨2, ![M, n]⟩ ![0, 1] hb2 (broadcastInDim ⟨2, ![1, n]⟩ ![1] hb1 b)) (ix2 i q) := by
  rw [tile_lin_apply d hd, ref_lin_apply dR hdR, h2]
  exact congrArg (· + b (ix1 q)) (Finset.sum_congr rfl fun c _ => by rw [h0 c, h1 c])

end Core

/-! ## The three tile payloads against the reference's layers, entry by entry -/

/-- The first layer's f32 payload at a tile entry y is the reference's layer at the array entry i, when y's row of the
    input tile is i's row of the input array, the weight and bias tiles are the arrays, and the columns agree. -/
theorem pay0_eq_lin (x0 : Vec Ideal S5000x128 .f32) (x1 : Vec Ideal S128x128 .f32) (x2 : Vec Ideal S128 .f32)
    (X : Cert.Spec.Arr Ideal S50000x128 .f32) (W : Cert.Spec.Arr Ideal S128x128 .f32) (b : Cert.Spec.Arr Ideal S128 .f32)
    (y : S5000x128.Idx) (i : S50000x128.Idx) (hi : (i 1).val = (y 1).val)
    (h0 : ∀ l : Fin 128, x0 (ix2 (y 0) l) = X (ix2 (i 0) l)) (h1 : ∀ l : Fin 128, x1 (ix2 l (y 1)) = W (ix2 l (y 1)))
    (h2 : x2 (ix1 (y 1)) = b (ix1 (y 1))) :
    k0_pay1 x0 x1 x2 y = Cert.Spec.lin128 X W b i := by
  obtain ⟨p, q, rfl⟩ : ∃ (p : Fin 5000) (q : Fin 128), y = ix2 p q := ⟨y 0, y 1, eq_ix2 y⟩
  obtain ⟨i0, i1, rfl⟩ : ∃ (i0 : Fin 50000) (i1 : Fin 128), i = ix2 i0 i1 := ⟨i 0, i 1, eq_ix2 i⟩
  obtain rfl : i1 = q := Fin.ext hi
  unfold k0_pay1 Cert.Spec.lin128
  exact tile_eq_ref (m := 5000) (M := 50000) (k := 128) (n := 128) _ rfl _ rfl _ _ _ _ _ x0 x1 x2 X W b p i1 i0 h0 h1 h2

/-- The second layer's f32 payload at a tile entry y is the reference's layer, of the entrywise sum of the two input
    arrays, at the array entry i, when y's rows of the two input tiles are i's rows of the two arrays, the weight and
    bias tiles are the arrays, and the columns agree. A cast of a tile to its own shape changes nothing. -/
theorem pay1_eq_lin (x0 x1 : Vec Ideal S5000x128 .f32) (x2 : Vec Ideal S128x128 .f32) (x3 : Vec Ideal S128 .f32)
    (A B : Cert.Spec.Arr Ideal S50000x128 .f32) (W : Cert.Spec.Arr Ideal S128x128 .f32) (b : Cert.Spec.Arr Ideal S128 .f32)
    (y : S5000x128.Idx) (i : S50000x128.Idx) (hi : (i 1).val = (y 1).val)
    (h0 : ∀ l : Fin 128, x0 (ix2 (y 0) l) = A (ix2 (i 0) l)) (h0' : ∀ l : Fin 128, x1 (ix2 (y 0) l) = B (ix2 (i 0) l))
    (h1 : ∀ l : Fin 128, x2 (ix2 l (y 1)) = W (ix2 l (y 1))) (h2 : x3 (ix1 (y 1)) = b (ix1 (y 1))) :
    k1_pay1 x0 x1 x2 x3 y = Cert.Spec.lin128 (addf A B) W b i := by
  obtain ⟨p, q, rfl⟩ : ∃ (p : Fin 5000) (q : Fin 128), y = ix2 p q := ⟨y 0, y 1, eq_ix2 y⟩
  obtain ⟨i0, i1, rfl⟩ : ∃ (i0 : Fin 50000) (i1 : Fin 128), i = ix2 i0 i1 := ⟨i 0, i 1, eq_ix2 i⟩
  obtain rfl : i1 = q := Fin.ext hi
  unfold k1_pay1 Cert.Spec.lin128
  rw [shapeCast_self, shapeCast_self]
  exact tile_eq_ref (m := 5000) (M := 50000) (k := 128) (n := 128) _ rfl _ rfl _ _ _ _ _ (addf x0 x1) x2 x3 (addf A B) W b p i1 i0
    (fun l => by rw [addf_apply, addf_apply, h0 l, h0' l]) h1 h2

/-- The third layer's f32 payload at a tile entry y is the reference's layer, of the entrywise sum of the two input
    arrays, at the array entry i, when y's rows of the two input tiles are i's rows of the two arrays, the weight and
    bias tiles are the arrays, and the columns agree. A cast of a tile to its own shape changes nothing. -/
theorem pay2_eq_lin (x0 x1 : Vec Ideal S5000x128 .f32) (x2 : Vec Ideal S128x64 .f32) (x3 : Vec Ideal S64 .f32)
    (A B : Cert.Spec.Arr Ideal S50000x128 .f32) (W : Cert.Spec.Arr Ideal S128x64 .f32) (b : Cert.Spec.Arr Ideal S64 .f32)
    (y : S5000x64.Idx) (i : S50000x64.Idx) (hi : (i 1).val = (y 1).val)
    (h0 : ∀ l : Fin 128, x0 (ix2 (y 0) l) = A (ix2 (i 0) l)) (h0' : ∀ l : Fin 128, x1 (ix2 (y 0) l) = B (ix2 (i 0) l))
    (h1 : ∀ l : Fin 128, x2 (ix2 l (y 1)) = W (ix2 l (y 1))) (h2 : x3 (ix1 (y 1)) = b (ix1 (y 1))) :
    k2_pay1 x0 x1 x2 x3 y = Cert.Spec.lin64 (addf A B) W b i := by
  obtain ⟨p, q, rfl⟩ : ∃ (p : Fin 5000) (q : Fin 64), y = ix2 p q := ⟨y 0, y 1, eq_ix2 y⟩
  obtain ⟨i0, i1, rfl⟩ : ∃ (i0 : Fin 50000) (i1 : Fin 64), i = ix2 i0 i1 := ⟨i 0, i 1, eq_ix2 i⟩
  obtain rfl : i1 = q := Fin.ext hi
  unfold k2_pay1 Cert.Spec.lin64
  rw [shapeCast_self, shapeCast_self]
  exact tile_eq_ref (m := 5000) (M := 50000) (k := 128) (n := 64) _ rfl _ rfl _ _ _ _ _ (addf x0 x1) x2 x3 (addf A B) W b p i1 i0
    (fun l => by rw [addf_apply, addf_apply, h0 l, h0' l]) h1 h2

/-! ## The first layer's pipeline: blocks, cover, array -/

/-- The block index maps over the ten points: the row tiles move with the point, the weights and bias stay. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val
    ∧ win0_3.index t (1 : Fin 2) = 0
    ∧ win0_4.index t (0 : Fin 2) = t.val
    ∧ win0_4.index t (1 : Fin 2) = 0 :=
  (by decide +kernel : ∀ t : Fin grid0.N, _)

/-- What point t writes back to the f32 result is block t of the reference's layer of the arrays. -/
theorem flushed0_3 (c : Dev nD) (dat : Dat τ (Elt Ideal) Unit ℕ (UR sig nD τ) ℕ cfg0 c)
    (h : ∀ t, dat.after 3 t = k0_pay1 (iblk0 V c 0 t) (iblk0 V c 1 t) (iblk0 V c 2 t)) (t : Fin cfg0.N) :
    dat.flushed 3 t = ((cfg0.win 3).blk t).view.read (Elt Ideal)
      (Cert.Spec.lin128 (V c main_arg0) (V c main_arg4) (V c main_arg5)) := by
  show (cfg0.win 3).cut (grid0.coords t) (dat.after 3 t) = _
  rw [h]
  obtain ⟨e00, e01, e10, e11, e20, e30, e31, e40, e41⟩ := idx0 t
  funext y
  show k0_pay1 (iblk0 V c 0 t) (iblk0 V c 1 t) (iblk0 V c 2 t) y
    = Cert.Spec.lin128 (V c main_arg0) (V c main_arg4) (V c main_arg5) (((cfg0.win 3).blk t).view.emb y)
  refine pay0_eq_lin (iblk0 V c 0 t) (iblk0 V c 1 t) (iblk0 V c 2 t) _ _ _ y _ ?_ ?_ ?_ ?_
  · show win0_3.index t (1 : Fin 2) * 128 + 1 * (y 1).val = (y 1).val
    omega
  · intro l
    show V c main_arg0 (((cfg0.win 0).blk t).view.emb (ix2 (y 0) l)) = V c main_arg0 _
    refine congrArg _ (funext fun a => Fin.ext ?_)
    match a with
    | ⟨0, _⟩ => show win0_0.index t (0 : Fin 2) * 5000 + 1 * (y 0).val = win0_3.index t (0 : Fin 2) * 5000 + 1 * (y 0).val; omega
    | ⟨1, _⟩ => show win0_0.index t (1 : Fin 2) * 128 + 1 * l.val = l.val; omega
  · intro l
    show V c main_arg4 (((cfg0.win 1).blk t).view.emb (ix2 l (y 1))) = V c main_arg4 _
    refine congrArg _ (funext fun a => Fin.ext ?_)
    match a with
    | ⟨0, _⟩ => show win0_1.index t (0 : Fin 2) * 128 + 1 * l.val = l.val; omega
    | ⟨1, _⟩ => show win0_1.index t (1 : Fin 2) * 128 + 1 * (y 1).val = (y 1).val; omega
  · show V c main_arg5 (((cfg0.win 2).blk t).view.emb (ix1 (y 1))) = V c main_arg5 _
    refine congrArg _ (funext fun a => Fin.ext ?_)
    match a with
    | ⟨0, _⟩ => show win0_2.index t (0 : Fin 1) * 128 + 1 * (y 1).val = (y 1).val; omega

/-- An index of the f32 result is in point t's block iff each coordinate is in the block's range on its axis. -/
theorem mem_blk0_3 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v4_0).slice (win0_3.rect t)).set ↔ _
  rw [View.set_slice_whole, Rect.mem_set_unit]
  exact Iff.rfl

/-- Row r of the f32 result lies in the block of point r / 5000, and every point writes back. -/
theorem cover0_3 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : (i 0).val / 5000 < grid0.N := by rw [N_0]; omega
  obtain ⟨e00, e01, e10, e11, e20, e30, e31, e40, e41⟩ := idx0 ⟨(i 0).val / 5000, hN⟩
  refine ⟨⟨(i 0).val / 5000, hN⟩, flush0_3 _, ?_⟩
  rw [mem_blk0_3]
  intro a
  match a with
  | ⟨0, _⟩ =>
    show win0_3.index ⟨(i 0).val / 5000, hN⟩ (0 : Fin 2) * 5000 ≤ (i 0).val
      ∧ (i 0).val < win0_3.index ⟨(i 0).val / 5000, hN⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, hN⟩ (1 : Fin 2) * 128 ≤ (i 1).val
      ∧ (i 1).val < win0_3.index ⟨(i 0).val / 5000, hN⟩ (1 : Fin 2) * 128 + 128
    rw [e31]; omega

/-- The first layer's f32 result array after its pipeline is the reference's first linear layer of the arrays the
    region finds. -/
theorem lin0_f32 (c : Dev nD) (dat : Dat τ (Elt Ideal) Unit ℕ (UR sig nD τ) ℕ cfg0 c) (hA : ∀ w, dat.A w = V c (Pipeline.arrRef spec0 w))
    (h : ∀ t, dat.after 3 t = k0_pay1 (iblk0 V c 0 t) (iblk0 V c 1 t) (iblk0 V c 2 t)) :
    dat.arrAt 3 cfg0.N = Cert.Spec.lin128 (V c main_arg0) (V c main_arg4) (V c main_arg5) :=
  dat.arrAt_eq_of_cover 3 _ (fun t _ => flushed0_3 V c dat h t) cover0_3

/-- What point t writes back to the bf16 copy of the result is block t of the reference's layer of the arrays. A change of format changes no entry, so the bf16 payload holds the f32 payload's values. -/
theorem flushed0_4 (c : Dev nD) (dat : Dat τ (Elt Ideal) Unit ℕ (UR sig nD τ) ℕ cfg0 c)
    (h : ∀ t, dat.after 4 t = k0_pay2 (iblk0 V c 0 t) (iblk0 V c 1 t) (iblk0 V c 2 t)) (t : Fin cfg0.N) :
    dat.flushed 4 t = ((cfg0.win 4).blk t).view.read (Elt Ideal)
      (Cert.Spec.lin128 (V c main_arg0) (V c main_arg4) (V c main_arg5)) := by
  show (cfg0.win 4).cut (grid0.coords t) (dat.after 4 t) = _
  rw [h]
  obtain ⟨e00, e01, e10, e11, e20, e30, e31, e40, e41⟩ := idx0 t
  funext y
  show k0_pay1 (iblk0 V c 0 t) (iblk0 V c 1 t) (iblk0 V c 2 t) y
    = Cert.Spec.lin128 (V c main_arg0) (V c main_arg4) (V c main_arg5) (((cfg0.win 4).blk t).view.emb y)
  refine pay0_eq_lin (iblk0 V c 0 t) (iblk0 V c 1 t) (iblk0 V c 2 t) _ _ _ y _ ?_ ?_ ?_ ?_
  · show win0_4.index t (1 : Fin 2) * 128 + 1 * (y 1).val = (y 1).val
    omega
  · intro l
    show V c main_arg0 (((cfg0.win 0).blk t).view.emb (ix2 (y 0) l)) = V c main_arg0 _
    refine congrArg _ (funext fun a => Fin.ext ?_)
    match a with
    | ⟨0, _⟩ => show win0_0.index t (0 : Fin 2) * 5000 + 1 * (y 0).val = win0_4.index t (0 : Fin 2) * 5000 + 1 * (y 0).val; omega
    | ⟨1, _⟩ => show win0_0.index t (1 : Fin 2) * 128 + 1 * l.val = l.val; omega
  · intro l
    show V c main_arg4 (((cfg0.win 1).blk t).view.emb (ix2 l (y 1))) = V c main_arg4 _
    refine congrArg _ (funext fun a => Fin.ext ?_)
    match a with
    | ⟨0, _⟩ => show win0_1.index t (0 : Fin 2) * 128 + 1 * l.val = l.val; omega
    | ⟨1, _⟩ => show win0_1.index t (1 : Fin 2) * 128 + 1 * (y 1).val = (y 1).val; omega
  · show V c main_arg5 (((cfg0.win 2).blk t).view.emb (ix1 (y 1))) = V c main_arg5 _
    refine congrArg _ (funext fun a => Fin.ext ?_)
    match a with
    | ⟨0, _⟩ => show win0_2.index t (0 : Fin 1) * 128 + 1 * (y 1).val = (y 1).val; omega

/-- An index of the bf16 copy of the result is in point t's block iff each coordinate is in the block's range on its axis. -/
theorem mem_blk0_4 (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v4_1).slice (win0_4.rect t)).set ↔ _
  rw [View.set_slice_whole, Rect.mem_set_unit]
  exact Iff.rfl

/-- Row r of the bf16 copy of the result lies in the block of point r / 5000, and every point writes back. -/
theorem cover0_4 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : (i 0).val / 5000 < grid0.N := by rw [N_0]; omega
  obtain ⟨e00, e01, e10, e11, e20, e30, e31, e40, e41⟩ := idx0 ⟨(i 0).val / 5000, hN⟩
  refine ⟨⟨(i 0).val / 5000, hN⟩, flush0_4 _, ?_⟩
  rw [mem_blk0_4]
  intro a
  match a with
  | ⟨0, _⟩ =>
    show win0_4.index ⟨(i 0).val / 5000, hN⟩ (0 : Fin 2) * 5000 ≤ (i 0).val
      ∧ (i 0).val < win0_4.index ⟨(i 0).val / 5000, hN⟩ (0 : Fin 2) * 5000 + 5000
    rw [e40]; show (i 0).val / 5000 * 5000 ≤ (i 0).val ∧ (i 0).val < (i 0).val / 5000 * 5000 + 5000; omega
  | ⟨1, _⟩ =>
    show win0_4.index ⟨(i 0).val / 5000, hN⟩ (1 : Fin 2) * 128 ≤ (i 1).val
      ∧ (i 1).val < win0_4.index ⟨(i 0).val / 5000, hN⟩ (1 : Fin 2) * 128 + 128
    rw [e41]; omega

/-- The first layer's bf16 copy of the result array after its pipeline is the reference's first linear layer of the arrays the
    region finds. -/
theorem lin0_bf16 (c : Dev nD) (dat : Dat τ (Elt Ideal) Unit ℕ (UR sig nD τ) ℕ cfg0 c) (hA : ∀ w, dat.A w = V c (Pipeline.arrRef spec0 w))
    (h : ∀ t, dat.after 4 t = k0_pay2 (iblk0 V c 0 t) (iblk0 V c 1 t) (iblk0 V c 2 t)) :
    dat.arrAt 4 cfg0.N = Cert.Spec.lin128 (V c main_arg0) (V c main_arg4) (V c main_arg5) :=
  dat.arrAt_eq_of_cover 4 _ (fun t _ => flushed0_4 V c dat h t) cover0_4

/-! ## The second layer's pipeline: blocks, cover, array -/

/-- The block index maps over the ten points: the row tiles move with the point, the weights and bias stay. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 1) = 0
    ∧ win1_4.index t (0 : Fin 2) = t.val
    ∧ win1_4.index t (1 : Fin 2) = 0
    ∧ win1_5.index t (0 : Fin 2) = t.val
    ∧ win1_5.index t (1 : Fin 2) = 0 :=
  (by decide +kernel : ∀ t : Fin grid1.N, _)

/-- What point t writes back to the f32 result is block t of the reference's layer of the arrays. -/
theorem flushed1_4 (c : Dev nD) (dat : Dat τ (Elt Ideal) Unit ℕ (UR sig nD τ) ℕ cfg1 c)
    (h : ∀ t, dat.after 4 t = k1_pay1 (iblk1 V c 0 t) (iblk1 V c 1 t) (iblk1 V c 2 t) (iblk1 V c 3 t)) (t : Fin cfg1.N) :
    dat.flushed 4 t = ((cfg1.win 4).blk t).view.read (Elt Ideal)
      (Cert.Spec.lin128 (addf (F := Ideal) (s := S50000x128) (φ := .f32) (V c main_v18) (V c main_v4_0)) (V c main_arg6) (V c main_arg7)) := by
  show (cfg1.win 4).cut (grid1.coords t) (dat.after 4 t) = _
  rw [h]
  obtain ⟨e00, e01, e10, e11, e20, e21, e30, e40, e41, e50, e51⟩ := idx1 t
  funext y
  show k1_pay1 (iblk1 V c 0 t) (iblk1 V c 1 t) (iblk1 V c 2 t) (iblk1 V c 3 t) y
    = Cert.Spec.lin128 (addf (F := Ideal) (s := S50000x128) (φ := .f32) (V c main_v18) (V c main_v4_0)) (V c main_arg6) (V c main_arg7) (((cfg1.win 4).blk t).view.emb y)
  refine pay1_eq_lin (iblk1 V c 0 t) (iblk1 V c 1 t) (iblk1 V c 2 t) (iblk1 V c 3 t) _ _ _ _ y _ ?_ ?_ ?_ ?_ ?_
  · show win1_4.index t (1 : Fin 2) * 128 + 1 * (y 1).val = (y 1).val
    omega
  · intro l
    show V c main_v18 (((cfg1.win 0).blk t).view.emb (ix2 (y 0) l)) = V c main_v18 _
    refine congrArg _ (funext fun a => Fin.ext ?_)
    match a with
    | ⟨0, _⟩ => show win1_0.index t (0 : Fin 2) * 5000 + 1 * (y 0).val = win1_4.index t (0 : Fin 2) * 5000 + 1 * (y 0).val; omega
    | ⟨1, _⟩ => show win1_0.index t (1 : Fin 2) * 128 + 1 * l.val = l.val; omega
  · intro l
    show V c main_v4_0 (((cfg1.win 1).blk t).view.emb (ix2 (y 0) l)) = V c main_v4_0 _
    refine congrArg _ (funext fun a => Fin.ext ?_)
    match a with
    | ⟨0, _⟩ => show win1_1.index t (0 : Fin 2) * 5000 + 1 * (y 0).val = win1_4.index t (0 : Fin 2) * 5000 + 1 * (y 0).val; omega
    | ⟨1, _⟩ => show win1_1.index t (1 : Fin 2) * 128 + 1 * l.val = l.val; omega
  · intro l
    show V c main_arg6 (((cfg1.win 2).blk t).view.emb (ix2 l (y 1))) = V c main_arg6 _
    refine congrArg _ (funext fun a => Fin.ext ?_)
    match a with
    | ⟨0, _⟩ => show win1_2.index t (0 : Fin 2) * 128 + 1 * l.val = l.val; omega
    | ⟨1, _⟩ => show win1_2.index t (1 : Fin 2) * 128 + 1 * (y 1).val = (y 1).val; omega
  · show V c main_arg7 (((cfg1.win 3).blk t).view.emb (ix1 (y 1))) = V c main_arg7 _
    refine congrArg _ (funext fun a => Fin.ext ?_)
    match a with
    | ⟨0, _⟩ => show win1_3.index t (0 : Fin 1) * 128 + 1 * (y 1).val = (y 1).val; omega

/-- An index of the f32 result is in point t's block iff each coordinate is in the block's range on its axis. -/
theorem mem_blk1_4 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v19_0).slice (win1_4.rect t)).set ↔ _
  rw [View.set_slice_whole, Rect.mem_set_unit]
  exact Iff.rfl

/-- Row r of the f32 result lies in the block of point r / 5000, and every point writes back. -/
theorem cover1_4 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : (i 0).val / 5000 < grid1.N := by rw [N_1]; omega
  obtain ⟨e00, e01, e10, e11, e20, e21, e30, e40, e41, e50, e51⟩ := idx1 ⟨(i 0).val / 5000, hN⟩
  refine ⟨⟨(i 0).val / 5000, hN⟩, flush1_4 _, ?_⟩
  rw [mem_blk1_4]
  intro a
  match a with
  | ⟨0, _⟩ =>
    show win1_4.index ⟨(i 0).val / 5000, hN⟩ (0 : Fin 2) * 5000 ≤ (i 0).val
      ∧ (i 0).val < win1_4.index ⟨(i 0).val / 5000, hN⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, hN⟩ (1 : Fin 2) * 128 ≤ (i 1).val
      ∧ (i 1).val < win1_4.index ⟨(i 0).val / 5000, hN⟩ (1 : Fin 2) * 128 + 128
    rw [e41]; omega

/-- The second layer's f32 result array after its pipeline is the reference's second linear layer of the arrays the
    region finds. -/
theorem lin1_f32 (c : Dev nD) (dat : Dat τ (Elt Ideal) Unit ℕ (UR sig nD τ) ℕ cfg1 c) (hA : ∀ w, dat.A w = V c (Pipeline.arrRef spec1 w))
    (h : ∀ t, dat.after 4 t = k1_pay1 (iblk1 V c 0 t) (iblk1 V c 1 t) (iblk1 V c 2 t) (iblk1 V c 3 t)) :
    dat.arrAt 4 cfg1.N = Cert.Spec.lin128 (addf (F := Ideal) (s := S50000x128) (φ := .f32) (V c main_v18) (V c main_v4_0)) (V c main_arg6) (V c main_arg7) :=
  dat.arrAt_eq_of_cover 4 _ (fun t _ => flushed1_4 V c dat h t) cover1_4

/-- What point t writes back to the bf16 copy of the result is block t of the reference's layer of the arrays. A change of format changes no entry, so the bf16 payload holds the f32 payload's values. -/
theorem flushed1_5 (c : Dev nD) (dat : Dat τ (Elt Ideal) Unit ℕ (UR sig nD τ) ℕ cfg1 c)
    (h : ∀ t, dat.after 5 t = k1_pay2 (iblk1 V c 0 t) (iblk1 V c 1 t) (iblk1 V c 2 t) (iblk1 V c 3 t)) (t : Fin cfg1.N) :
    dat.flushed 5 t = ((cfg1.win 5).blk t).view.read (Elt Ideal)
      (Cert.Spec.lin128 (addf (F := Ideal) (s := S50000x128) (φ := .f32) (V c main_v18) (V c main_v4_0)) (V c main_arg6) (V c main_arg7)) := by
  show (cfg1.win 5).cut (grid1.coords t) (dat.after 5 t) = _
  rw [h]
  obtain ⟨e00, e01, e10, e11, e20, e21, e30, e40, e41, e50, e51⟩ := idx1 t
  funext y
  show k1_pay1 (iblk1 V c 0 t) (iblk1 V c 1 t) (iblk1 V c 2 t) (iblk1 V c 3 t) y
    = Cert.Spec.lin128 (addf (F := Ideal) (s := S50000x128) (φ := .f32) (V c main_v18) (V c main_v4_0)) (V c main_arg6) (V c main_arg7) (((cfg1.win 5).blk t).view.emb y)
  refine pay1_eq_lin (iblk1 V c 0 t) (iblk1 V c 1 t) (iblk1 V c 2 t) (iblk1 V c 3 t) _ _ _ _ y _ ?_ ?_ ?_ ?_ ?_
  · show win1_5.index t (1 : Fin 2) * 128 + 1 * (y 1).val = (y 1).val
    omega
  · intro l
    show V c main_v18 (((cfg1.win 0).blk t).view.emb (ix2 (y 0) l)) = V c main_v18 _
    refine congrArg _ (funext fun a => Fin.ext ?_)
    match a with
    | ⟨0, _⟩ => show win1_0.index t (0 : Fin 2) * 5000 + 1 * (y 0).val = win1_5.index t (0 : Fin 2) * 5000 + 1 * (y 0).val; omega
    | ⟨1, _⟩ => show win1_0.index t (1 : Fin 2) * 128 + 1 * l.val = l.val; omega
  · intro l
    show V c main_v4_0 (((cfg1.win 1).blk t).view.emb (ix2 (y 0) l)) = V c main_v4_0 _
    refine congrArg _ (funext fun a => Fin.ext ?_)
    match a with
    | ⟨0, _⟩ => show win1_1.index t (0 : Fin 2) * 5000 + 1 * (y 0).val = win1_5.index t (0 : Fin 2) * 5000 + 1 * (y 0).val; omega
    | ⟨1, _⟩ => show win1_1.index t (1 : Fin 2) * 128 + 1 * l.val = l.val; omega
  · intro l
    show V c main_arg6 (((cfg1.win 2).blk t).view.emb (ix2 l (y 1))) = V c main_arg6 _
    refine congrArg _ (funext fun a => Fin.ext ?_)
    match a with
    | ⟨0, _⟩ => show win1_2.index t (0 : Fin 2) * 128 + 1 * l.val = l.val; omega
    | ⟨1, _⟩ => show win1_2.index t (1 : Fin 2) * 128 + 1 * (y 1).val = (y 1).val; omega
  · show V c main_arg7 (((cfg1.win 3).blk t).view.emb (ix1 (y 1))) = V c main_arg7 _
    refine congrArg _ (funext fun a => Fin.ext ?_)
    match a with
    | ⟨0, _⟩ => show win1_3.index t (0 : Fin 1) * 128 + 1 * (y 1).val = (y 1).val; omega

/-- An index of the bf16 copy of the result is in point t's block iff each coordinate is in the block's range on its axis. -/
theorem mem_blk1_5 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v19_1).slice (win1_5.rect t)).set ↔ _
  rw [View.set_slice_whole, Rect.mem_set_unit]
  exact Iff.rfl

/-- Row r of the bf16 copy of the result lies in the block of point r / 5000, and every point writes back. -/
theorem cover1_5 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : (i 0).val / 5000 < grid1.N := by rw [N_1]; omega
  obtain ⟨e00, e01, e10, e11, e20, e21, e30, e40, e41, e50, e51⟩ := idx1 ⟨(i 0).val / 5000, hN⟩
  refine ⟨⟨(i 0).val / 5000, hN⟩, flush1_5 _, ?_⟩
  rw [mem_blk1_5]
  intro a
  match a with
  | ⟨0, _⟩ =>
    show win1_5.index ⟨(i 0).val / 5000, hN⟩ (0 : Fin 2) * 5000 ≤ (i 0).val
      ∧ (i 0).val < win1_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, hN⟩ (1 : Fin 2) * 128 ≤ (i 1).val
      ∧ (i 1).val < win1_5.index ⟨(i 0).val / 5000, hN⟩ (1 : Fin 2) * 128 + 128
    rw [e51]; omega

/-- The second layer's bf16 copy of the result array after its pipeline is the reference's second linear layer of the arrays the
    region finds. -/
theorem lin1_bf16 (c : Dev nD) (dat : Dat τ (Elt Ideal) Unit ℕ (UR sig nD τ) ℕ cfg1 c) (hA : ∀ w, dat.A w = V c (Pipeline.arrRef spec1 w))
    (h : ∀ t, dat.after 5 t = k1_pay2 (iblk1 V c 0 t) (iblk1 V c 1 t) (iblk1 V c 2 t) (iblk1 V c 3 t)) :
    dat.arrAt 5 cfg1.N = Cert.Spec.lin128 (addf (F := Ideal) (s := S50000x128) (φ := .f32) (V c main_v18) (V c main_v4_0)) (V c main_arg6) (V c main_arg7) :=
  dat.arrAt_eq_of_cover 5 _ (fun t _ => flushed1_5 V c dat h t) cover1_5

/-! ## The third layer's pipeline: blocks, cover, array -/

/-- The block index maps over the ten points: the row tiles move with the point, the weights and bias stay. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 1) = 0
    ∧ win2_4.index t (0 : Fin 2) = t.val
    ∧ win2_4.index t (1 : Fin 2) = 0
    ∧ win2_5.index t (0 : Fin 2) = t.val
    ∧ win2_5.index t (1 : Fin 2) = 0 :=
  (by decide +kernel : ∀ t : Fin grid2.N, _)

/-- What point t writes back to the f32 result is block t of the reference's layer of the arrays. -/
theorem flushed2_4 (c : Dev nD) (dat : Dat τ (Elt Ideal) Unit ℕ (UR sig nD τ) ℕ cfg2 c)
    (h : ∀ t, dat.after 4 t = k2_pay1 (iblk2 V c 0 t) (iblk2 V c 1 t) (iblk2 V c 2 t) (iblk2 V c 3 t)) (t : Fin cfg2.N) :
    dat.flushed 4 t = ((cfg2.win 4).blk t).view.read (Elt Ideal)
      (Cert.Spec.lin64 (addf (F := Ideal) (s := S50000x128) (φ := .f32) (V c main_v33) (V c main_v19_0)) (V c main_arg8) (V c main_arg9)) := by
  show (cfg2.win 4).cut (grid2.coords t) (dat.after 4 t) = _
  rw [h]
  obtain ⟨e00, e01, e10, e11, e20, e21, e30, e40, e41, e50, e51⟩ := idx2 t
  funext y
  show k2_pay1 (iblk2 V c 0 t) (iblk2 V c 1 t) (iblk2 V c 2 t) (iblk2 V c 3 t) y
    = Cert.Spec.lin64 (addf (F := Ideal) (s := S50000x128) (φ := .f32) (V c main_v33) (V c main_v19_0)) (V c main_arg8) (V c main_arg9) (((cfg2.win 4).blk t).view.emb y)
  refine pay2_eq_lin (iblk2 V c 0 t) (iblk2 V c 1 t) (iblk2 V c 2 t) (iblk2 V c 3 t) _ _ _ _ y _ ?_ ?_ ?_ ?_ ?_
  · show win2_4.index t (1 : Fin 2) * 64 + 1 * (y 1).val = (y 1).val
    omega
  · intro l
    show V c main_v33 (((cfg2.win 0).blk t).view.emb (ix2 (y 0) l)) = V c main_v33 _
    refine congrArg _ (funext fun a => Fin.ext ?_)
    match a with
    | ⟨0, _⟩ => show win2_0.index t (0 : Fin 2) * 5000 + 1 * (y 0).val = win2_4.index t (0 : Fin 2) * 5000 + 1 * (y 0).val; omega
    | ⟨1, _⟩ => show win2_0.index t (1 : Fin 2) * 128 + 1 * l.val = l.val; omega
  · intro l
    show V c main_v19_0 (((cfg2.win 1).blk t).view.emb (ix2 (y 0) l)) = V c main_v19_0 _
    refine congrArg _ (funext fun a => Fin.ext ?_)
    match a with
    | ⟨0, _⟩ => show win2_1.index t (0 : Fin 2) * 5000 + 1 * (y 0).val = win2_4.index t (0 : Fin 2) * 5000 + 1 * (y 0).val; omega
    | ⟨1, _⟩ => show win2_1.index t (1 : Fin 2) * 128 + 1 * l.val = l.val; omega
  · intro l
    show V c main_arg8 (((cfg2.win 2).blk t).view.emb (ix2 l (y 1))) = V c main_arg8 _
    refine congrArg _ (funext fun a => Fin.ext ?_)
    match a with
    | ⟨0, _⟩ => show win2_2.index t (0 : Fin 2) * 128 + 1 * l.val = l.val; omega
    | ⟨1, _⟩ => show win2_2.index t (1 : Fin 2) * 64 + 1 * (y 1).val = (y 1).val; omega
  · show V c main_arg9 (((cfg2.win 3).blk t).view.emb (ix1 (y 1))) = V c main_arg9 _
    refine congrArg _ (funext fun a => Fin.ext ?_)
    match a with
    | ⟨0, _⟩ => show win2_3.index t (0 : Fin 1) * 64 + 1 * (y 1).val = (y 1).val; omega

/-- An index of the f32 result is in point t's block iff each coordinate is in the block's range on its axis. -/
theorem mem_blk2_4 (t : Fin cfg2.N) (i : S50000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v34_0).slice (win2_4.rect t)).set ↔ _
  rw [View.set_slice_whole, Rect.mem_set_unit]
  exact Iff.rfl

/-- Row r of the f32 result lies in the block of point r / 5000, and every point writes back. -/
theorem cover2_4 (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  have hN : (i 0).val / 5000 < grid2.N := by rw [N_2]; omega
  obtain ⟨e00, e01, e10, e11, e20, e21, e30, e40, e41, e50, e51⟩ := idx2 ⟨(i 0).val / 5000, hN⟩
  refine ⟨⟨(i 0).val / 5000, hN⟩, flush2_4 _, ?_⟩
  rw [mem_blk2_4]
  intro a
  match a with
  | ⟨0, _⟩ =>
    show win2_4.index ⟨(i 0).val / 5000, hN⟩ (0 : Fin 2) * 5000 ≤ (i 0).val
      ∧ (i 0).val < win2_4.index ⟨(i 0).val / 5000, hN⟩ (0 : Fin 2) * 5000 + 5000
    rw [e40]; show (i 0).val / 5000 * 5000 ≤ (i 0).val ∧ (i 0).val < (i 0).val / 5000 * 5000 + 5000; omega
  | ⟨1, _⟩ =>
    show win2_4.index ⟨(i 0).val / 5000, hN⟩ (1 : Fin 2) * 64 ≤ (i 1).val
      ∧ (i 1).val < win2_4.index ⟨(i 0).val / 5000, hN⟩ (1 : Fin 2) * 64 + 64
    rw [e41]; omega

/-- The third layer's f32 result array after its pipeline is the reference's third linear layer of the arrays the
    region finds. -/
theorem lin2_f32 (c : Dev nD) (dat : Dat τ (Elt Ideal) Unit ℕ (UR sig nD τ) ℕ cfg2 c) (hA : ∀ w, dat.A w = V c (Pipeline.arrRef spec2 w))
    (h : ∀ t, dat.after 4 t = k2_pay1 (iblk2 V c 0 t) (iblk2 V c 1 t) (iblk2 V c 2 t) (iblk2 V c 3 t)) :
    dat.arrAt 4 cfg2.N = Cert.Spec.lin64 (addf (F := Ideal) (s := S50000x128) (φ := .f32) (V c main_v33) (V c main_v19_0)) (V c main_arg8) (V c main_arg9) :=
  dat.arrAt_eq_of_cover 4 _ (fun t _ => flushed2_4 V c dat h t) cover2_4

/-- What point t writes back to the bf16 copy of the result is block t of the reference's layer of the arrays. A change of format changes no entry, so the bf16 payload holds the f32 payload's values. -/
theorem flushed2_5 (c : Dev nD) (dat : Dat τ (Elt Ideal) Unit ℕ (UR sig nD τ) ℕ cfg2 c)
    (h : ∀ t, dat.after 5 t = k2_pay2 (iblk2 V c 0 t) (iblk2 V c 1 t) (iblk2 V c 2 t) (iblk2 V c 3 t)) (t : Fin cfg2.N) :
    dat.flushed 5 t = ((cfg2.win 5).blk t).view.read (Elt Ideal)
      (Cert.Spec.lin64 (addf (F := Ideal) (s := S50000x128) (φ := .f32) (V c main_v33) (V c main_v19_0)) (V c main_arg8) (V c main_arg9)) := by
  show (cfg2.win 5).cut (grid2.coords t) (dat.after 5 t) = _
  rw [h]
  obtain ⟨e00, e01, e10, e11, e20, e21, e30, e40, e41, e50, e51⟩ := idx2 t
  funext y
  show k2_pay1 (iblk2 V c 0 t) (iblk2 V c 1 t) (iblk2 V c 2 t) (iblk2 V c 3 t) y
    = Cert.Spec.lin64 (addf (F := Ideal) (s := S50000x128) (φ := .f32) (V c main_v33) (V c main_v19_0)) (V c main_arg8) (V c main_arg9) (((cfg2.win 5).blk t).view.emb y)
  refine pay2_eq_lin (iblk2 V c 0 t) (iblk2 V c 1 t) (iblk2 V c 2 t) (iblk2 V c 3 t) _ _ _ _ y _ ?_ ?_ ?_ ?_ ?_
  · show win2_5.index t (1 : Fin 2) * 64 + 1 * (y 1).val = (y 1).val
    omega
  · intro l
    show V c main_v33 (((cfg2.win 0).blk t).view.emb (ix2 (y 0) l)) = V c main_v33 _
    refine congrArg _ (funext fun a => Fin.ext ?_)
    match a with
    | ⟨0, _⟩ => show win2_0.index t (0 : Fin 2) * 5000 + 1 * (y 0).val = win2_5.index t (0 : Fin 2) * 5000 + 1 * (y 0).val; omega
    | ⟨1, _⟩ => show win2_0.index t (1 : Fin 2) * 128 + 1 * l.val = l.val; omega
  · intro l
    show V c main_v19_0 (((cfg2.win 1).blk t).view.emb (ix2 (y 0) l)) = V c main_v19_0 _
    refine congrArg _ (funext fun a => Fin.ext ?_)
    match a with
    | ⟨0, _⟩ => show win2_1.index t (0 : Fin 2) * 5000 + 1 * (y 0).val = win2_5.index t (0 : Fin 2) * 5000 + 1 * (y 0).val; omega
    | ⟨1, _⟩ => show win2_1.index t (1 : Fin 2) * 128 + 1 * l.val = l.val; omega
  · intro l
    show V c main_arg8 (((cfg2.win 2).blk t).view.emb (ix2 l (y 1))) = V c main_arg8 _
    refine congrArg _ (funext fun a => Fin.ext ?_)
    match a with
    | ⟨0, _⟩ => show win2_2.index t (0 : Fin 2) * 128 + 1 * l.val = l.val; omega
    | ⟨1, _⟩ => show win2_2.index t (1 : Fin 2) * 64 + 1 * (y 1).val = (y 1).val; omega
  · show V c main_arg9 (((cfg2.win 3).blk t).view.emb (ix1 (y 1))) = V c main_arg9 _
    refine congrArg _ (funext fun a => Fin.ext ?_)
    match a with
    | ⟨0, _⟩ => show win2_3.index t (0 : Fin 1) * 64 + 1 * (y 1).val = (y 1).val; omega

/-- An index of the bf16 copy of the result is in point t's block iff each coordinate is in the block's range on its axis. -/
theorem mem_blk2_5 (t : Fin cfg2.N) (i : S50000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v34_1).slice (win2_5.rect t)).set ↔ _
  rw [View.set_slice_whole, Rect.mem_set_unit]
  exact Iff.rfl

/-- Row r of the bf16 copy of the result lies in the block of point r / 5000, and every point writes back. -/
theorem cover2_5 (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : (i 0).val / 5000 < grid2.N := by rw [N_2]; omega
  obtain ⟨e00, e01, e10, e11, e20, e21, e30, e40, e41, e50, e51⟩ := idx2 ⟨(i 0).val / 5000, hN⟩
  refine ⟨⟨(i 0).val / 5000, hN⟩, flush2_5 _, ?_⟩
  rw [mem_blk2_5]
  intro a
  match a with
  | ⟨0, _⟩ =>
    show win2_5.index ⟨(i 0).val / 5000, hN⟩ (0 : Fin 2) * 5000 ≤ (i 0).val
      ∧ (i 0).val < win2_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, hN⟩ (1 : Fin 2) * 64 ≤ (i 1).val
      ∧ (i 1).val < win2_5.index ⟨(i 0).val / 5000, hN⟩ (1 : Fin 2) * 64 + 64
    rw [e51]; omega

/-- The third layer's bf16 copy of the result array after its pipeline is the reference's third linear layer of the arrays the
    region finds. -/
theorem lin2_bf16 (c : Dev nD) (dat : Dat τ (Elt Ideal) Unit ℕ (UR sig nD τ) ℕ cfg2 c) (hA : ∀ w, dat.A w = V c (Pipeline.arrRef spec2 w))
    (h : ∀ t, dat.after 5 t = k2_pay2 (iblk2 V c 0 t) (iblk2 V c 1 t) (iblk2 V c 2 t) (iblk2 V c 3 t)) :
    dat.arrAt 5 cfg2.N = Cert.Spec.lin64 (addf (F := Ideal) (s := S50000x128) (φ := .f32) (V c main_v33) (V c main_v19_0)) (V c main_arg8) (V c main_arg9) :=
  dat.arrAt_eq_of_cover 5 _ (fun t _ => flushed2_5 V c dat h t) cover2_5

end Cert.KernelIdeal.Val

end
-- ==== Proof.Val.PoolTiles.lean ====
import proofs.«412827_j90649579749762_2_alg».proof.Proof.Gen.KernelIdeal.Skeleton
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

/-!
The pooling kernel's payloads read at one index, over the extended reals.

With `oh w g` the one-hot weight of an id word `w` against graph `g` (one if the word is `g`'s 32-bit word, zero
otherwise), a tile of 5000 rows with features `x0 + x1` and id column `b` adds to the sums accumulator, at
`(g, d)`, the sum over the tile's rows `r` of `oh (b r) g * (x0 (r, d) + x1 (r, d))`, and to the counts
accumulator, at `(g, 0)`, the sum over the rows of `oh (b r) g`; both accumulators start at zero; the result at
`(g, d)` is the sum over the count clamped below at one.
-/

set_option maxRecDepth 16384

noncomputable section

namespace Cert.KernelIdeal.Val

open Idealize.ShloMosaic Idealize.ShloMosaic.ValueIdx
open Cert.KernelIdeal Cert.KernelIdeal.Gen
open scoped BigOperators

/-- The one-hot weight of an id word against graph `g`: one if the word is `g`'s 32-bit word, zero otherwise. -/
def oh (w : BitVec 32) (g : Fin 16) : EReal := if w = BitVec.ofNat 32 g.val then 1 else 0

/-! ## Layout operations read at an index given by coordinates -/

/-- A column broadcast along its unit axis: entry `(p, c)` of the result is entry `p` of the column. -/
theorem bcast_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the first axis of an `[a, b]` array of extended reals, read at `p`: the sum over `n` of entry `(n, p)`. -/
theorem colSum_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (p : Fin b) :
    multiReduction .add [0] ⟨1, ![b]⟩ src 0x00000000#32 h hφ hacc (ix1 p) = ∑ n : Fin a, src (ix2 n p) := by
  refine (Ideal.multiReduction_add_single src 0x00000000#32 h hφ hacc (ix1 p)).trans ?_
  refine Finset.sum_congr rfl fun n _ => congrArg src (funext fun c => Fin.ext ?_)
  show h.liftVal (ix1 p) n.val c = _
  match c with
  | ⟨0, _⟩ => simp [Shape.Reduces.liftVal]
  | ⟨1, _⟩ => simp [Shape.Reduces.liftVal]

/-! ## The one-hot word -/

/-- A word compared for equality with `g`'s word, widened and converted: the one-hot weight. -/
theorem oh_word (x : BitVec 32) (g : Fin 16) :
    (FloatOps.sitofp (F := Ideal) .f32 ((IntOp.cmpi .eq x (BitVec.ofNat 32 g.val)).setWidth 32) : EReal) = oh x g := by
  unfold oh
  show ((((IntOp.cmpi .eq x (BitVec.ofNat 32 g.val)).setWidth 32).toInt : ℝ) : EReal) = _
  by_cases h : x = BitVec.ofNat 32 g.val
  · rw [if_pos h, show IntOp.cmpi .eq x (BitVec.ofNat 32 g.val) = 1#1 by simp [IntOp.cmpi, h]]
    rw [show ((1#1 : BitVec 1).setWidth 32).toInt = 1 by decide]
    norm_num
  · have hb : (x == BitVec.ofNat 32 g.val) = false := beq_eq_false_iff_ne.mpr h
    rw [if_neg h, show IntOp.cmpi .eq x (BitVec.ofNat 32 g.val) = 0#1 by simp only [IntOp.cmpi, hb]; rfl]
    rw [show ((0#1 : BitVec 1).setWidth 32).toInt = 0 by decide]
    norm_num

/-! ## The payloads -/

/-- The one-hot block at `(r, g)`: the weight of row `r`'s id word against `g`. -/
theorem pay3_apply (b : Vec Ideal S5000x1 .i32) (r : Fin 5000) (g : Fin 16) :
    k3_pay3 (F := Ideal) b (ix2 r g) = oh (b (ix2 r (0 : Fin 1))) g := by
  unfold k3_pay3
  show FloatOps.sitofp (F := Ideal) .f32 ((IntOp.cmpi .eq
      (broadcastTo S5000x16 (shapeCast S5000x1 b shapeCasts_S5000x1_S5000x1) broadcasts_S5000x1_S5000x16 (ix2 r g))
      (iota .tc S5000x16 32 [1] iota_S5000x16_d1_w32 (ix2 r g))).setWidth 32) = _
  rw [shapeCast_self, bcast_col_apply, iota_single_apply]
  exact oh_word _ g

/-- The sums accumulator starts at zero. -/
theorem pay1_apply (g : Fin 16) (d : Fin 64) : (k3_pay1 (F := Ideal)) (ix2 g d) = 0 := by
  unfold k3_pay1
  rw [shapeCast_self]
  exact Ideal.ofBits_zero_f32

/-- The counts accumulator starts at zero. -/
theorem pay2_apply (g : Fin 16) (u : Fin 1) : (k3_pay2 (F := Ideal)) (ix2 g u) = 0 := by
  unfold k3_pay2
  rw [shapeCast_self]
  exact Ideal.ofBits_zero_f32

/-- The one-hot product's left operand index at a contraction coordinate: the contracted axis is the rows. -/
theorem lhs_pool_0 (i : S16x64.Idx) (q : dot_S5000x16_S5000x64_S16x64_0_0_1_1_n_n.contr.Idx) :
    (dot_S5000x16_S5000x64_S16x64_0_0_1_1_n_n.lhsIdx i q 0).val = (q ⟨0, by decide⟩).val :=
  dot_S5000x16_S5000x64_S16x64_0_0_1_1_n_n.lhsIdx_val_of_single rfl i q
theorem lhs_pool_1 (i : S16x64.Idx) (q : dot_S5000x16_S5000x64_S16x64_0_0_1_1_n_n.contr.Idx) :
    (dot_S5000x16_S5000x64_S16x64_0_0_1_1_n_n.lhsIdx i q 1).val = (i 0).val := by
  unfold DotDims.lhsIdx
  rw [dif_neg (show ¬(1 : Fin S5000x16.rank) ∈ dot_S5000x16_S5000x64_S16x64_0_0_1_1_n_n.lhsBatch by decide), dif_pos (show (1 : Fin S5000x16.rank) ∈ dot_S5000x16_S5000x64_S16x64_0_0_1_1_n_n.lhsNonContracting by decide)]
  rfl
theorem rhs_pool_0 (i : S16x64.Idx) (q : dot_S5000x16_S5000x64_S16x64_0_0_1_1_n_n.contr.Idx) :
    (dot_S5000x16_S5000x64_S16x64_0_0_1_1_n_n.rhsIdx i q 0).val = (q ⟨0, by decide⟩).val :=
  dot_S5000x16_S5000x64_S16x64_0_0_1_1_n_n.rhsIdx_val_of_single rfl i q
theorem rhs_pool_1 (i : S16x64.Idx) (q : dot_S5000x16_S5000x64_S16x64_0_0_1_1_n_n.contr.Idx) :
    (dot_S5000x16_S5000x64_S16x64_0_0_1_1_n_n.rhsIdx i q 1).val = (i 1).val := by
  unfold DotDims.rhsIdx
  rw [dif_neg (show ¬(1 : Fin S5000x64.rank) ∈ dot_S5000x16_S5000x64_S16x64_0_0_1_1_n_n.rhsBatch by decide), dif_pos (show (1 : Fin S5000x64.rank) ∈ dot_S5000x16_S5000x64_S16x64_0_0_1_1_n_n.rhsNonContracting by decide)]
  rfl

/-- The one-hot product into zeros at `(g, d)`: the sum over the tile's rows of the left operand at `(r, g)` times the
    right operand at `(r, d)`. -/
theorem pool_dot_apply (A : FVec Ideal S5000x16 .f32) (B : FVec Ideal S5000x64 .f32) (g : Fin 16) (d : Fin 64) :
    matmul dot_S5000x16_S5000x64_S16x64_0_0_1_1_n_n (some .fp32) A B (constant (F := Ideal) S16x64 .f32 0x00000000#32) (ix2 g d)
      = ∑ r : Fin 5000, A (ix2 r g) * B (ix2 r d) := by
  simp only [matmul]
  rw [Ideal.matmul_constant_zero_apply, ← Equiv.sum_comp (contrEquiv1 dot_S5000x16_S5000x64_S16x64_0_0_1_1_n_n 5000 rfl rfl).symm]
  refine Finset.sum_congr rfl fun k _ => ?_
  have hk := contrEquiv1_symm_val dot_S5000x16_S5000x64_S16x64_0_0_1_1_n_n 5000 rfl rfl k
  have el : dot_S5000x16_S5000x64_S16x64_0_0_1_1_n_n.lhsIdx (ix2 g d) ((contrEquiv1 dot_S5000x16_S5000x64_S16x64_0_0_1_1_n_n 5000 rfl rfl).symm k) = ix2 k g := funext fun a => Fin.ext (by
    match a with
    | ⟨0, _⟩ => exact (lhs_pool_0 _ _).trans hk
    | ⟨1, _⟩ => exact lhs_pool_1 _ _)
  have er : dot_S5000x16_S5000x64_S16x64_0_0_1_1_n_n.rhsIdx (ix2 g d) ((contrEquiv1 dot_S5000x16_S5000x64_S16x64_0_0_1_1_n_n 5000 rfl rfl).symm k) = ix2 k d := funext fun a => Fin.ext (by
    match a with
    | ⟨0, _⟩ => exact (rhs_pool_0 _ _).trans hk
    | ⟨1, _⟩ => exact rhs_pool_1 _ _)
  rw [el, er]

/-- One tile's step of the sums accumulator at `(g, d)`: the one-hot product contracts the tile's rows. -/
theorem pay4_apply (x0 x1 : Vec Ideal S5000x64 .f32) (b : Vec Ideal S5000x1 .i32) (s : Vec Ideal S16x64 .f32)
    (g : Fin 16) (d : Fin 64) :
    k3_pay4 x0 x1 b s (ix2 g d)
      = s (ix2 g d) + ∑ r : Fin 5000, oh (b (ix2 r (0 : Fin 1))) g * (x0 (ix2 r d) + x1 (ix2 r d)) := by
  unfold k3_pay4
  rw [shapeCast_self, shapeCast_self, shapeCast_self, addf_apply, pool_dot_apply]
  refine congrArg (s (ix2 g d) + ·) (Finset.sum_congr rfl fun r _ => ?_)
  rw [pay3_apply, addf_apply]

/-- One tile's step of the counts accumulator at `(g, 0)`: the column sums of the one-hot block. -/
theorem pay5_apply (b : Vec Ideal S5000x1 .i32) (n : Vec Ideal S16x1 .f32) (g : Fin 16) (u : Fin 1) :
    k3_pay5 b n (ix2 g u) = n (ix2 g u) + ∑ r : Fin 5000, oh (b (ix2 r (0 : Fin 1))) g := by
  unfold k3_pay5
  rw [shapeCast_self, addf_apply]
  refine congrArg (n (ix2 g u) + ·) ?_
  refine (transpose_ix2_apply _ transposes_S1x16_p1_0_S16x1 g u).trans ?_
  refine (shapeCast_a_1a_apply _ shapeCasts_S16_S1x16 u g).trans ?_
  refine (colSum_apply (k3_pay3 (F := Ideal) b) reduces_S5000x16_S16 (.inl rfl) rfl g).trans ?_
  exact Finset.sum_congr rfl fun r _ => pay3_apply b r g

/-- The result at `(g, d)`: the sum over the count clamped below at one. -/
theorem pay6_apply (s : Vec Ideal S16x64 .f32) (n : Vec Ideal S16x1 .f32) (g : Fin 16) (d : Fin 64) :
    k3_pay6 s n (ix2 g d)
      = Ideal.div (s (ix2 g d)) (max (n (ix2 g (0 : Fin 1))) (Ideal.ofBits .f32 0x3F800000#32)) := by
  unfold k3_pay6
  rw [divf_apply, bcast_col_apply, maximumf_apply]
  rfl

end Cert.KernelIdeal.Val

end
-- ==== Proof.LibSegmentSum.lean ====
/-
  A segment sum read at one of its entries, and a batched row gather read at one of its entries.

  A scatter with an additive body whose scatter indices are an [n × 1] column of words adds update `i` to the
  operand entry that word `i` names (read signed, not clamped; an entry the word does not name receives
  nothing). At the exact instance each operand entry therefore ends at its own value plus the sum of the updates
  whose word names it. Three layouts of the same operation are read here: a vector of `P` segments; `B` rows of
  `P` segments fed by `B` rows of updates; and `P` segments of `C` columns fed by `n` rows of `C` columns.

  A gather that reads, for each of `n` words, one column of a [B × N] table (all `B` rows of it) returns at
  (b, i) the table's entry in row `b` at the column word `i` names, read signed and clamped into `[0, N − 1]`.
-/
import Idealize.ShloMosaic.PureOps.Ideal
import Idealize.ShloMosaic.PureOps.Contract
import Idealize.ShloMosaic.Lib.ValueIdx

noncomputable section

namespace Idealize.ShloMosaic.SegmentSum

open Idealize.ShloMosaic.ValueIdx

/-- Row `i` of an [n × 1] column of words. -/
abbrev colIx {n : Nat} (i : Fin n) : (⟨2, ![n, 1]⟩ : Shape).Idx := ix2 i (0 : Fin 1)

/-! ## A vector of segments -/

/-- The dimension numbers of `segment_sum` over a vector: operand [P], words [n × 1], updates [n]. -/
abbrev dimsVec (P n : Nat) (wf : ScatterDims.WF ⟨1, ![P]⟩ ⟨2, ![n, 1]⟩ ⟨1, ![n]⟩ [] [0] [0] 1) :
    ScatterDims ⟨1, ![P]⟩ ⟨2, ![n, 1]⟩ ⟨1, ![n]⟩ where
  updateWindowDims := []
  insertedWindowDims := [0]
  scatterDimsToOperandDims := [0]
  indexVectorDim := 1
  wf := wf

section Vec
variable {P n w : Nat} (wf : ScatterDims.WF ⟨1, ![P]⟩ ⟨2, ![n, 1]⟩ ⟨1, ![n]⟩ [] [0] [0] 1)

/-- The operand's one axis starts at the word the update's coordinate names. -/
private theorem vec_start0 (j : (⟨1, ![n]⟩ : Shape).Idx) (idx : IVec ⟨2, ![n, 1]⟩ w) :
    (dimsVec P n wf).start j idx 0 = (idx (colIx (j 0))).toInt := by
  unfold ScatterDims.start
  rw [dif_pos (show (0 : Fin 1) ∈ (dimsVec P n wf).scatterDimsToOperandDims from List.mem_singleton.mpr rfl)]
  congr 2
  funext b; refine Fin.ext ?_
  match b with
  | ⟨0, _⟩ => rfl
  | ⟨1, _⟩ => rfl

/-- The operand's one axis is inserted: no window coordinate. -/
private theorem vec_window0 (j : (⟨1, ![n]⟩ : Shape).Idx) :
    (dimsVec P n wf).window j 0 = 0 := by
  unfold ScatterDims.window
  have h : (0 : Fin 1) ∉ (dimsVec P n wf).sKept :=
    show (0 : Fin 1) ∉ (List.finRange 1).filter (· ∉ ([0] : List (Fin 1))) by decide
  rw [dif_neg h]

/-- An update lands on segment `p` exactly when its word is `p`. -/
private theorem vec_resultIdx_iff (j : (⟨1, ![n]⟩ : Shape).Idx) (idx : IVec ⟨2, ![n, 1]⟩ w) (p : Fin P) :
    (dimsVec P n wf).resultIdx? j idx = some (ix1 p) ↔ (idx (colIx (j 0))).toInt = (p.val : Int) := by
  have hs0 : (⟨1, ![P]⟩ : Shape).size 0 = P := rfl
  unfold ScatterDims.resultIdx?
  split
  · rename_i h
    rw [Option.some.injEq]
    constructor
    · intro he
      have h0 := congrArg Fin.val (congrFun he 0)
      have g0 := h 0
      simp only [vec_start0, vec_window0] at h0 g0
      change _ = p.val at h0
      omega
    · intro h0
      funext a
      refine Fin.ext ?_
      match a with
      | ⟨0, _⟩ =>
        show ((dimsVec P n wf).start j idx 0 + ((dimsVec P n wf).window j 0 : Int)).toNat = p.val
        rw [vec_start0, vec_window0, h0]; omega
  · rename_i h
    constructor
    · intro he; exact absurd he (by simp)
    · intro h0
      exfalso; apply h
      intro a
      match a with
      | ⟨0, _⟩ =>
        show 0 ≤ (dimsVec P n wf).start j idx 0 + ((dimsVec P n wf).window j 0 : Int)
          ∧ (dimsVec P n wf).start j idx 0 + ((dimsVec P n wf).window j 0 : Int) < ((⟨1, ![P]⟩ : Shape).size 0 : Nat)
        have := p.isLt
        rw [vec_start0, vec_window0, h0, hs0]; omega
end Vec

/-- Segment `p` ends at its own value plus the sum of the updates whose word is `p`. -/
theorem scatterAdd_vec_apply {P n w : Nat} (wf : ScatterDims.WF ⟨1, ![P]⟩ ⟨2, ![n, 1]⟩ ⟨1, ![n]⟩ [] [0] [0] 1)
    (x : (⟨1, ![P]⟩ : Shape).Idx → EReal) (idx : IVec ⟨2, ![n, 1]⟩ w) (upd : (⟨1, ![n]⟩ : Shape).Idx → EReal) (p : Fin P) :
    Ideal.hostScatterAdd (dimsVec P n wf) x idx upd (ix1 p)
      = x (ix1 p) + ∑ i ∈ Finset.univ.filter (fun i : Fin n => (idx (colIx i)).toInt = (p.val : Int)), upd (ix1 i) := by
  unfold Ideal.hostScatterAdd
  congr 1
  refine Finset.sum_nbij' (fun j => (j 0 : Fin n)) (fun i => ix1 i) ?_ ?_ ?_ ?_ ?_
  · intro j hj
    have hj' := (Finset.mem_filter.mp hj).2
    exact Finset.mem_filter.mpr ⟨Finset.mem_univ _, (vec_resultIdx_iff wf j idx p).mp hj'⟩
  · intro i hi
    have hi' := (Finset.mem_filter.mp hi).2
    exact Finset.mem_filter.mpr ⟨Finset.mem_univ _, (vec_resultIdx_iff wf (ix1 i) idx p).mpr hi'⟩
  · intro j _
    exact (eq_ix1 j).symm
  · intro i _
    rfl
  · intro j _
    exact congrArg upd (eq_ix1 j)

/-! ## Rows of segments -/

/-- Operand [B × P], words [n × 1], updates [B × n]: update column `i` goes, whole, to operand column word `i` names. -/
abbrev dimsRows (B P n : Nat) (wf : ScatterDims.WF ⟨2, ![B, P]⟩ ⟨2, ![n, 1]⟩ ⟨2, ![B, n]⟩ [0] [1] [1] 1) :
    ScatterDims ⟨2, ![B, P]⟩ ⟨2, ![n, 1]⟩ ⟨2, ![B, n]⟩ where
  updateWindowDims := [0]
  insertedWindowDims := [1]
  scatterDimsToOperandDims := [1]
  indexVectorDim := 1
  wf := wf

section Rows
variable {B P n w : Nat} (wf : ScatterDims.WF ⟨2, ![B, P]⟩ ⟨2, ![n, 1]⟩ ⟨2, ![B, n]⟩ [0] [1] [1] 1)

/-- Axis 0 of the operand is not named by the map: its start is 0. -/
private theorem rows_start0 (j : (⟨2, ![B, n]⟩ : Shape).Idx) (idx : IVec ⟨2, ![n, 1]⟩ w) :
    (dimsRows B P n wf).start j idx 0 = 0 := by
  unfold ScatterDims.start
  rw [dif_neg (show (0 : Fin 2) ∉ ([1] : List (Fin 2)) by decide)]

/-- Axis 1 of the operand starts at the word the update's second coordinate names. -/
private theorem rows_start1 (j : (⟨2, ![B, n]⟩ : Shape).Idx) (idx : IVec ⟨2, ![n, 1]⟩ w) :
    (dimsRows B P n wf).start j idx 1 = (idx (colIx (j 1))).toInt := by
  unfold ScatterDims.start
  rw [dif_pos (show (1 : Fin 2) ∈ (dimsRows B P n wf).scatterDimsToOperandDims from List.mem_singleton.mpr rfl)]
  congr 2
  funext b; refine Fin.ext ?_
  match b with
  | ⟨0, _⟩ => rfl
  | ⟨1, _⟩ => rfl

/-- Axis 0 of the operand is the window axis: its window coordinate is the update's first coordinate. -/
private theorem rows_window0 (j : (⟨2, ![B, n]⟩ : Shape).Idx) :
    (dimsRows B P n wf).window j 0 = (j 0).val := by
  unfold ScatterDims.window
  have h : (0 : Fin 2) ∈ (dimsRows B P n wf).sKept :=
    show (0 : Fin 2) ∈ (List.finRange 2).filter (· ∉ ([1] : List (Fin 2))) by decide
  rw [dif_pos h]
  rfl

/-- Axis 1 of the operand is inserted: no window coordinate. -/
private theorem rows_window1 (j : (⟨2, ![B, n]⟩ : Shape).Idx) :
    (dimsRows B P n wf).window j 1 = 0 := by
  unfold ScatterDims.window
  have h : (1 : Fin 2) ∉ (dimsRows B P n wf).sKept :=
    show (1 : Fin 2) ∉ (List.finRange 2).filter (· ∉ ([1] : List (Fin 2))) by decide
  rw [dif_neg h]

/-- An update lands on entry (b, p) exactly when it sits in row `b` and its word is `p`. -/
private theorem rows_resultIdx_iff (j : (⟨2, ![B, n]⟩ : Shape).Idx) (idx : IVec ⟨2, ![n, 1]⟩ w) (b : Fin B) (p : Fin P) :
    (dimsRows B P n wf).resultIdx? j idx = some (ix2 b p)
      ↔ j 0 = b ∧ (idx (colIx (j 1))).toInt = (p.val : Int) := by
  have hb := (j 0).isLt
  have hB : (⟨2, ![B, n]⟩ : Shape).size 0 = B := rfl
  have hs0 : (⟨2, ![B, P]⟩ : Shape).size 0 = B := rfl
  have hs1 : (⟨2, ![B, P]⟩ : Shape).size 1 = P := rfl
  unfold ScatterDims.resultIdx?
  split
  · rename_i h
    rw [Option.some.injEq]
    constructor
    · intro he
      have h0 := congrArg Fin.val (congrFun he 0)
      have h1 := congrArg Fin.val (congrFun he 1)
      have g1 := h 1
      simp only [rows_start0, rows_start1, rows_window0, rows_window1] at h0 h1 g1
      change _ = b.val at h0
      change _ = p.val at h1
      refine ⟨Fin.ext ?_, ?_⟩ <;> omega
    · rintro ⟨h0, h1⟩
      funext a
      refine Fin.ext ?_
      match a with
      | ⟨0, _⟩ =>
        show ((dimsRows B P n wf).start j idx 0 + ((dimsRows B P n wf).window j 0 : Int)).toNat = b.val
        rw [rows_start0, rows_window0, ← h0]; omega
      | ⟨1, _⟩ =>
        show ((dimsRows B P n wf).start j idx 1 + ((dimsRows B P n wf).window j 1 : Int)).toNat = p.val
        rw [rows_start1, rows_window1, h1]; omega
  · rename_i h
    constructor
    · intro he; exact absurd he (by simp)
    · rintro ⟨h0, h1⟩
      exfalso; apply h
      intro a
      match a with
      | ⟨0, _⟩ =>
        show 0 ≤ (dimsRows B P n wf).start j idx 0 + ((dimsRows B P n wf).window j 0 : Int)
          ∧ (dimsRows B P n wf).start j idx 0 + ((dimsRows B P n wf).window j 0 : Int) < ((⟨2, ![B, P]⟩ : Shape).size 0 : Nat)
        rw [rows_start0, rows_window0, hs0]; omega
      | ⟨1, _⟩ =>
        show 0 ≤ (dimsRows B P n wf).start j idx 1 + ((dimsRows B P n wf).window j 1 : Int)
          ∧ (dimsRows B P n wf).start j idx 1 + ((dimsRows B P n wf).window j 1 : Int) < ((⟨2, ![B, P]⟩ : Shape).size 1 : Nat)
        have := p.isLt
        rw [rows_start1, rows_window1, h1, hs1]; omega
end Rows

/-- Entry (b, p) ends at its own value plus the sum over the words equal to `p` of row `b` of the updates. -/
theorem scatterAdd_rows_apply {B P n w : Nat} (wf : ScatterDims.WF ⟨2, ![B, P]⟩ ⟨2, ![n, 1]⟩ ⟨2, ![B, n]⟩ [0] [1] [1] 1)
    (x : (⟨2, ![B, P]⟩ : Shape).Idx → EReal) (idx : IVec ⟨2, ![n, 1]⟩ w) (upd : (⟨2, ![B, n]⟩ : Shape).Idx → EReal)
    (b : Fin B) (p : Fin P) :
    Ideal.hostScatterAdd (dimsRows B P n wf) x idx upd (ix2 b p)
      = x (ix2 b p) + ∑ i ∈ Finset.univ.filter (fun i : Fin n => (idx (colIx i)).toInt = (p.val : Int)), upd (ix2 b i) := by
  unfold Ideal.hostScatterAdd
  congr 1
  refine Finset.sum_nbij' (fun j => (j 1 : Fin n)) (fun i => ix2 b i) ?_ ?_ ?_ ?_ ?_
  · intro j hj
    have hj' := (Finset.mem_filter.mp hj).2
    exact Finset.mem_filter.mpr ⟨Finset.mem_univ _, ((rows_resultIdx_iff wf j idx b p).mp hj').2⟩
  · intro i hi
    have hi' := (Finset.mem_filter.mp hi).2
    exact Finset.mem_filter.mpr ⟨Finset.mem_univ _, (rows_resultIdx_iff wf (ix2 b i) idx b p).mpr ⟨rfl, hi'⟩⟩
  · intro j hj
    have h0 := ((rows_resultIdx_iff wf j idx b p).mp (Finset.mem_filter.mp hj).2).1
    show ix2 b (j 1) = j
    rw [← h0]; exact (eq_ix2 j).symm
  · intro i _
    rfl
  · intro j hj
    have h0 := ((rows_resultIdx_iff wf j idx b p).mp (Finset.mem_filter.mp hj).2).1
    show upd j = upd (ix2 b (j 1))
    rw [← h0]; exact congrArg upd (eq_ix2 j)

/-! ## Segments of columns -/

/-- Operand [P × C], words [n × 1], updates [n × C]: update row `i` goes, whole, to operand row word `i` names. -/
abbrev dimsCols (P C n : Nat) (wf : ScatterDims.WF ⟨2, ![P, C]⟩ ⟨2, ![n, 1]⟩ ⟨2, ![n, C]⟩ [1] [0] [0] 1) :
    ScatterDims ⟨2, ![P, C]⟩ ⟨2, ![n, 1]⟩ ⟨2, ![n, C]⟩ where
  updateWindowDims := [1]
  insertedWindowDims := [0]
  scatterDimsToOperandDims := [0]
  indexVectorDim := 1
  wf := wf

section Cols
variable {P C n w : Nat} (wf : ScatterDims.WF ⟨2, ![P, C]⟩ ⟨2, ![n, 1]⟩ ⟨2, ![n, C]⟩ [1] [0] [0] 1)

/-- Axis 0 of the operand starts at the word the update's first coordinate names. -/
private theorem cols_start0 (j : (⟨2, ![n, C]⟩ : Shape).Idx) (idx : IVec ⟨2, ![n, 1]⟩ w) :
    (dimsCols P C n wf).start j idx 0 = (idx (colIx (j 0))).toInt := by
  unfold ScatterDims.start
  rw [dif_pos (show (0 : Fin 2) ∈ (dimsCols P C n wf).scatterDimsToOperandDims from List.mem_singleton.mpr rfl)]
  congr 2
  funext b; refine Fin.ext ?_
  match b with
  | ⟨0, _⟩ => rfl
  | ⟨1, _⟩ => rfl

/-- Axis 1 of the operand is not named by the map: its start is 0. -/
private theorem cols_start1 (j : (⟨2, ![n, C]⟩ : Shape).Idx) (idx : IVec ⟨2, ![n, 1]⟩ w) :
    (dimsCols P C n wf).start j idx 1 = 0 := by
  unfold ScatterDims.start
  rw [dif_neg (show (1 : Fin 2) ∉ ([0] : List (Fin 2)) by decide)]

/-- Axis 0 of the operand is inserted: no window coordinate. -/
private theorem cols_window0 (j : (⟨2, ![n, C]⟩ : Shape).Idx) :
    (dimsCols P C n wf).window j 0 = 0 := by
  unfold ScatterDims.window
  have h : (0 : Fin 2) ∉ (dimsCols P C n wf).sKept :=
    show (0 : Fin 2) ∉ (List.finRange 2).filter (· ∉ ([0] : List (Fin 2))) by decide
  rw [dif_neg h]

/-- Axis 1 of the operand is the window axis: its window coordinate is the update's second coordinate. -/
private theorem cols_window1 (j : (⟨2, ![n, C]⟩ : Shape).Idx) :
    (dimsCols P C n wf).window j 1 = (j 1).val := by
  unfold ScatterDims.window
  have h : (1 : Fin 2) ∈ (dimsCols P C n wf).sKept :=
    show (1 : Fin 2) ∈ (List.finRange 2).filter (· ∉ ([0] : List (Fin 2))) by decide
  rw [dif_pos h]
  rfl

/-- An update lands on entry (p, c) exactly when its word is `p` and it sits in column `c`. -/
private theorem cols_resultIdx_iff (j : (⟨2, ![n, C]⟩ : Shape).Idx) (idx : IVec ⟨2, ![n, 1]⟩ w) (p : Fin P) (c : Fin C) :
    (dimsCols P C n wf).resultIdx? j idx = some (ix2 p c)
      ↔ (idx (colIx (j 0))).toInt = (p.val : Int) ∧ j 1 = c := by
  have hc := (j 1).isLt
  have hC : (⟨2, ![n, C]⟩ : Shape).size 1 = C := rfl
  have hs0 : (⟨2, ![P, C]⟩ : Shape).size 0 = P := rfl
  have hs1 : (⟨2, ![P, C]⟩ : Shape).size 1 = C := rfl
  unfold ScatterDims.resultIdx?
  split
  · rename_i h
    rw [Option.some.injEq]
    constructor
    · intro he
      have h0 := congrArg Fin.val (congrFun he 0)
      have h1 := congrArg Fin.val (congrFun he 1)
      have g0 := h 0
      simp only [cols_start0, cols_start1, cols_window0, cols_window1] at h0 h1 g0
      change _ = p.val at h0
      change _ = c.val at h1
      refine ⟨?_, Fin.ext ?_⟩ <;> omega
    · rintro ⟨h0, h1⟩
      funext a
      refine Fin.ext ?_
      match a with
      | ⟨0, _⟩ =>
        show ((dimsCols P C n wf).start j idx 0 + ((dimsCols P C n wf).window j 0 : Int)).toNat = p.val
        rw [cols_start0, cols_window0, h0]; omega
      | ⟨1, _⟩ =>
        show ((dimsCols P C n wf).start j idx 1 + ((dimsCols P C n wf).window j 1 : Int)).toNat = c.val
        rw [cols_start1, cols_window1, ← h1]; omega
  · rename_i h
    constructor
    · intro he; exact absurd he (by simp)
    · rintro ⟨h0, h1⟩
      exfalso; apply h
      intro a
      match a with
      | ⟨0, _⟩ =>
        show 0 ≤ (dimsCols P C n wf).start j idx 0 + ((dimsCols P C n wf).window j 0 : Int)
          ∧ (dimsCols P C n wf).start j idx 0 + ((dimsCols P C n wf).window j 0 : Int) < ((⟨2, ![P, C]⟩ : Shape).size 0 : Nat)
        have := p.isLt
        rw [cols_start0, cols_window0, h0, hs0]; omega
      | ⟨1, _⟩ =>
        show 0 ≤ (dimsCols P C n wf).start j idx 1 + ((dimsCols P C n wf).window j 1 : Int)
          ∧ (dimsCols P C n wf).start j idx 1 + ((dimsCols P C n wf).window j 1 : Int) < ((⟨2, ![P, C]⟩ : Shape).size 1 : Nat)
        rw [cols_start1, cols_window1, hs1]; omega
end Cols

/-- Entry (p, c) ends at its own value plus the sum over the words equal to `p` of column `c` of the updates. -/
theorem scatterAdd_cols_apply {P C n w : Nat} (wf : ScatterDims.WF ⟨2, ![P, C]⟩ ⟨2, ![n, 1]⟩ ⟨2, ![n, C]⟩ [1] [0] [0] 1)
    (x : (⟨2, ![P, C]⟩ : Shape).Idx → EReal) (idx : IVec ⟨2, ![n, 1]⟩ w) (upd : (⟨2, ![n, C]⟩ : Shape).Idx → EReal)
    (p : Fin P) (c : Fin C) :
    Ideal.hostScatterAdd (dimsCols P C n wf) x idx upd (ix2 p c)
      = x (ix2 p c) + ∑ i ∈ Finset.univ.filter (fun i : Fin n => (idx (colIx i)).toInt = (p.val : Int)), upd (ix2 i c) := by
  unfold Ideal.hostScatterAdd
  congr 1
  refine Finset.sum_nbij' (fun j => (j 0 : Fin n)) (fun i => ix2 i c) ?_ ?_ ?_ ?_ ?_
  · intro j hj
    have hj' := (Finset.mem_filter.mp hj).2
    exact Finset.mem_filter.mpr ⟨Finset.mem_univ _, ((cols_resultIdx_iff wf j idx p c).mp hj').1⟩
  · intro i hi
    have hi' := (Finset.mem_filter.mp hi).2
    exact Finset.mem_filter.mpr ⟨Finset.mem_univ _, (cols_resultIdx_iff wf (ix2 i c) idx p c).mpr ⟨hi', rfl⟩⟩
  · intro j hj
    have h1 := ((cols_resultIdx_iff wf j idx p c).mp (Finset.mem_filter.mp hj).2).2
    show ix2 (j 0) c = j
    rw [← h1]; exact (eq_ix2 j).symm
  · intro i _
    rfl
  · intro j hj
    have h1 := ((cols_resultIdx_iff wf j idx p c).mp (Finset.mem_filter.mp hj).2).2
    show upd j = upd (ix2 (j 0) c)
    rw [← h1]; exact congrArg upd (eq_ix2 j)

/-! ## A gather of whole columns of a table -/

/-- Operand [B × N], words [n × 1], result [B × n]: for each word one column of the table, all `B` rows of it. -/
abbrev dimsTakeCols (B N n : Nat)
    (wf : GatherDims.WF ⟨2, ![B, N]⟩ ⟨2, ![n, 1]⟩ ⟨2, ![B, n]⟩ [0] [1] [] [1] [] 1 ![B, 1]) :
    GatherDims ⟨2, ![B, N]⟩ ⟨2, ![n, 1]⟩ ⟨2, ![B, n]⟩ where
  offsetDims := [0]
  collapsedSliceDims := [1]
  operandBatchingDims := []
  startIndicesBatchingDims := []
  startIndexMap := [1]
  indexVectorDim := 1
  sliceSizes := ![B, 1]
  wf := wf

/-- Entry (b, i) of the result is the table's row `b` at the column word `i` names, signed and clamped. -/
theorem gather_cols_apply {α : Type} {B N n w : Nat} (hN : 0 < N)
    (wf : GatherDims.WF ⟨2, ![B, N]⟩ ⟨2, ![n, 1]⟩ ⟨2, ![B, n]⟩ [0] [1] [] [1] [] 1 ![B, 1])
    (x : (⟨2, ![B, N]⟩ : Shape).Idx → α) (idx : IVec ⟨2, ![n, 1]⟩ w) (b : Fin B) (i : Fin n) :
    Host.gather (dimsTakeCols B N n wf) x idx (ix2 b i)
      = x (ix2 b ⟨min (idx (colIx i)).toInt.toNat (N - 1), by omega⟩) := by
  unfold Host.gather
  congr 1
  funext a
  refine Fin.ext ?_
  have hob : ∀ a : Fin 2, a ∉ (dimsTakeCols B N n wf).operandBatchingDims := fun _ => List.not_mem_nil
  match a with
  | ⟨0, _⟩ =>
    -- the row axis: not start-indexed, an offset axis read off the result's first coordinate
    show (dimsTakeCols B N n wf).start (ix2 b i) idx 0 + (dimsTakeCols B N n wf).batchCoord (ix2 b i) 0
      + (dimsTakeCols B N n wf).offCoord (ix2 b i) 0 = b.val
    rw [GatherDims.batchCoord_eq_zero _ _ _ (hob 0)]
    unfold GatherDims.start GatherDims.offCoord
    have hk : (0 : Fin 2) ∈ (dimsTakeCols B N n wf).sKept :=
      show (0 : Fin 2) ∈ (List.finRange 2).filter (· ∉ (([1] : List (Fin 2)) ++ [])) by decide
    rw [dif_neg (show (0 : Fin 2) ∉ ([1] : List (Fin 2)) by decide), dif_pos hk]
    simp only [Nat.zero_add, Nat.add_zero]
    rfl
  | ⟨1, _⟩ =>
    -- the column axis: start-indexed and collapsed, the word clamped into the table
    show (dimsTakeCols B N n wf).start (ix2 b i) idx 1 + (dimsTakeCols B N n wf).batchCoord (ix2 b i) 1
      + (dimsTakeCols B N n wf).offCoord (ix2 b i) 1 = min (idx (colIx i)).toInt.toNat (N - 1)
    have hk : (1 : Fin 2) ∉ (dimsTakeCols B N n wf).sKept :=
      show (1 : Fin 2) ∉ (List.finRange 2).filter (· ∉ (([1] : List (Fin 2)) ++ [])) by decide
    rw [GatherDims.batchCoord_eq_zero _ _ _ (hob 1), GatherDims.offCoord_eq_zero _ _ _ hk]
    simp only [Nat.add_zero]
    unfold GatherDims.start
    rw [dif_pos (show (1 : Fin 2) ∈ (dimsTakeCols B N n wf).startIndexMap from List.mem_singleton.mpr rfl)]
    have hsi : (dimsTakeCols B N n wf).siIdx (ix2 b i) ⟨List.idxOf (1 : Fin 2) (dimsTakeCols B N n wf).startIndexMap,
        List.idxOf_lt_length_iff.2 (List.mem_singleton.mpr rfl)⟩ = colIx i := by
      funext c; refine Fin.ext ?_
      match c with
      | ⟨0, _⟩ => rfl
      | ⟨1, _⟩ => rfl
    rw [hsi]
    rfl

end Idealize.ShloMosaic.SegmentSum

end
-- ==== Proof.LibSegmentSumHost.lean ====
/-
  The segment-sum reads, stated for the host's accumulating scatter at the exact instance.

  At the exact instance the host's scatter with an additive body is, by definition, the operand plus the sum of the
  updates landing on each entry. With the sizes left as variables that identification is immediate; stated once
  here, a program at concrete sizes rewrites with these forms and never opens the scatter itself.
-/
import proofs.«412827_j90649579749762_2_alg».proof.Proof.LibSegmentSum

noncomputable section

namespace Idealize.ShloMosaic.SegmentSum

open Idealize.ShloMosaic.ValueIdx

/-- A vector of segments: segment `p` ends at its own value plus the sum of the updates whose word is `p`. -/
theorem scatterAdd_vec_host {P n w : Nat} {φ : FTy}
    (wf : ScatterDims.WF ⟨1, ![P]⟩ ⟨2, ![n, 1]⟩ ⟨1, ![n]⟩ [] [0] [0] 1)
    (x : FVec Ideal ⟨1, ![P]⟩ φ) (idx : IVec ⟨2, ![n, 1]⟩ w) (upd : FVec Ideal ⟨1, ![n]⟩ φ) (p : Fin P) :
    Host.scatterAdd (dimsVec P n wf) x idx upd (ix1 p)
      = x (ix1 p) + ∑ i ∈ Finset.univ.filter (fun i : Fin n => (idx (colIx i)).toInt = (p.val : Int)), upd (ix1 i) :=
  scatterAdd_vec_apply wf x idx upd p

/-- Rows of segments: entry (b, p) ends at its own value plus the sum, over the words equal to `p`, of row `b` of the updates. -/
theorem scatterAdd_rows_host {B P n w : Nat} {φ : FTy}
    (wf : ScatterDims.WF ⟨2, ![B, P]⟩ ⟨2, ![n, 1]⟩ ⟨2, ![B, n]⟩ [0] [1] [1] 1)
    (x : FVec Ideal ⟨2, ![B, P]⟩ φ) (idx : IVec ⟨2, ![n, 1]⟩ w) (upd : FVec Ideal ⟨2, ![B, n]⟩ φ)
    (b : Fin B) (p : Fin P) :
    Host.scatterAdd (dimsRows B P n wf) x idx upd (ix2 b p)
      = x (ix2 b p) + ∑ i ∈ Finset.univ.filter (fun i : Fin n => (idx (colIx i)).toInt = (p.val : Int)), upd (ix2 b i) :=
  scatterAdd_rows_apply wf x idx upd b p

/-- Segments of columns: entry (p, c) ends at its own value plus the sum, over the words equal to `p`, of column `c` of the updates. -/
theorem scatterAdd_cols_host {P C n w : Nat} {φ : FTy}
    (wf : ScatterDims.WF ⟨2, ![P, C]⟩ ⟨2, ![n, 1]⟩ ⟨2, ![n, C]⟩ [1] [0] [0] 1)
    (x : FVec Ideal ⟨2, ![P, C]⟩ φ) (idx : IVec ⟨2, ![n, 1]⟩ w) (upd : FVec Ideal ⟨2, ![n, C]⟩ φ)
    (p : Fin P) (c : Fin C) :
    Host.scatterAdd (dimsCols P C n wf) x idx upd (ix2 p c)
      = x (ix2 p c) + ∑ i ∈ Finset.univ.filter (fun i : Fin n => (idx (colIx i)).toInt = (p.val : Int)), upd (ix2 i c) :=
  scatterAdd_cols_apply wf x idx upd p c

end Idealize.ShloMosaic.SegmentSum

end
-- ==== Proof.LibRowOps.lean ====
/-
  Layout operations and a lane sum read at an index given by coordinates: the column forms that sit beside the
  row forms of the library's layout lemmas.

  * a column [a, 1] broadcast along its unit axis to [a, b] reads, at (p, c), the column's entry p;
  * a vector [a] cast to a column [a, 1] reads, at (i, 0), the vector's entry i;
  * a sum over the second axis of an [a, b] array, read at p, is the sum over n of the entries (p, n);
  * a block of extents [1, m, n] loaded from an [k, m, n] array at offset (i, 0, 0) reads, at (0, r, c), the array's
    entry (i, r, c); likewise a [1, n] row of a [k, n] array and one entry of a vector.
-/
import Idealize.ShloMosaic.Lib.ValueLayout
import Idealize.ShloMosaic.Lib.Pipeline.FrameBody
import Idealize.ShloMosaic.PureOps.Ideal.Laws

noncomputable section

namespace Cert.RowOps

open Idealize.ShloMosaic Idealize.ShloMosaic.ValueIdx

variable {α : Type}

/-- A column broadcast along its unit axis: entry (p, c) of the result is entry p of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cast to a column: entry (i, 0) of the column is entry i of the vector. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the second axis of an [a, b] array of extended reals, read at p: the sum over n of entry (p, n). -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ n : Fin b, src (ix2 p n) := by
  refine (Ideal.multiReduction_add_single src 0x00000000#32 h hφ hacc (ix1 p)).trans ?_
  refine Finset.sum_congr rfl fun n _ => congrArg src (funext fun c => Fin.ext ?_)
  show h.liftVal (ix1 p) n.val c = _
  match c with
  | ⟨0, _⟩ => simp [Shape.Reduces.liftVal]
  | ⟨1, _⟩ => simp [Shape.Reduces.liftVal]

/-- A load through a unit-stride rectangle reads, at j, the array at the index k whose coordinates are the
    rectangle's offsets plus j's. -/
theorem ld_unit_apply {S : Shape} {Val : EltTy → Type} {e : EltTy} (X : S.Idx → Val e)
    (off size : Fin S.rank → Nat) (inb : ∀ a, off a + size a ≤ S.size a)
    (j : (Rect.unit off size inb).shape.Idx) (k : S.Idx) (hk : ∀ a, (k a).val = off a + (j a).val) :
    View.ld X (Rect.unit off size inb) j = X k := by
  show X ((Rect.unit off size inb).idx j) = X k
  refine congrArg X (funext fun a => Fin.ext ?_)
  rw [hk a]
  show off a + 1 * (j a).val = off a + (j a).val
  rw [Nat.one_mul]

end Cert.RowOps

end
-- ==== Proof.LibRegroup.lean ====
/-
  General regrouping lemmas for finite sums.

  * a real finite sum, read in the extended reals, is the sum of the terms read there (the inclusion of the reals is
    additive), and the inclusion commutes with the larger of two numbers;
  * a weighted sum over the fibres of a map: if every index `e` with property `P` is sent to a point `src e`, then
    summing over the points `s` the total weight of the fibre over `s` times a value `y s` is the same as summing over
    the indices the weight times the value at the image.
-/
import Mathlib.Data.EReal.Operations
import Mathlib.Algebra.BigOperators.Ring.Finset
import Mathlib.Algebra.BigOperators.Fin

namespace Cert.Lib.Regroup

open scoped BigOperators

/-- The inclusion of the reals into the extended reals carries a finite sum to the sum of the included terms. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals into the extended reals is monotone, so it carries the larger of two reals to the
    larger of their images. -/
theorem coe_max (a b : ℝ) : ((max a b : ℝ) : EReal) = max (a : EReal) (b : EReal) :=
  EReal.coe_strictMono.monotone.map_max

/-- Summing over the points `s` the total weight of the fibre `{e | P e ∧ src e = s}` times `y s` is summing over the
    indices with property `P` the weight times `y` at the image: each index lies in exactly one fibre. -/
theorem sum_fiber_mul {ι σ R : Type*} [Fintype ι] [Fintype σ] [DecidableEq σ] [Semiring R]
    (P : ι → Prop) [DecidablePred P] (src : ι → σ) (c : ι → R) (y : σ → R) :
    ∑ s : σ, (∑ e ∈ Finset.univ.filter (fun e => P e ∧ src e = s), c e) * y s
      = ∑ e ∈ Finset.univ.filter P, c e * y (src e) := by
  simp_rw [Finset.sum_mul, Finset.sum_filter]
  rw [Finset.sum_comm]
  refine Finset.sum_congr rfl fun e _ => ?_
  by_cases hP : P e
  · simp [hP, Finset.sum_ite_eq]
  · simp [hP]

end Cert.Lib.Regroup
-- ==== Proof.Val.PoolRef.lean ====
import proofs.«412827_j90649579749762_2_alg».proof.Proof.KI.Blocks
import proofs.«412827_j90649579749762_2_alg».proof.Proof.Spec
import proofs.«412827_j90649579749762_2_alg».proof.Proof.LibSegmentSum
import proofs.«412827_j90649579749762_2_alg».proof.Proof.LibSegmentSumHost
import proofs.«412827_j90649579749762_2_alg».proof.Proof.LibRowOps
import proofs.«412827_j90649579749762_2_alg».proof.Proof.LibRegroup
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

/-!
Three facts about the per-graph mean, at the exact instance.

* The pooled array from its one block: the result window is ONE [16, 64] block at block index (0, 0) at every grid
  point, written back once; so the array ends holding what that block holds.
* The reference's mean at an entry (g, d): the sum of column d over the rows whose graph id is g, over the number of
  such rows clamped at one.
* The pooling pipeline's input blocks at an entry: row r of the block at point t is row 5000 · t + r of the array.
-/

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.GenP Cert.KernelIdeal.Hand

variable (V : (c : Dev nD) → (b : Ref sig .tc) → Buf (Elt Ideal) ((c : Thread nD τ).loc b))

/-! ## The pooling pipeline's block indices -/

/-- The printed index maps, decided over the grid: each input window's block index is (t, 0) at point t, and the result
    window's is (0, 0) at every point. -/
theorem idx3_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0 :=
  (by decide +kernel : ∀ t : Fin grid3.N, _)

/-! ## The pooled array from its one block -/

/-- The result window is one [16, 64] block at block index (0, 0): read through it, an array of that shape is itself;
    the last point writes it back and its block holds every index. So, for any proof data whose body leaves the pooled
    block in the result buffer at every point, the array ends holding the pooled block. -/
theorem pool_arr (c : Dev nD) (dat : Dat τ (Elt Ideal) Unit ℕ (UR sig nD τ) ℕ cfg3 c)
    (h : ∀ t, dat.after 3 t = pooled3 V c) : dat.arrAt 3 cfg3.N = pooled3 V c :=
  dat.arrAt_eq_of_cover 3 (pooled3 V c)
    (fun t _ => by
      show (cfg3.win 3).cut (grid3.coords t) (dat.after 3 t) = _
      rw [h]
      obtain ⟨-, -, -, -, -, -, e0, e1⟩ := idx3_facts t
      funext j
      show pooled3 V c j = pooled3 V c (((cfg3.win 3).blk t).view.emb j)
      refine congrArg (pooled3 V c) (funext fun a => Fin.ext ?_)
      match a with
      | ⟨0, _⟩ => show (j 0).val = win3_3.index t (0 : Fin 2) * 16 + 1 * (j 0).val; omega
      | ⟨1, _⟩ => show (j 1).val = win3_3.index t (1 : Fin 2) * 64 + 1 * (j 1).val; omega)
    (fun i => ⟨t3_9, (flush3_3 t3_9).mpr rfl, by
      show i ∈ ((View.whole main_v50).slice (win3_3.rect t3_9)).set
      rw [View.set_slice_whole, Rect.mem_set_unit]
      obtain ⟨-, -, -, -, -, -, e0, e1⟩ := idx3_facts t3_9
      have h0 : (i 0 : Nat) < 16 := (i 0).isLt
      have h1 : (i 1 : Nat) < 64 := (i 1).isLt
      intro a
      match a with
      | ⟨0, _⟩ => show win3_3.index t3_9 (0 : Fin 2) * 16 ≤ (i 0 : Nat) ∧ (i 0 : Nat) < win3_3.index t3_9 (0 : Fin 2) * 16 + 16; omega
      | ⟨1, _⟩ => show win3_3.index t3_9 (1 : Fin 2) * 64 ≤ (i 1 : Nat) ∧ (i 1 : Nat) < win3_3.index t3_9 (1 : Fin 2) * 64 + 64; omega⟩)

/-! ## The reference's mean at an entry -/

/-- The f32 word 0x3F800000 is the number one. -/
theorem one_word : Ideal.ofBits .f32 0x3F800000#32 = (1 : EReal) := Ideal.ofBits_one_f32

/-- The reference's mean at (g, d): the quotient, entry by entry, of a scatter-add of the rows into zeros — the sum of
    column d over the rows whose graph id is g — by the broadcast along the columns of the larger of a scatter-add of
    ones into zeros — the number of such rows — and one. -/
theorem spec_pool_apply (hrows : Cert.Spec.Arr Ideal Cert.ReferenceIdeal.S50000x64 .f32)
    (ids : Cert.Spec.Arr Ideal Cert.ReferenceIdeal.S50000x1 .i32) (g : Fin 16) (d : Fin 64) :
    Cert.Spec.pool hrows ids (ix2 g d)
      = Ideal.div (∑ i ∈ Finset.univ.filter (fun i : Fin 50000 => (ids (ix2 i (0 : Fin 1))).toInt = (g.val : Int)), hrows (ix2 i d))
          (max (∑ i ∈ Finset.univ.filter (fun i : Fin 50000 => (ids (ix2 i (0 : Fin 1))).toInt = (g.val : Int)), (1 : EReal))
            (Ideal.ofBits .f32 0x3F800000#32)) := by
  unfold Cert.Spec.pool
  rw [hostDivf_apply]
  refine congrArg₂ Ideal.div ?_ ?_
  · refine (SegmentSum.scatterAdd_cols_host (P := 16) (C := 64) (n := 50000) (w := 32) _ _ ids hrows g d).trans ?_
    rw [broadcastInDim_scalar_apply, constant_apply, Ideal.ofBits_zero_f32, zero_add]
  · rw [broadcastInDim_apply _ _ _ (ix2 g d) (ix2 g (0 : Fin 1)) (fun a => match a with | ⟨0, _⟩ => rfl | ⟨1, _⟩ => rfl),
      broadcastInDim_apply _ _ _ (ix2 g (0 : Fin 1)) (ix1 g) (fun a => match a with | ⟨0, _⟩ => rfl),
      maximumf_apply, broadcastInDim_scalar_apply, constant_apply]
    refine congrArg₂ max ?_ rfl
    refine (SegmentSum.scatterAdd_vec_host (P := 16) (n := 50000) (w := 32) _ _ ids _ g).trans ?_
    rw [broadcastInDim_scalar_apply, constant_apply, Ideal.ofBits_zero_f32, zero_add]
    refine Finset.sum_congr rfl fun i _ => ?_
    rw [broadcastInDim_scalar_apply, constant_apply, one_word]

/-! ## The input blocks at an entry -/

/-- Row 5000 · t + r is a row of the array. -/
theorem row_lt (t : Fin cfg3.N) (r : Fin 5000) : 5000 * t.val + r.val < 50000 := by
  have h1 : t.val < 10 := (show cfg3.N = 10 from N_3) ▸ t.isLt
  have h2 := r.isLt
  omega

/-- The summed rows' block at point t: a block's coordinate is its index times its size plus the coordinate inside it,
    and the block index is (t, 0). -/
theorem iblk3_0_apply (c : Dev nD) (t : Fin cfg3.N) (r : Fin 5000) (d : Fin 64) :
    iblk3 V c 0 t (ix2 r d) = V c main_v48 (ix2 ⟨5000 * t.val + r.val, row_lt t r⟩ d) := by
  obtain ⟨e0, e1, -⟩ := idx3_facts t
  show V c main_v48 (((cfg3.win 0).blk t).view.emb (ix2 r d)) = _
  refine congrArg (V c main_v48) (funext fun a => Fin.ext ?_)
  match a with
  | ⟨0, _⟩ => show win3_0.index t (0 : Fin 2) * 5000 + 1 * r.val = 5000 * t.val + r.val; omega
  | ⟨1, _⟩ => show win3_0.index t (1 : Fin 2) * 64 + 1 * d.val = d.val; omega

/-- The second summand's block, in the same way. -/
theorem iblk3_1_apply (c : Dev nD) (t : Fin cfg3.N) (r : Fin 5000) (d : Fin 64) :
    iblk3 V c 1 t (ix2 r d) = V c main_v34_0 (ix2 ⟨5000 * t.val + r.val, row_lt t r⟩ d) := by
  obtain ⟨-, -, e0, e1, -⟩ := idx3_facts t
  show V c main_v34_0 (((cfg3.win 1).blk t).view.emb (ix2 r d)) = _
  refine congrArg (V c main_v34_0) (funext fun a => Fin.ext ?_)
  match a with
  | ⟨0, _⟩ => show win3_1.index t (0 : Fin 2) * 5000 + 1 * r.val = 5000 * t.val + r.val; omega
  | ⟨1, _⟩ => show win3_1.index t (1 : Fin 2) * 64 + 1 * d.val = d.val; omega

/-- The graph ids' block, a column. -/
theorem iblk3_2_apply (c : Dev nD) (t : Fin cfg3.N) (r : Fin 5000) (u : Fin 1) :
    iblk3 V c 2 t (ix2 r u) = V c main_v49 (ix2 ⟨5000 * t.val + r.val, row_lt t r⟩ u) := by
  obtain ⟨-, -, -, -, e0, e1, -⟩ := idx3_facts t
  show V c main_v49 (((cfg3.win 2).blk t).view.emb (ix2 r u)) = _
  refine congrArg (V c main_v49) (funext fun a => Fin.ext ?_)
  match a with
  | ⟨0, _⟩ => show win3_2.index t (0 : Fin 2) * 5000 + 1 * r.val = 5000 * t.val + r.val; omega
  | ⟨1, _⟩ => show win3_2.index t (1 : Fin 2) * 1 + 1 * u.val = u.val; omega

end Cert.KernelIdeal.Val

end
-- ==== Proof.Val.Pool.lean ====
import proofs.«412827_j90649579749762_2_alg».proof.Proof.KI.Blocks
import proofs.«412827_j90649579749762_2_alg».proof.Proof.Spec
import proofs.«412827_j90649579749762_2_alg».proof.Proof.Val.PoolTiles
import proofs.«412827_j90649579749762_2_alg».proof.Proof.Val.PoolRef
import Idealize.ShloMosaic.Lib.Pipeline.Value
import Idealize.ShloMosaic.Lib.ValueIdx
import Idealize.ShloMosaic.PureOps.Ideal.Laws

/-!
What the pooling pipeline leaves in its output array, over the extended reals.

Tile `t` of the ten holds rows `5000 * t` … `5000 * t + 4999` of the three staged arrays (the aggregated messages,
the last layer's rows, the graph ids as a column of words). By induction on the number of tiles, the sums accumulator
at `(g, d)` is the sum over the rows seen so far of the one-hot weight of the row's id word against `g` times the
row's feature `agg + h` at `d`, and the counts accumulator at `(g, 0)` is the sum of the weights. A 32-bit word is
`g`'s word, for `g` below 16, exactly when its signed value is `g`; one times a value is the value and zero times
a value is zero on the extended reals; so after the ten tiles the two accumulators are the sum of the rows whose id is
`g` and their number, which is what the reference's two scatter-adds into zeros hold at that entry. The stored
quotient by the count clamped below at one is then the reference's per-graph mean, entry by entry.
-/

set_option maxRecDepth 16384

noncomputable section

namespace Cert.KernelIdeal.Val

open Idealize.ShloMosaic Idealize.ShloMosaic.ValueIdx
open Cert.KernelIdeal Cert.KernelIdeal.Gen
open scoped BigOperators

open Cert.KernelIdeal.GenP Cert.KernelIdeal.Hand
open Idealize.SL Idealize.SL.Sem Idealize.ShloMosaic.TcCoe
open Idealize.ShloMosaic.Pipeline (Dat Cfg Window)

variable (V : (c : Dev nD) → (b : Ref sig .tc) → Buf (Elt Ideal) ((c : Thread nD τ).loc b))

/-! ## A row's contribution, and the id word against a graph number -/

section Rows

variable (X0 X1 : Vec Ideal S50000x64 .f32) (B : Vec Ideal S50000x1 .i32)

/-- Row `k`'s contribution to graph `g`'s sum at feature `d` (zero past the last row). -/
def rowTerm (g : Fin 16) (d : Fin 64) (k : ℕ) : EReal :=
  if h : k < 50000 then oh (B (ix2 ⟨k, h⟩ (0 : Fin 1))) g * (X0 (ix2 ⟨k, h⟩ d) + X1 (ix2 ⟨k, h⟩ d)) else 0

/-- Row `k`'s contribution to graph `g`'s row count (zero past the last row). -/
def rowCount (g : Fin 16) (k : ℕ) : EReal :=
  if h : k < 50000 then oh (B (ix2 ⟨k, h⟩ (0 : Fin 1))) g else 0

/-- A 32-bit word is `g`'s word exactly when its signed value is `g`, for `g` below 16. -/
theorem word_eq_iff (w : BitVec 32) (g : Fin 16) : w = BitVec.ofNat 32 g.val ↔ w.toInt = (g.val : Int) := by
  have hg := g.isLt
  have hw : w.toNat < 4294967296 := w.isLt
  rw [BitVec.toInt_eq_toNat_cond]
  constructor
  · rintro rfl
    rw [BitVec.toNat_ofNat, Nat.mod_eq_of_lt (by omega : g.val < 2 ^ 32)]
    rw [if_pos (by omega)]
  · intro h
    apply BitVec.eq_of_toNat_eq
    rw [BitVec.toNat_ofNat, Nat.mod_eq_of_lt (by omega : g.val < 2 ^ 32)]
    split at h <;> omega

end Rows

/-! ## The accumulators after a number of tiles, as sums over rows -/

section Acc

variable (X0 X1 : Vec Ideal S50000x64 .f32) (B : Vec Ideal S50000x1 .i32)

/-- The sums accumulator after `n` tiles, at `(g, d)`: the sum of the contributions of the rows below `5000 * n`,
    when each tile's blocks are the arrays' rows `5000 * t` … `5000 * t + 4999`. -/
theorem sums3_apply (c : Dev nD)
    (h0 : ∀ (t : Fin cfg3.N) (r : Fin 5000) (d : Fin 64) (hk : 5000 * t.val + r.val < 50000),
      iblk3 V c 0 t (ix2 r d) = X0 (ix2 ⟨5000 * t.val + r.val, hk⟩ d))
    (h1 : ∀ (t : Fin cfg3.N) (r : Fin 5000) (d : Fin 64) (hk : 5000 * t.val + r.val < 50000),
      iblk3 V c 1 t (ix2 r d) = X1 (ix2 ⟨5000 * t.val + r.val, hk⟩ d))
    (h2 : ∀ (t : Fin cfg3.N) (r : Fin 5000) (u : Fin 1) (hk : 5000 * t.val + r.val < 50000),
      iblk3 V c 2 t (ix2 r u) = B (ix2 ⟨5000 * t.val + r.val, hk⟩ u))
    (g : Fin 16) (d : Fin 64) :
    ∀ n, n ≤ 10 → sums3 V c n (ix2 g d) = ∑ k ∈ Finset.range (5000 * n), rowTerm X0 X1 B g d k
  | 0, _ => by
    rw [sums3, pay1_apply]
    simp
  | n + 1, hn => by
    have hN : n < cfg3.N := by show n < grid3.N; rw [N_3]; omega
    rw [sums3, dif_pos hN]
    refine (pay4_apply _ _ _ _ g d).trans ?_
    rw [sums3_apply c h0 h1 h2 g d n (by omega), show 5000 * (n + 1) = 5000 * n + 5000 by ring, Finset.sum_range_add,
      Finset.sum_range (fun k => rowTerm X0 X1 B g d (5000 * n + k))]
    refine congrArg (_ + ·) (Finset.sum_congr rfl fun r _ => ?_)
    have hk : 5000 * n + r.val < 50000 := by have := r.isLt; omega
    rw [h0 ⟨n, hN⟩ r d hk, h1 ⟨n, hN⟩ r d hk, h2 ⟨n, hN⟩ r 0 hk, rowTerm, dif_pos hk]

/-- The counts accumulator after `n` tiles, at `(g, 0)`: the number of rows below `5000 * n` whose id is `g`, as a sum
    of one-hot weights. -/
theorem counts3_apply (c : Dev nD)
    (h2 : ∀ (t : Fin cfg3.N) (r : Fin 5000) (u : Fin 1) (hk : 5000 * t.val + r.val < 50000),
      iblk3 V c 2 t (ix2 r u) = B (ix2 ⟨5000 * t.val + r.val, hk⟩ u))
    (g : Fin 16) (u : Fin 1) :
    ∀ n, n ≤ 10 → counts3 V c n (ix2 g u) = ∑ k ∈ Finset.range (5000 * n), rowCount B g k
  | 0, _ => by
    rw [counts3, pay2_apply]
    simp
  | n + 1, hn => by
    have hN : n < cfg3.N := by show n < grid3.N; rw [N_3]; omega
    rw [counts3, dif_pos hN]
    refine (pay5_apply _ _ g u).trans ?_
    rw [counts3_apply c h2 g u n (by omega), show 5000 * (n + 1) = 5000 * n + 5000 by ring, Finset.sum_range_add,
      Finset.sum_range (fun k => rowCount B g (5000 * n + k))]
    refine congrArg (_ + ·) (Finset.sum_congr rfl fun r _ => ?_)
    have hk : 5000 * n + r.val < 50000 := by have := r.isLt; omega
    rw [h2 ⟨n, hN⟩ r 0 hk, rowCount, dif_pos hk]

/-- All rows' contributions to graph `g`'s sum: the sum of the features of the rows whose id, read signed, is `g`. -/
theorem rowTerm_total (g : Fin 16) (d : Fin 64) :
    ∑ k ∈ Finset.range 50000, rowTerm X0 X1 B g d k
      = ∑ i ∈ Finset.univ.filter (fun i : Fin 50000 => (B (ix2 i (0 : Fin 1))).toInt = (g.val : Int)),
          (X0 (ix2 i d) + X1 (ix2 i d)) := by
  rw [Finset.sum_range, Finset.sum_filter]
  refine Finset.sum_congr rfl fun i _ => ?_
  rw [rowTerm, dif_pos i.isLt, oh, ite_mul, one_mul, zero_mul]
  exact if_congr (word_eq_iff _ g) rfl rfl

/-- All rows' contributions to graph `g`'s count: one for each row whose id, read signed, is `g`. -/
theorem rowCount_total (g : Fin 16) :
    ∑ k ∈ Finset.range 50000, rowCount B g k
      = ∑ i ∈ Finset.univ.filter (fun i : Fin 50000 => (B (ix2 i (0 : Fin 1))).toInt = (g.val : Int)), (1 : EReal) := by
  rw [Finset.sum_range, Finset.sum_filter]
  refine Finset.sum_congr rfl fun i _ => ?_
  rw [rowCount, dif_pos i.isLt, oh]
  exact if_congr (word_eq_iff _ g) rfl rfl

end Acc

/-! ## The pooled means are the reference's per-graph means -/

/-- What the kernel stores at the last tile is the per-graph mean of the rows `agg + h` under the id column: at
    `(g, d)` both sides are the sum of the rows whose id is `g` over their number clamped below at one. -/
theorem pooled3_eq_pool (c : Dev nD) :
    pooled3 V c = Cert.Spec.pool (addf (V c main_v48) (V c main_v34_0)) (V c main_v49) := by
  funext j
  obtain ⟨g, d, rfl⟩ : ∃ (g : Fin 16) (d : Fin 64), j = ix2 g d := ⟨j 0, j 1, eq_ix2 j⟩
  have h0 : ∀ (t : Fin cfg3.N) (r : Fin 5000) (d : Fin 64) (hk : 5000 * t.val + r.val < 50000),
      iblk3 V c 0 t (ix2 r d) = V c main_v48 (ix2 ⟨5000 * t.val + r.val, hk⟩ d) := fun t r d _ => iblk3_0_apply V c t r d
  have h1 : ∀ (t : Fin cfg3.N) (r : Fin 5000) (d : Fin 64) (hk : 5000 * t.val + r.val < 50000),
      iblk3 V c 1 t (ix2 r d) = V c main_v34_0 (ix2 ⟨5000 * t.val + r.val, hk⟩ d) := fun t r d _ => iblk3_1_apply V c t r d
  have h2 : ∀ (t : Fin cfg3.N) (r : Fin 5000) (u : Fin 1) (hk : 5000 * t.val + r.val < 50000),
      iblk3 V c 2 t (ix2 r u) = V c main_v49 (ix2 ⟨5000 * t.val + r.val, hk⟩ u) := fun t r u _ => iblk3_2_apply V c t r u
  refine Eq.trans ?_ (spec_pool_apply _ _ g d).symm
  unfold pooled3
  refine (pay6_apply _ _ g d).trans ?_
  rw [show cfg3.N = 10 from N_3]
  rw [(sums3_apply V (V c main_v48) (V c main_v34_0) (V c main_v49) c h0 h1 h2 g d 10 le_rfl).trans
        (rowTerm_total (V c main_v48) (V c main_v34_0) (V c main_v49) g d),
      (counts3_apply V (V c main_v49) c h2 g 0 10 le_rfl).trans (rowCount_total (V c main_v49) g)]
  rfl

/-- The pooling pipeline's output array after the run: the per-graph means of the reference, of the arrays as the
    region finds them. -/
theorem pool_value (c : Dev nD) (dat : Dat τ (Elt Ideal) Unit ℕ (UR sig nD τ) ℕ cfg3 c) (hA : ∀ w, dat.A w = V c (Pipeline.arrRef spec3 w))
    (h : ∀ t, dat.after 3 t = pooled3 V c) :
    dat.arrAt 3 cfg3.N = Cert.Spec.pool (addf (V c main_v48) (V c main_v34_0)) (V c main_v49) :=
  (pool_arr V c dat h).trans (pooled3_eq_pool V c)

end Cert.KernelIdeal.Val

end
-- ==== Proof.Val.Chain.lean ====
import proofs.«412827_j90649579749762_2_alg».proof.Proof.KI.Run
import proofs.«412827_j90649579749762_2_alg».proof.Proof.Spec
import proofs.«412827_j90649579749762_2_alg».proof.Proof.Val.Lin
import proofs.«412827_j90649579749762_2_alg».proof.Proof.Val.Pool
import Idealize.ShloMosaic.Lib.StableHlo.Run
import Idealize.ShloMosaic.Lib.Pipeline.Value
import Idealize.ShloMosaic.PureOps.Ideal

/-!
The kernel program's result is the network of its arguments.

The buffer contents are followed from the launch memory through the nine boundaries of the program, one stage at a
time: a stretch of host operations leaves the program's own operations applied to what it found (the edge list's two
rows; a message-passing step over the rounded copy of a layer's output; the graph ids as a column), a pipeline leaves
a linear layer of its input arrays in both its output arrays, and the last pipeline leaves the per-graph mean. Every
array stays a name throughout: a stage's value is the previous stages' names under one more operation.
-/

set_option maxRecDepth 16384

noncomputable section

namespace Cert.KernelIdeal.Val

open Idealize.ShloMosaic Idealize.ShloMosaic.TcCoe Idealize.SL Idealize.SL.Sem
open Idealize.ShloMosaic.StableHlo (after_cons after_nil)
open Cert.KernelIdeal.Gen Cert.KernelIdeal.Hand
open Cert.KernelIdeal.GenP (hostOps0 hostOps1 hostOps2 hostOps3 hostOps0_W hostOps1_W hostOps2_W hostOps3_W)
open Cert.Spec (Arr)

variable (m : (ℓ : Loc nD τ sig) → Buf (Elt Ideal) ℓ) (ρ : Dev nD → PrngReg) (c : Dev nD)

/-! ## The arguments at their literal types, and the network's intermediate arrays -/

/-- The node features. -/
abbrev a0 : Arr Ideal S50000x128 .f32 := m ((c.tc : Thread nD τ).loc main_arg0)
/-- The edge list. -/
abbrev a1 : Arr Ideal S2x800000 .i32 := m ((c.tc : Thread nD τ).loc main_arg1)
/-- The edge weights. -/
abbrev a2 : Arr Ideal S800000 .f32 := m ((c.tc : Thread nD τ).loc main_arg2)
/-- The graph id of each node. -/
abbrev a3 : Arr Ideal S50000 .i32 := m ((c.tc : Thread nD τ).loc main_arg3)
/-- The three layers' weights and biases. -/
abbrev a4 : Arr Ideal S128x128 .f32 := m ((c.tc : Thread nD τ).loc main_arg4)
abbrev a5 : Arr Ideal S128 .f32 := m ((c.tc : Thread nD τ).loc main_arg5)
abbrev a6 : Arr Ideal S128x128 .f32 := m ((c.tc : Thread nD τ).loc main_arg6)
abbrev a7 : Arr Ideal S128 .f32 := m ((c.tc : Thread nD τ).loc main_arg7)
abbrev a8 : Arr Ideal S128x64 .f32 := m ((c.tc : Thread nD τ).loc main_arg8)
abbrev a9 : Arr Ideal S64 .f32 := m ((c.tc : Thread nD τ).loc main_arg9)

/-- The first layer's linear map. -/
def h1 : Arr Ideal S50000x128 .f32 := Cert.Spec.lin128 (a0 m c) (a4 m c) (a5 m c)
/-- Its messages. -/
def g1 : Arr Ideal S50000x128 .f32 :=
  Cert.Spec.msg128 (h1 m c) (Cert.Spec.srcCol (a1 m c)) (Cert.Spec.dstCol (a1 m c)) (a2 m c)
/-- The second layer's linear map, of the first layer's output. -/
def h2 : Arr Ideal S50000x128 .f32 := Cert.Spec.lin128 (addf (F := Ideal) (s := S50000x128) (φ := .f32) (g1 m c) (h1 m c)) (a6 m c) (a7 m c)
/-- Its messages. -/
def g2 : Arr Ideal S50000x128 .f32 :=
  Cert.Spec.msg128 (h2 m c) (Cert.Spec.srcCol (a1 m c)) (Cert.Spec.dstCol (a1 m c)) (a2 m c)
/-- The third layer's linear map, of the second layer's output. -/
def h3 : Arr Ideal S50000x64 .f32 := Cert.Spec.lin64 (addf (F := Ideal) (s := S50000x128) (φ := .f32) (g2 m c) (h2 m c)) (a8 m c) (a9 m c)
/-- Its messages. -/
def g3 : Arr Ideal S50000x64 .f32 :=
  Cert.Spec.msg64 (h3 m c) (Cert.Spec.srcCol (a1 m c)) (Cert.Spec.dstCol (a1 m c)) (a2 m c)
/-- The graph ids as a column. -/
def idsCol : Arr Ideal S50000x1 .i32 :=
  broadcastInDim Cert.ReferenceIdeal.S50000x1 ![0] Cert.ReferenceIdeal.Gen.bcast_S50000_S50000x1_0 (a3 m c)

/-- The network is the pool of the third layer's output over the graph ids' column. -/
theorem model_eq :
    Cert.Spec.model (a0 m c) (a1 m c) (a2 m c) (a3 m c) (a4 m c) (a5 m c) (a6 m c) (a7 m c) (a8 m c) (a9 m c)
      = Cert.Spec.pool (addf (F := Ideal) (s := S50000x64) (φ := .f32) (g3 m c) (h3 m c)) (idsCol m c) := by
  unfold Cert.Spec.model idsCol g3 h3 g2 h2 g1 h1
  rfl

/-- Widening a rounded array changes nothing: both formats' values are the same numbers. -/
theorem extf_id {s : Shape} {φ ψ : FTy} (x : FVec Ideal s φ) (h : φ.bits < ψ.bits) : extf ψ x h = x := rfl

/-! ## A buffer nothing has written yet holds its launch contents -/

theorem W1_launch (b : Ref sig .tc) (h0 : b ∉ hostOps0_W) :
    W1 m ρ c (Proc.devRef .tc b) = m ((c.tc : Thread nD τ).loc b) := (W1_keep m ρ c b h0).trans rfl
theorem W2_W1 (b : Ref sig .tc) (k0 : ∀ w : Fin cfg0.W, (cfg0.win w).isOut = true → Pipeline.arrRef spec0 w ≠ b) :
    W2 m ρ c (Proc.devRef .tc b) = W1 m ρ c (Proc.devRef .tc b) := W2_keep m ρ c b k0
theorem W4_W1 (b : Ref sig .tc) (k0 : ∀ w : Fin cfg0.W, (cfg0.win w).isOut = true → Pipeline.arrRef spec0 w ≠ b)
    (h1 : b ∉ hostOps1_W) (k1 : ∀ w : Fin cfg1.W, (cfg1.win w).isOut = true → Pipeline.arrRef spec1 w ≠ b) :
    W4 m ρ c (Proc.devRef .tc b) = W1 m ρ c (Proc.devRef .tc b) :=
  (W4_keep m ρ c b k1).trans ((W3_keep m ρ c b h1).trans (W2_keep m ρ c b k0))
theorem W6_W1 (b : Ref sig .tc) (k0 : ∀ w : Fin cfg0.W, (cfg0.win w).isOut = true → Pipeline.arrRef spec0 w ≠ b)
    (h1 : b ∉ hostOps1_W) (k1 : ∀ w : Fin cfg1.W, (cfg1.win w).isOut = true → Pipeline.arrRef spec1 w ≠ b)
    (h2 : b ∉ hostOps2_W) (k2 : ∀ w : Fin cfg2.W, (cfg2.win w).isOut = true → Pipeline.arrRef spec2 w ≠ b) :
    W6 m ρ c (Proc.devRef .tc b) = W1 m ρ c (Proc.devRef .tc b) :=
  (W6_keep m ρ c b k2).trans ((W5_keep m ρ c b h2).trans (W4_W1 m ρ c b k0 h1 k1))

/-! ## Stage 0: the edge list's two rows -/

theorem W1_v1 : W1 m ρ c (Proc.devRef .tc main_v1) = Cert.Spec.srcRow (a1 m c) := by
  show StableHlo.after hostOps0 _ (Proc.devRef .tc main_v1) = _
  after_results
  rfl
theorem W1_v3 : W1 m ρ c (Proc.devRef .tc main_v3) = Cert.Spec.dstRow (a1 m c) := by
  show StableHlo.after hostOps0 _ (Proc.devRef .tc main_v3) = _
  after_results
  rfl

/-! ## Stage 1: the first layer's linear map, in both output arrays -/

theorem B1_a0 : B1 m ρ c main_arg0 = a0 m c := W1_launch m ρ c main_arg0 (by decide)
theorem B1_a4 : B1 m ρ c main_arg4 = a4 m c := W1_launch m ρ c main_arg4 (by decide)
theorem B1_a5 : B1 m ρ c main_arg5 = a5 m c := W1_launch m ρ c main_arg5 (by decide)

theorem W2_v4_0 : W2 m ρ c (Proc.devRef .tc main_v4_0) = h1 m c := by
  refine (W2_arr m ρ c 3).trans ?_
  refine (lin0_f32 (B1 m ρ) c (dat0 (B1 m ρ) c) (A_eq0 (B1 m ρ) c) (after0_3 (B1 m ρ) c)).trans ?_
  rw [B1_a0, B1_a4, B1_a5]; rfl
theorem W2_v4_1 : W2 m ρ c (Proc.devRef .tc main_v4_1) = h1 m c := by
  refine (W2_arr m ρ c 4).trans ?_
  refine (lin0_bf16 (B1 m ρ) c (dat0 (B1 m ρ) c) (A_eq0 (B1 m ρ) c) (after0_4 (B1 m ρ) c)).trans ?_
  rw [B1_a0, B1_a4, B1_a5]; rfl

/-! ## Stage 2: the first layer's messages -/

theorem W2_v1 : W2 m ρ c (Proc.devRef .tc main_v1) = Cert.Spec.srcRow (a1 m c) :=
  (W2_W1 m ρ c main_v1 (by decide)).trans (W1_v1 m ρ c)
theorem W2_v3 : W2 m ρ c (Proc.devRef .tc main_v3) = Cert.Spec.dstRow (a1 m c) :=
  (W2_W1 m ρ c main_v3 (by decide)).trans (W1_v3 m ρ c)
theorem W2_a2 : W2 m ρ c (Proc.devRef .tc main_arg2) = a2 m c :=
  (W2_W1 m ρ c main_arg2 (by decide)).trans (W1_launch m ρ c main_arg2 (by decide))

theorem W3_v18 : W3 m ρ c (Proc.devRef .tc main_v18) = g1 m c := by
  show StableHlo.after hostOps1 _ (Proc.devRef .tc main_v18) = _
  after_results
  rw [W2_v4_1, W2_v1, W2_v3, W2_a2, extf_id]
  rfl

/-! ## Stage 3: the second layer's linear map -/

theorem W3_v4_0 : W3 m ρ c (Proc.devRef .tc main_v4_0) = h1 m c :=
  (W3_keep m ρ c main_v4_0 (by decide)).trans (W2_v4_0 m ρ c)
theorem B3_a6 : B3 m ρ c main_arg6 = a6 m c :=
  (W3_keep m ρ c main_arg6 (by decide)).trans ((W2_W1 m ρ c main_arg6 (by decide)).trans (W1_launch m ρ c main_arg6 (by decide)))
theorem B3_a7 : B3 m ρ c main_arg7 = a7 m c :=
  (W3_keep m ρ c main_arg7 (by decide)).trans ((W2_W1 m ρ c main_arg7 (by decide)).trans (W1_launch m ρ c main_arg7 (by decide)))

theorem W4_v19_0 : W4 m ρ c (Proc.devRef .tc main_v19_0) = h2 m c := by
  refine (W4_arr m ρ c 4).trans ?_
  refine (lin1_f32 (B3 m ρ) c (dat1 (B3 m ρ) c) (A_eq1 (B3 m ρ) c) (after1_4 (B3 m ρ) c)).trans ?_
  rw [show B3 m ρ c main_v18 = g1 m c from W3_v18 m ρ c, show B3 m ρ c main_v4_0 = h1 m c from W3_v4_0 m ρ c, B3_a6, B3_a7]; rfl
theorem W4_v19_1 : W4 m ρ c (Proc.devRef .tc main_v19_1) = h2 m c := by
  refine (W4_arr m ρ c 5).trans ?_
  refine (lin1_bf16 (B3 m ρ) c (dat1 (B3 m ρ) c) (A_eq1 (B3 m ρ) c) (after1_5 (B3 m ρ) c)).trans ?_
  rw [show B3 m ρ c main_v18 = g1 m c from W3_v18 m ρ c, show B3 m ρ c main_v4_0 = h1 m c from W3_v4_0 m ρ c, B3_a6, B3_a7]; rfl

/-! ## Stage 4: the second layer's messages -/

theorem W4_v1 : W4 m ρ c (Proc.devRef .tc main_v1) = Cert.Spec.srcRow (a1 m c) :=
  (W4_W1 m ρ c main_v1 (by decide) (by decide) (by decide)).trans (W1_v1 m ρ c)
theorem W4_v3 : W4 m ρ c (Proc.devRef .tc main_v3) = Cert.Spec.dstRow (a1 m c) :=
  (W4_W1 m ρ c main_v3 (by decide) (by decide) (by decide)).trans (W1_v3 m ρ c)
theorem W4_a2 : W4 m ρ c (Proc.devRef .tc main_arg2) = a2 m c :=
  (W4_W1 m ρ c main_arg2 (by decide) (by decide) (by decide)).trans (W1_launch m ρ c main_arg2 (by decide))

theorem W5_v33 : W5 m ρ c (Proc.devRef .tc main_v33) = g2 m c := by
  show StableHlo.after hostOps2 _ (Proc.devRef .tc main_v33) = _
  after_results
  rw [W4_v19_1, W4_v1, W4_v3, W4_a2, extf_id]
  rfl

/-! ## Stage 5: the third layer's linear map -/

theorem W5_v19_0 : W5 m ρ c (Proc.devRef .tc main_v19_0) = h2 m c :=
  (W5_keep m ρ c main_v19_0 (by decide)).trans (W4_v19_0 m ρ c)
theorem B5_a8 : B5 m ρ c main_arg8 = a8 m c :=
  (W5_keep m ρ c main_arg8 (by decide)).trans
    ((W4_W1 m ρ c main_arg8 (by decide) (by decide) (by decide)).trans (W1_launch m ρ c main_arg8 (by decide)))
theorem B5_a9 : B5 m ρ c main_arg9 = a9 m c :=
  (W5_keep m ρ c main_arg9 (by decide)).trans
    ((W4_W1 m ρ c main_arg9 (by decide) (by decide) (by decide)).trans (W1_launch m ρ c main_arg9 (by decide)))

theorem W6_v34_0 : W6 m ρ c (Proc.devRef .tc main_v34_0) = h3 m c := by
  refine (W6_arr m ρ c 4).trans ?_
  refine (lin2_f32 (B5 m ρ) c (dat2 (B5 m ρ) c) (A_eq2 (B5 m ρ) c) (after2_4 (B5 m ρ) c)).trans ?_
  rw [show B5 m ρ c main_v33 = g2 m c from W5_v33 m ρ c, show B5 m ρ c main_v19_0 = h2 m c from W5_v19_0 m ρ c, B5_a8, B5_a9]; rfl
theorem W6_v34_1 : W6 m ρ c (Proc.devRef .tc main_v34_1) = h3 m c := by
  refine (W6_arr m ρ c 5).trans ?_
  refine (lin2_bf16 (B5 m ρ) c (dat2 (B5 m ρ) c) (A_eq2 (B5 m ρ) c) (after2_5 (B5 m ρ) c)).trans ?_
  rw [show B5 m ρ c main_v33 = g2 m c from W5_v33 m ρ c, show B5 m ρ c main_v19_0 = h2 m c from W5_v19_0 m ρ c, B5_a8, B5_a9]; rfl

/-! ## Stage 6: the third layer's messages, and the graph ids as a column -/

theorem W6_v1 : W6 m ρ c (Proc.devRef .tc main_v1) = Cert.Spec.srcRow (a1 m c) :=
  (W6_W1 m ρ c main_v1 (by decide) (by decide) (by decide) (by decide) (by decide)).trans (W1_v1 m ρ c)
theorem W6_v3 : W6 m ρ c (Proc.devRef .tc main_v3) = Cert.Spec.dstRow (a1 m c) :=
  (W6_W1 m ρ c main_v3 (by decide) (by decide) (by decide) (by decide) (by decide)).trans (W1_v3 m ρ c)
theorem W6_a2 : W6 m ρ c (Proc.devRef .tc main_arg2) = a2 m c :=
  (W6_W1 m ρ c main_arg2 (by decide) (by decide) (by decide) (by decide) (by decide)).trans (W1_launch m ρ c main_arg2 (by decide))
theorem W6_a3 : W6 m ρ c (Proc.devRef .tc main_arg3) = a3 m c :=
  (W6_W1 m ρ c main_arg3 (by decide) (by decide) (by decide) (by decide) (by decide)).trans (W1_launch m ρ c main_arg3 (by decide))

theorem W7_v48 : W7 m ρ c (Proc.devRef .tc main_v48) = g3 m c := by
  show StableHlo.after hostOps3 _ (Proc.devRef .tc main_v48) = _
  after_results
  rw [W6_v34_1, W6_v1, W6_v3, W6_a2, extf_id]
  rfl
theorem W7_v34_0 : W7 m ρ c (Proc.devRef .tc main_v34_0) = h3 m c :=
  (W7_keep m ρ c main_v34_0 (by decide)).trans (W6_v34_0 m ρ c)

/-- A vector recast as a one-column matrix is the vector broadcast along the rows: entry (i, 0) is entry i either way. -/
theorem col_eq (x : Arr Ideal S50000 .i32) :
    (shapeCast S50000x1 x shapeCasts_S50000_S50000x1 : Arr Ideal S50000x1 .i32)
      = broadcastInDim Cert.ReferenceIdeal.S50000x1 ![0] Cert.ReferenceIdeal.Gen.bcast_S50000_S50000x1_0 x := by
  funext j
  -- the broadcast reads the vector at the row coordinate; the recast reads it at the same row-major position
  show shapeCast S50000x1 x shapeCasts_S50000_S50000x1 j = x _
  refine shapeCast_apply x shapeCasts_S50000_S50000x1 j _ ?_
  have hcol : (j 1).val = 0 := by have := (j 1).isLt; exact Nat.lt_one_iff.mp this
  refine (Shape.rowMajor_val_one (d := ![50000]) _).trans ?_
  refine Eq.trans ?_ (Shape.rowMajor_val_two (d := ![50000, 1]) j).symm
  rw [hcol, dif_neg (by decide)]
  show (j 0).val = (j 0).val * 1 + 0
  omega

theorem W7_v49 : W7 m ρ c (Proc.devRef .tc main_v49) = idsCol m c := by
  show StableHlo.after hostOps3 _ (Proc.devRef .tc main_v49) = _
  after_results
  rw [W6_a3]
  exact col_eq (a3 m c)

/-! ## Stage 7: the pool, and the network -/

theorem kernel_value :
    W8 m ρ c (Proc.devRef .tc main_v50)
      = Cert.Spec.model (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  refine (W8_result m ρ c).trans ?_
  refine (pool_value (B7 m ρ) c (dat3 (B7 m ρ) c) (A_eq3 (B7 m ρ) c) (after3_3 (B7 m ρ) c)).trans ?_
  rw [show B7 m ρ c main_v48 = g3 m c from W7_v48 m ρ c, show B7 m ρ c main_v34_0 = h3 m c from W7_v34_0 m ρ c,
    show B7 m ρ c main_v49 = idsCol m c from W7_v49 m ρ c]
  exact (model_eq m c).symm

end Cert.KernelIdeal.Val

end
-- ==== Proof.lean ====
import proofs.«412827_j90649579749762_2_alg».proof.Defs
import proofs.«412827_j90649579749762_2_alg».proof.Proof.Gen.Kernel
import proofs.«412827_j90649579749762_2_alg».proof.Proof.Gen.KernelIdeal
import proofs.«412827_j90649579749762_2_alg».proof.Proof.Gen.ReferenceIdeal
import proofs.«412827_j90649579749762_2_alg».proof.Proof.Gen.Pre_finite_inputs
import proofs.«412827_j90649579749762_2_alg».proof.Proof.K.Run
import proofs.«412827_j90649579749762_2_alg».proof.Proof.KI.Run
import proofs.«412827_j90649579749762_2_alg».proof.Proof.Spec
import proofs.«412827_j90649579749762_2_alg».proof.Proof.Val.Chain
import Idealize.ShloMosaic.Adequacy
import Idealize.ShloMosaic.Init

/-!
A three-layer message-passing network with a per-graph mean pool, as four tiled kernels among host gathers and
scatter-adds, against the same network written with whole-array operations.

Over the extended reals both programs compute, layer by layer, `h = x · W + b` on the rows, the messages
`agg[i] = Σ_{e : dst e = i} h[src e] · w_e`, the next layer's input `agg + h`, and at the end, per graph `g`,
`(Σ_{i : batch i = g} (agg + h)[i]) / max(#{i : batch i = g}, 1)`. The kernel program tiles the rows in ten tiles of 5000
(a tile's matrix product starts from a zero accumulator; the bias is added per tile), keeps a second copy of each
layer's rows in a narrower float format for the gather (the same extended reals), and pools by multiplying a one-hot
matrix of the graph ids into two accumulators carried over the tiles; the reference uses one matrix product per layer
and two scatter-adds for the pool. The two agree entry by entry: a sum over the tiles of the sums over a tile's rows
with id `g` is the sum over all rows with id `g`, `1 · x = x` and `0 · x = 0`; no finiteness is needed.

The frames: each kernel program's run (at the word level and over the extended reals) leaves the argument arrays as
launched, because no host operation and no pipeline writes one; the reference's run is its operations' fold.
-/

noncomputable section

namespace Cert.Proof

open Idealize.ShloMosaic Idealize.ShloMosaic.TcCoe Idealize.SL.Sem

/-- The kernel program read at the word level runs, faults nowhere and leaves its arguments unchanged. -/
theorem frame_k : Cert.frame_Kernel := fun m ρ _ =>
  (θ_run (Cert.Kernel.defs (F := Bits)) _ _).mono (fun _ h c => (h c).2) (Cert.Kernel.Hand.run_main (F := Bits) m ρ)

/-- The same program read over the extended reals. -/
theorem frame_ki : Cert.frame_KernelIdeal := fun m ρ _ =>
  (θ_run (Cert.KernelIdeal.defs (F := Ideal)) _ _).mono (fun _ h c => (h c).2) (Cert.KernelIdeal.Hand.run_main (F := Ideal) m ρ)

/-- The reference: the run of its host operations with the result dropped. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- From memories that agree on the arguments both programs end at the network of those arguments. -/
theorem algebraic : Cert.algebraic_KernelIdeal_ReferenceIdeal := by
  intro m ρ m' ρ' _ hagree
  refine ⟨fun c => Cert.Spec.model
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    ?_, ?_⟩
  · exact (θ_run (Cert.KernelIdeal.defs (F := Ideal)) _ _).mono
      (fun _ h c => ⟨(h c).1.trans (Cert.KernelIdeal.Val.kernel_value m ρ c), (h c).2⟩)
      (Cert.KernelIdeal.Hand.run_main (F := Ideal) m ρ)
  · refine (θ_run (Cert.ReferenceIdeal.defs (F := Ideal)) _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.Spec.ref_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
